-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x13 : Shape := ⟨2, ![250000, 13]⟩
abbrev S2x4000000 : Shape := ⟨2, ![2, 4000000]⟩
abbrev S250000 : Shape := ⟨1, ![250000]⟩
abbrev S13x16 : Shape := ⟨2, ![13, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S8x1 : Shape := ⟨2, ![8, 1]⟩
abbrev S1 : Shape := ⟨1, ![1]⟩
abbrev S_ : Shape := ⟨0, ![]⟩

class Facts : Prop where
  bcast_S_S250000x13 : S_.BroadcastsInDim S250000x13 (![] : Fin 0 → Fin S250000x13.rank)
  reducesTo_S250000x13_S_d0_1 : S250000x13.ReducesTo [0, 1] S_
  h_S_ : 0 < S_.numel
  bcast_S_S13x16 : S_.BroadcastsInDim S13x16 (![] : Fin 0 → Fin S13x16.rank)
  reducesTo_S13x16_S_d0_1 : S13x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S8x1 .f32) (main_v50 : FVec F S8x1 .f32) : IVec S_ 1 :=
  let main_v51 : IVec S8x1 1 := cmpf .olt main_v49 main_v50
  let main_c_19 : IVec S_ 1 := constantI S_ 1 1#1
  let main_v52 : IVec S_ 1 := (fun x v => Host.reduce IntOp.andi x v reducesTo_S8x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S8x4 .f32) (main_arg10 : FVec F S4 .f32) (main_arg11 : FVec F S8x4 .f32) (main_arg12 : FVec F S8x1 .f32) (main_arg13 : FVec F S1 .f32) (main_v33 : IVec S_ 1) : IVec S_ 1 :=
  let main_v34 : FVec F S8x4 .f32 := Host.absf main_arg9
  let main_cst_12 : FVec F S_ .f32 := constant S_ .f32 0x7F800000#32
  let main_v35 : FVec F S8x4 .f32 := broadcastInDim S8x4 ![] bcast_S_S8x4 main_cst_12
  let main_v36 : IVec S8x4 1 := cmpf .olt main_v34 main_v35
  let main_c_13 : IVec S_ 1 := constantI S_ 1 1#1
  let main_v37 : IVec S_ 1 := (fun x v => Host.reduce IntOp.andi x v reducesTo_S8x4_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S8x4 .f32 := Host.absf main_arg11
  let main_cst_16 : FVec F S_ .f32 := constant S_ .f32 0x7F800000#32
  let main_v45 : FVec F S8x4 .f32 := broadcastInDim S8x4 ![] bcast_S_S8x4 main_cst_16
  let main_v46 : IVec S8x4 1 := cmpf .olt main_v44 main_v45
  let main_c_17 : IVec S_ 1 := constantI S_ 1 1#1
  let main_v47 : IVec S_ 1 := (fun x v => Host.reduce IntOp.andi x v reducesTo_S8x4_S_d0_1 h_S_) main_v46 main_c_17
  let main_v48 : IVec S_ 1 := andi main_v43 main_v47
  let main_v49 : FVec F S8x1 .f32 := Host.absf main_arg12
  let main_cst_18 : FVec F S_ .f32 := constant S_ .f32 0x7F800000#32
  let main_v50 : FVec F S8x1 .f32 := broadcastInDim S8x1 ![] bcast_S_S8x1 main_cst_18
  fn_part3 (F := F) main_arg13 main_v48 main_v49 main_v50

def fn_part1 {F : FTy → Type} [FloatOps F] (main_arg6 : FVec F S16x8 .f32) (main_arg7 : FVec F S8 .f32) (main_arg8 : FVec F S16x8 .f32) (main_arg9 : FVec F S8x4 .f32) (main_arg10 : FVec F S4 .f32) (main_arg11 : FVec F S8x4 .f32) (main_arg12 : FVec F S8x1 .f32) (main_arg13 : FVec F S1 .f32) (main_v13 : IVec S_ 1) (main_v16 : IVec S13x16 1) : IVec S_ 1 :=
  let main_c_5 : IVec S_ 1 := constantI S_ 1 1#1
  let main_v17 : IVec S_ 1 := (fun x v => Host.reduce IntOp.andi x v reducesTo_S13x16_S_d0_1 h_S_) main_v16 main_c_5
  let main_v18 : IVec S_ 1 := andi main_v13 main_v17
  let main_v19 : FVec F S16x8 .f32 := Host.absf main_arg6
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S16x8 .f32 := Host.absf main_arg8
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S250000x13 .f32) (main_arg1 : IVec S2x4000000 32) (main_arg2 : IVec S250000 32) (main_arg3 : FVec F S13x16 .f32) (main_arg4 : FVec F S16 .f32) (main_arg5 : FVec F S13x16 .f32) (main_arg6 : FVec F S16x8 .f32) (main_arg7 : FVec F S8 .f32) (main_arg8 : FVec F S16x8 .f32) (main_arg9 : FVec F S8x4 .f32) (main_arg10 : FVec F S4 .f32) (main_arg11 : FVec F S8x4 .f32) (main_arg12 : FVec F S8x1 .f32) (main_arg13 : FVec F S1 .f32) : IVec S_ 1 :=
  let main_v0 : FVec F S250000x13 .f32 := Host.absf main_arg0
  let main_cst : FVec F S_ .f32 := constant S_ .f32 0x7F800000#32
  let main_v1 : FVec F S250000x13 .f32 := broadcastInDim S250000x13 ![] bcast_S_S250000x13 main_cst
  let main_v2 : IVec S250000x13 1 := cmpf .olt main_v0 main_v1
  let main_c : IVec S_ 1 := constantI S_ 1 1#1
  let main_v3 : IVec S_ 1 := (fun x v => Host.reduce IntOp.andi x v reducesTo_S250000x13_S_d0_1 h_S_) main_v2 main_c
  let main_v4 : FVec F S13x16 .f32 := Host.absf main_arg3
  let main_cst_0 : FVec F S_ .f32 := constant S_ .f32 0x7F800000#32
  let main_v5 : FVec F S13x16 .f32 := broadcastInDim S13x16 ![] bcast_S_S13x16 main_cst_0
  let main_v6 : IVec S13x16 1 := cmpf .olt main_v4 main_v5
  let main_c_1 : IVec S_ 1 := constantI S_ 1 1#1
  let main_v7 : IVec S_ 1 := (fun x v => Host.reduce IntOp.andi x v reducesTo_S13x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S13x16 .f32 := Host.absf main_arg5
  let main_cst_4 : FVec F S_ .f32 := constant S_ .f32 0x7F800000#32
  let main_v15 : FVec F S13x16 .f32 := broadcastInDim S13x16 ![] bcast_S_S13x16 main_cst_4
  let main_v16 : IVec S13x16 1 := cmpf .olt main_v14 main_v15
  fn_part1 (F := F) main_arg6 main_arg7 main_arg8 main_arg9 main_arg10 main_arg11 main_arg12 main_arg13 main_v13 main_v16
-- ==== Kernel.lean ====
abbrev S250000x13 : Shape := ⟨2, ![250000, 13]⟩
abbrev S2x4000000 : Shape := ⟨2, ![2, 4000000]⟩
abbrev S250000 : Shape := ⟨1, ![250000]⟩
abbrev S13x16 : Shape := ⟨2, ![13, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S8x1 : Shape := ⟨2, ![8, 1]⟩
abbrev S1 : Shape := ⟨1, ![1]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x13 : Shape := ⟨2, ![4000000, 13]⟩
abbrev S250000x1 : Shape := ⟨2, ![250000, 1]⟩
abbrev S1x16 : Shape := ⟨2, ![1, 16]⟩
abbrev S250000x16 : Shape := ⟨2, ![250000, 16]⟩
abbrev S10000x13 : Shape := ⟨2, ![10000, 13]⟩
abbrev S10000x16 : Shape := ⟨2, ![10000, 16]⟩
abbrev S4000000x16 : Shape := ⟨2, ![4000000, 16]⟩
abbrev S1x8 : Shape := ⟨2, ![1, 8]⟩
abbrev S250000x8 : Shape := ⟨2, ![250000, 8]⟩
abbrev S10000x8 : Shape := ⟨2, ![10000, 8]⟩
abbrev S4000000x8 : Shape := ⟨2, ![4000000, 8]⟩
abbrev S1x4 : Shape := ⟨2, ![1, 4]⟩
abbrev S250000x4 : Shape := ⟨2, ![250000, 4]⟩
abbrev S10000x4 : Shape := ⟨2, ![10000, 4]⟩
abbrev S512x4 : Shape := ⟨2, ![512, 4]⟩
abbrev S512 : Shape := ⟨1, ![512]⟩
abbrev S512x1 : Shape := ⟨2, ![512, 1]⟩
abbrev S512x8 : Shape := ⟨2, ![512, 8]⟩
abbrev S1x1 : Shape := ⟨2, ![1, 1]⟩

abbrev nBuf : Space → Nat
  | .hbm => 105
  | .vmem => 27
  | .smem => 0
  | _ => 0

abbrev bufTy : (tb : Table) → Fin (tcTables nBuf tb) → BufTy
  | .hbm, ⟨0, _⟩ => ⟨S250000x13, .f32⟩
  | .hbm, ⟨1, _⟩ => ⟨S2x4000000, .i32⟩
  | .hbm, ⟨2, _⟩ => ⟨S250000, .i32⟩
  | .hbm, ⟨3, _⟩ => ⟨S13x16, .f32⟩
  | .hbm, ⟨4, _⟩ => ⟨S16, .f32⟩
  | .hbm, ⟨5, _⟩ => ⟨S13x16, .f32⟩
  | .hbm, ⟨6, _⟩ => ⟨S16x8, .f32⟩
  | .hbm, ⟨7, _⟩ => ⟨S8, .f32⟩
  | .hbm, ⟨8, _⟩ => ⟨S16x8, .f32⟩
  | .hbm, ⟨9, _⟩ => ⟨S8x4, .f32⟩
  | .hbm, ⟨10, _⟩ => ⟨S4, .f32⟩
  | .hbm, ⟨11, _⟩ => ⟨S8x4, .f32⟩
  | .hbm, ⟨12, _⟩ => ⟨S8x1, .f32⟩
  | .hbm, ⟨13, _⟩ => ⟨S1, .f32⟩
  | .hbm, ⟨14, _⟩ => ⟨S1x4000000, .i32⟩
  | .hbm, ⟨15, _⟩ => ⟨S4000000, .i32⟩
  | .hbm, ⟨16, _⟩ => ⟨S1x4000000, .i32⟩
  | .hbm, ⟨17, _⟩ => ⟨S4000000, .i32⟩
  | .hbm, ⟨18, _⟩ => ⟨S_, .f32⟩
  | .hbm, ⟨19, _⟩ => ⟨S4000000, .f32⟩
  | .hbm, ⟨20, _⟩ => ⟨S_, .f32⟩
  | .hbm, ⟨21, _⟩ => ⟨S250000, .f32⟩
  | .hbm, ⟨22, _⟩ => ⟨S4000000x1, .i32⟩
  | .hbm, ⟨23, _⟩ => ⟨S250000, .f32⟩
  | .hbm, ⟨24, _⟩ => ⟨S_, .f32⟩
  | .hbm, ⟨25, _⟩ => ⟨S250000, .f32⟩
  | .hbm, ⟨26, _⟩ => ⟨S250000, .f32⟩
  | .hbm, ⟨27, _⟩ => ⟨S_, .f32⟩
  | .hbm, ⟨28, _⟩ => ⟨S250000, .f32⟩
  | .hbm, ⟨29, _⟩ => ⟨S250000, .f32⟩
  | .hbm, ⟨30, _⟩ => ⟨S_, .i32⟩
  | .hbm, ⟨31, _⟩ => ⟨S4000000, .i32⟩
  | .hbm, ⟨32, _⟩ => ⟨S4000000, .i1⟩
  | .hbm, ⟨33, _⟩ => ⟨S_, .i32⟩
  | .hbm, ⟨34, _⟩ => ⟨S4000000, .i32⟩
  | .hbm, ⟨35, _⟩ => ⟨S4000000, .i32⟩
  | .hbm, ⟨36, _⟩ => ⟨S4000000, .i32⟩
  | .hbm, ⟨37, _⟩ => ⟨S4000000x1, .i32⟩
  | .hbm, ⟨38, _⟩ => ⟨S4000000x13, .f32⟩
  | .hbm, ⟨39, _⟩ => ⟨S_, .f32⟩
  | .hbm, ⟨40, _⟩ => ⟨S250000x13, .f32⟩
  | .hbm, ⟨41, _⟩ => ⟨S4000000x1, .i32⟩
  | .hbm, ⟨42, _⟩ => ⟨S250000x13, .f32⟩
  | .hbm, ⟨43, _⟩ => ⟨S250000x1, .f32⟩
  | .hbm, ⟨44, _⟩ => ⟨S250000x13, .f32⟩
  | .hbm, ⟨45, _⟩ => ⟨S250000x13, .f32⟩
  | .hbm, ⟨46, _⟩ => ⟨S1x16, .f32⟩
  | .hbm, ⟨47, _⟩ => ⟨S250000x16, .f32⟩
  | .hbm, ⟨48, _⟩ => ⟨S_, .i32⟩
  | .hbm, ⟨49, _⟩ => ⟨S4000000, .i32⟩
  | .hbm, ⟨50, _⟩ => ⟨S4000000, .i1⟩
  | .hbm, ⟨51, _⟩ => ⟨S_, .i32⟩
  | .hbm, ⟨52, _⟩ => ⟨S4000000, .i32⟩
  | .hbm, ⟨53, _⟩ => ⟨S4000000, .i32⟩
  | .hbm, ⟨54, _⟩ => ⟨S4000000, .i32⟩
  | .hbm, ⟨55, _⟩ => ⟨S4000000x1, .i32⟩
  | .hbm, ⟨56, _⟩ => ⟨S4000000x16, .f32⟩
  | .hbm, ⟨57, _⟩ => ⟨S_, .f32⟩
  | .hbm, ⟨58, _⟩ => ⟨S250000x16, .f32⟩
  | .hbm, ⟨59, _⟩ => ⟨S4000000x1, .i32⟩
  | .hbm, ⟨60, _⟩ => ⟨S250000x16, .f32⟩
  | .hbm, ⟨61, _⟩ => ⟨S250000x1, .f32⟩
  | .hbm, ⟨62, _⟩ => ⟨S250000x16, .f32⟩
  | .hbm, ⟨63, _⟩ => ⟨S250000x16, .f32⟩
  | .hbm, ⟨64, _⟩ => ⟨S1x8, .f32⟩
  | .hbm, ⟨65, _⟩ => ⟨S250000x8, .f32⟩
  | .hbm, ⟨66, _⟩ => ⟨S_, .i32⟩
  | .hbm, ⟨67, _⟩ => ⟨S4000000, .i32⟩
  | .hbm, ⟨68, _⟩ => ⟨S4000000, .i1⟩
  | .hbm, ⟨69, _⟩ => ⟨S_, .i32⟩
  | .hbm, ⟨70, _⟩ => ⟨S4000000, .i32⟩
  | .hbm, ⟨71, _⟩ => ⟨S4000000, .i32⟩
  | .hbm, ⟨72, _⟩ => ⟨S4000000, .i32⟩
  | .hbm, ⟨73, _⟩ => ⟨S4000000x1, .i32⟩
  | .hbm, ⟨74, _⟩ => ⟨S4000000x8, .f32⟩
  | .hbm, ⟨75, _⟩ => ⟨S_, .f32⟩
  | .hbm, ⟨76, _⟩ => ⟨S250000x8, .f32⟩
  | .hbm, ⟨77, _⟩ => ⟨S4000000x1, .i32⟩
  | .hbm, ⟨78, _⟩ => ⟨S250000x8, .f32⟩
  | .hbm, ⟨79, _⟩ => ⟨S250000x1, .f32⟩
  | .hbm, ⟨80, _⟩ => ⟨S250000x8, .f32⟩
  | .hbm, ⟨81, _⟩ => ⟨S250000x8, .f32⟩
  | .hbm, ⟨82, _⟩ => ⟨S1x4, .f32⟩
  | .hbm, ⟨83, _⟩ => ⟨S250000x4, .f32⟩
  | .hbm, ⟨84, _⟩ => ⟨S_, .f32⟩
  | .hbm, ⟨85, _⟩ => ⟨S512x4, .f32⟩
  | .hbm, ⟨86, _⟩ => ⟨S250000x1, .i32⟩
  | .hbm, ⟨87, _⟩ => ⟨S512x4, .f32⟩
  | .hbm, ⟨88, _⟩ => ⟨S_, .f32⟩
  | .hbm, ⟨89, _⟩ => ⟨S250000, .f32⟩
  | .hbm, ⟨90, _⟩ => ⟨S_, .f32⟩
  | .hbm, ⟨91, _⟩ => ⟨S512, .f32⟩
  | .hbm, ⟨92, _⟩ => ⟨S250000x1, .i32⟩
  | .hbm, ⟨93, _⟩ => ⟨S512, .f32⟩
  | .hbm, ⟨94, _⟩ => ⟨S_, .f32⟩
  | .hbm, ⟨95, _⟩ => ⟨S512, .f32⟩
  | .hbm, ⟨96, _⟩ => ⟨S512, .f32⟩
  | .hbm, ⟨97, _⟩ => ⟨S512x1, .f32⟩
  | .hbm, ⟨98, _⟩ => ⟨S512x4, .f32⟩
  | .hbm, ⟨99, _⟩ => ⟨S512x4, .f32⟩
  | .hbm, ⟨100, _⟩ => ⟨S512x8, .f32⟩
  | .hbm, ⟨101, _⟩ => ⟨S512x1, .f32⟩
  | .hbm, ⟨102, _⟩ => ⟨S1x1, .f32⟩
  | .hbm, ⟨103, _⟩ => ⟨S512x1, .f32⟩
  | .hbm, ⟨104, _⟩ => ⟨S512x1, .f32⟩
  | .local _ .vmem, ⟨0, _⟩ => ⟨S10000x13, .f32⟩
  | .local _ .vmem, ⟨1, _⟩ => ⟨S10000x13, .f32⟩
  | .local _ .vmem, ⟨2, _⟩ => ⟨S10000x13, .f32⟩
  | .local _ .vmem, ⟨3, _⟩ => ⟨S10000x13, .f32⟩
  | .local _ .vmem, ⟨4, _⟩ => ⟨S13x16, .f32⟩
  | .local _ .vmem, ⟨5, _⟩ => ⟨S1x16, .f32⟩
  | .local _ .vmem, ⟨6, _⟩ => ⟨S13x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16x8, .f32⟩
  | .local _ .vmem, ⟨14, _⟩ => ⟨S1x8, .f32⟩
  | .local _ .vmem, ⟨15, _⟩ => ⟨S16x8, .f32⟩
  | .local _ .vmem, ⟨16, _⟩ => ⟨S10000x8, .f32⟩
  | .local _ .vmem, ⟨17, _⟩ => ⟨S10000x8, .f32⟩
  | .local _ .vmem, ⟨18, _⟩ => ⟨S10000x8, .f32⟩
  | .local _ .vmem, ⟨19, _⟩ => ⟨S10000x8, .f32⟩
  | .local _ .vmem, ⟨20, _⟩ => ⟨S10000x8, .f32⟩
  | .local _ .vmem, ⟨21, _⟩ => ⟨S10000x8, .f32⟩
  | .local _ .vmem, ⟨22, _⟩ => ⟨S8x4, .f32⟩
  | .local _ .vmem, ⟨23, _⟩ => ⟨S1x4, .f32⟩
  | .local _ .vmem, ⟨24, _⟩ => ⟨S8x4, .f32⟩
  | .local _ .vmem, ⟨25, _⟩ => ⟨S10000x4, .f32⟩
  | .local _ .vmem, ⟨26, _⟩ => ⟨S10000x4, .f32⟩
  | _, _ => ⟨S250000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S250000 : S_.BroadcastsInDim S250000 (![] : Fin 0 → Fin S250000.rank)
  bcast_S4000000_S4000000x1_0 : S4000000.BroadcastsInDim S4000000x1 (![0] : Fin 1 → Fin S4000000x1.rank)
  bcast_S_S250000x13 : S_.BroadcastsInDim S250000x13 (![] : Fin 0 → Fin S250000x13.rank)
  bcast_S250000_S250000x1_0 : S250000.BroadcastsInDim S250000x1 (![0] : Fin 1 → Fin S250000x1.rank)
  bcast_S250000x1_S250000x13_0_1 : S250000x1.BroadcastsInDim S250000x13 (![0, 1] : Fin 2 → Fin S250000x13.rank)
  shapeCasts_S16_S1x16 : S16.ShapeCasts S1x16
  inb_S10000x13_S10000x13_0_0 : ∀ a, (![0, 0] : Fin 2 → Nat) a + S10000x13.size a ≤ S10000x13.size a
  h_S10000x13 : 0 < S10000x13.numel
  shapeCasts_S10000x13_S10000x13 : S10000x13.ShapeCasts S10000x13
  inb_S13x16_S13x16_0_0 : ∀ a, (![0, 0] : Fin 2 → Nat) a + S13x16.size a ≤ S13x16.size a
  h_S13x16 : 0 < S13x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S250000x16 : S_.BroadcastsInDim S250000x16 (![] : Fin 0 → Fin S250000x16.rank)
  bcast_S250000x1_S250000x16_0_1 : S250000x1.BroadcastsInDim S250000x16 (![0, 1] : Fin 2 → Fin S250000x16.rank)
  shapeCasts_S8_S1x8 : S8.ShapeCasts S1x8
  shapeCasts_S10000x16_S10000x16 : S10000x16.ShapeCasts S10000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  bcast_S_S250000x8 : S_.BroadcastsInDim S250000x8 (![] : Fin 0 → Fin S250000x8.rank)
  bcast_S250000x1_S250000x8_0_1 : S250000x1.BroadcastsInDim S250000x8 (![0, 1] : Fin 2 → Fin S250000x8.rank)
  shapeCasts_S4_S1x4 : S4.ShapeCasts S1x4
  shapeCasts_S10000x8_S10000x8 : S10000x8.ShapeCasts S10000x8
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  bcast_S_S512x4 : S_.BroadcastsInDim S512x4 (![] : Fin 0 → Fin S512x4.rank)
  bcast_S_S512 : S_.BroadcastsInDim S512 (![] : Fin 0 → Fin S512.rank)
  bcast_S512_S512x1_0 : S512.BroadcastsInDim S512x1 (![0] : Fin 1 → Fin S512x1.rank)
  bcast_S512x1_S512x4_0_1 : S512x1.BroadcastsInDim S512x4 (![0, 1] : Fin 2 → Fin S512x4.rank)
  concatenates_S512x4_S512x4_S512x8_d1 : Shape.Concatenates [S512x4, S512x4] S512x8 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S250000_S4000000x1_S4000000_n_0_0_1_wf : ScatterDims.WF S250000 S4000000x1 S4000000 [] [0] [0] 1
  gather_S250000x13_S4000000x1_S4000000x13_1_0_n_n_0_1_113_wf : GatherDims.WF S250000x13 S4000000x1 S4000000x13 [1] [0] [] [0] [] 1 ![1, 13]
  scatter_S250000x13_S4000000x1_S4000000x13_1_0_0_1_wf : ScatterDims.WF S250000x13 S4000000x1 S4000000x13 [1] [0] [0] 1
  dot_S10000x13_S13x16_S10000x16_1_0_0_1_n_n_wf : DotDims.WF S10000x13 S13x16 S10000x16 [1] [0] [0] [1] [] []
  gather_S250000x16_S4000000x1_S4000000x16_1_0_n_n_0_1_116_wf : GatherDims.WF S250000x16 S4000000x1 S4000000x16 [1] [0] [] [0] [] 1 ![1, 16]
  scatter_S250000x16_S4000000x1_S4000000x16_1_0_0_1_wf : ScatterDims.WF S250000x16 S4000000x1 S4000000x16 [1] [0] [0] 1
  dot_S10000x16_S16x8_S10000x8_1_0_0_1_n_n_wf : DotDims.WF S10000x16 S16x8 S10000x8 [1] [0] [0] [1] [] []
  gather_S250000x8_S4000000x1_S4000000x8_1_0_n_n_0_1_18_wf : GatherDims.WF S250000x8 S4000000x1 S4000000x8 [1] [0] [] [0] [] 1 ![1, 8]
  scatter_S250000x8_S4000000x1_S4000000x8_1_0_0_1_wf : ScatterDims.WF S250000x8 S4000000x1 S4000000x8 [1] [0] [0] 1
  dot_S10000x8_S8x4_S10000x4_1_0_0_1_n_n_wf : DotDims.WF S10000x8 S8x4 S10000x4 [1] [0] [0] [1] [] []
  scatter_S512x4_S250000x1_S250000x4_1_0_0_1_wf : ScatterDims.WF S512x4 S250000x1 S250000x4 [1] [0] [0] 1
  scatter_S512_S250000x1_S250000_n_0_0_1_wf : ScatterDims.WF S512 S250000x1 S250000 [] [0] [0] 1
  dot_S512x8_S8x1_S512x1_1_0_0_1_n_n_wf : DotDims.WF S512x8 S8x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x13.size a ≤ S250000x13.size a
  hwx0_0 : ∀ i : grid0.Coords, EltTy.bits .f32 = 32 ∨ (Rect.block (s := S250000x13) S10000x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x13.size a ≤ S250000x13.size a
  hwx0_1 : ∀ i : grid0.Coords, EltTy.bits .f32 = 32 ∨ (Rect.block (s := S250000x13) S10000x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x16.size a ≤ S13x16.size a
  hwx0_2 : ∀ i : grid0.Coords, EltTy.bits .f32 = 32 ∨ (Rect.block (s := S13x16) S13x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x16.size a ≤ S13x16.size a
  hwx0_4 : ∀ i : grid0.Coords, EltTy.bits .f32 = 32 ∨ (Rect.block (s := S13x16) S13x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S250000x16.size a
  hwx0_5 : ∀ i : grid0.Coords, EltTy.bits .f32 = 32 ∨ (Rect.block (s := S250000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S250000x16.size a
  hwx1_0 : ∀ i : grid1.Coords, EltTy.bits .f32 = 32 ∨ (Rect.block (s := S250000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S250000x16.size a
  hwx1_1 : ∀ i : grid1.Coords, EltTy.bits .f32 = 32 ∨ (Rect.block (s := S250000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x8.size a ≤ S16x8.size a
  hwx1_4 : ∀ i : grid1.Coords, EltTy.bits .f32 = 32 ∨ (Rect.block (s := S16x8) S16x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x8.size a ≤ S250000x8.size a
  hwx1_5 : ∀ i : grid1.Coords, EltTy.bits .f32 = 32 ∨ (Rect.block (s := S250000x8) S10000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S250000x8.size a
  hwx2_0 : ∀ i : grid2.Coords, EltTy.bits .f32 = 32 ∨ (Rect.block (s := S250000x8) S10000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x8.size a ≤ S250000x8.size a
  hwx2_1 : ∀ i : grid2.Coords, EltTy.bits .f32 = 32 ∨ (Rect.block (s := S250000x8) S10000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x4.size a ≤ S8x4.size a
  hwx2_2 : ∀ i : grid2.Coords, EltTy.bits .f32 = 32 ∨ (Rect.block (s := S8x4) S8x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4.size a ≤ S1x4.size a
  hwx2_3 : ∀ i : grid2.Coords, EltTy.bits .f32 = 32 ∨ (Rect.block (s := S1x4) S1x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x4.size a ≤ S8x4.size a
  hwx2_4 : ∀ i : grid2.Coords, EltTy.bits .f32 = 32 ∨ (Rect.block (s := S8x4) S8x4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x4.size a ≤ S250000x4.size a
  hwx2_5 : ∀ i : grid2.Coords, EltTy.bits .f32 = 32 ∨ (Rect.block (s := S250000x4) S10000x4.size (cc2_transform_5 i) (hinb2_5 i)).WholeWords (EltTy.packing .f32)

variable [Facts₀]

def scatter_S250000_S4000000x1_S4000000_n_0_0_1 : ScatterDims S250000 S4000000x1 S4000000 where
  updateWindowDims := []
  insertedWindowDims := [0]
  scatterDimsToOperandDims := [0]
  indexVectorDim := 1
  wf := scatter_S250000_S4000000x1_S4000000_n_0_0_1_wf
def gather_S250000x13_S4000000x1_S4000000x13_1_0_n_n_0_1_113 : GatherDims S250000x13 S4000000x1 S4000000x13 where
  offsetDims := [1]
  collapsedSliceDims := [0]
  operandBatchingDims := []
  startIndicesBatchingDims := []
  startIndexMap := [0]
  indexVectorDim := 1
  sliceSizes := ![1, 13]
  wf := gather_S250000x13_S4000000x1_S4000000x13_1_0_n_n_0_1_113_wf
def scatter_S250000x13_S4000000x1_S4000000x13_1_0_0_1 : ScatterDims S250000x13 S4000000x1 S4000000x13 where
  updateWindowDims := [1]
  insertedWindowDims := [0]
  scatterDimsToOperandDims := [0]
  indexVectorDim := 1
  wf := scatter_S250000x13_S4000000x1_S4000000x13_1_0_0_1_wf
def dot_S10000x13_S13x16_S10000x16_1_0_0_1_n_n : DotDims S10000x13 S13x16 S10000x16 where
  lhsContracting := [1]
  rhsContracting := [0]
  lhsNonContracting := [0]
  rhsNonContracting := [1]
  lhsBatch := []
  rhsBatch := []
  wf := dot_S10000x13_S13x16_S10000x16_1_0_0_1_n_n_wf
def gather_S250000x16_S4000000x1_S4000000x16_1_0_n_n_0_1_116 : GatherDims S250000x16 S4000000x1 S4000000x16 where
  offsetDims := [1]
  collapsedSliceDims := [0]
  operandBatchingDims := []
  startIndicesBatchingDims := []
  startIndexMap := [0]
  indexVectorDim := 1
  sliceSizes := ![1, 16]
  wf := gather_S250000x16_S4000000x1_S4000000x16_1_0_n_n_0_1_116_wf
def scatter_S250000x16_S4000000x1_S4000000x16_1_0_0_1 : ScatterDims S250000x16 S4000000x1 S4000000x16 where
  updateWindowDims := [1]
  insertedWindowDims := [0]
  scatterDimsToOperandDims := [0]
  indexVectorDim := 1
  wf := scatter_S250000x16_S4000000x1_S4000000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S250000x8_S4000000x1_S4000000x8_1_0_n_n_0_1_18 : GatherDims S250000x8 S4000000x1 S4000000x8 where
  offsetDims := [1]
  collapsedSliceDims := [0]
  operandBatchingDims := []
  startIndicesBatchingDims := []
  startIndexMap := [0]
  indexVectorDim := 1
  sliceSizes := ![1, 8]
  wf := gather_S250000x8_S4000000x1_S4000000x8_1_0_n_n_0_1_18_wf
def scatter_S250000x8_S4000000x1_S4000000x8_1_0_0_1 : ScatterDims S250000x8 S4000000x1 S4000000x8 where
  updateWindowDims := [1]
  insertedWindowDims := [0]
  scatterDimsToOperandDims := [0]
  indexVectorDim := 1
  wf := scatter_S250000x8_S4000000x1_S4000000x8_1_0_0_1_wf
def dot_S10000x8_S8x4_S10000x4_1_0_0_1_n_n : DotDims S10000x8 S8x4 S10000x4 where
  lhsContracting := [1]
  rhsContracting := [0]
  lhsNonContracting := [0]
  rhsNonContracting := [1]
  lhsBatch := []
  rhsBatch := []
  wf := dot_S10000x8_S8x4_S10000x4_1_0_0_1_n_n_wf
def scatter_S512x4_S250000x1_S250000x4_1_0_0_1 : ScatterDims S512x4 S250000x1 S250000x4 where
  updateWindowDims := [1]
  insertedWindowDims := [0]
  scatterDimsToOperandDims := [0]
  indexVectorDim := 1
  wf := scatter_S512x4_S250000x1_S250000x4_1_0_0_1_wf
def scatter_S512_S250000x1_S250000_n_0_0_1 : ScatterDims S512 S250000x1 S250000 where
  updateWindowDims := []
  insertedWindowDims := [0]
  scatterDimsToOperandDims := [0]
  indexVectorDim := 1
  wf := scatter_S512_S250000x1_S250000_n_0_0_1_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

abbrev win0_0 : Pipeline.Window sig grid0 :=
  Pipeline.Window.ofSpec (Memref.whole main_v24) S10000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S13x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S13x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S10000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S8x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S8x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S10000x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S250000x13 : Shape := ⟨2, ![250000, 13]⟩
abbrev S2x4000000 : Shape := ⟨2, ![2, 4000000]⟩
abbrev S250000 : Shape := ⟨1, ![250000]⟩
abbrev S13x16 : Shape := ⟨2, ![13, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S8x1 : Shape := ⟨2, ![8, 1]⟩
abbrev S1 : Shape := ⟨1, ![1]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x13 : Shape := ⟨2, ![4000000, 13]⟩
abbrev S250000x1 : Shape := ⟨2, ![250000, 1]⟩
abbrev S250000x16 : Shape := ⟨2, ![250000, 16]⟩
abbrev S1x16 : Shape := ⟨2, ![1, 16]⟩
abbrev S4000000x16 : Shape := ⟨2, ![4000000, 16]⟩
abbrev S250000x8 : Shape := ⟨2, ![250000, 8]⟩
abbrev S1x8 : Shape := ⟨2, ![1, 8]⟩
abbrev S4000000x8 : Shape := ⟨2, ![4000000, 8]⟩
abbrev S250000x4 : Shape := ⟨2, ![250000, 4]⟩
abbrev S1x4 : Shape := ⟨2, ![1, 4]⟩
abbrev S512x4 : Shape := ⟨2, ![512, 4]⟩
abbrev S512 : Shape := ⟨1, ![512]⟩
abbrev S512x1 : Shape := ⟨2, ![512, 1]⟩
abbrev S512x8 : Shape := ⟨2, ![512, 8]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S250000x13, .f32⟩
  | 1 => ⟨S2x4000000, .i32⟩
  | 2 => ⟨S250000, .i32⟩
  | 3 => ⟨S13x16, .f32⟩
  | 4 => ⟨S16, .f32⟩
  | 5 => ⟨S13x16, .f32⟩
  | 6 => ⟨S16x8, .f32⟩
  | 7 => ⟨S8, .f32⟩
  | 8 => ⟨S16x8, .f32⟩
  | 9 => ⟨S8x4, .f32⟩
  | 10 => ⟨S4, .f32⟩
  | 11 => ⟨S8x4, .f32⟩
  | 12 => ⟨S8x1, .f32⟩
  | 13 => ⟨S1, .f32⟩
  | 14 => ⟨S1x4000000, .i32⟩
  | 15 => ⟨S4000000, .i32⟩
  | 16 => ⟨S1x4000000, .i32⟩
  | 17 => ⟨S4000000, .i32⟩
  | 18 => ⟨S_, .i32⟩
  | 19 => ⟨S4000000, .i32⟩
  | 20 => ⟨S4000000, .i1⟩
  | 21 => ⟨S_, .i32⟩
  | 22 => ⟨S4000000, .i32⟩
  | 23 => ⟨S4000000, .i32⟩
  | 24 => ⟨S4000000, .i32⟩
  | 25 => ⟨S4000000x1, .i32⟩
  | 26 => ⟨S4000000x13, .f32⟩
  | 27 => ⟨S_, .f32⟩
  | 28 => ⟨S250000x13, .f32⟩
  | 29 => ⟨S4000000x1, .i32⟩
  | 30 => ⟨S250000x13, .f32⟩
  | 31 => ⟨S_, .f32⟩
  | 32 => ⟨S4000000, .f32⟩
  | 33 => ⟨S_, .f32⟩
  | 34 => ⟨S250000, .f32⟩
  | 35 => ⟨S4000000x1, .i32⟩
  | 36 => ⟨S250000, .f32⟩
  | 37 => ⟨S_, .f32⟩
  | 38 => ⟨S250000, .f32⟩
  | 39 => ⟨S250000, .f32⟩
  | 40 => ⟨S250000x1, .f32⟩
  | 41 => ⟨S250000x13, .f32⟩
  | 42 => ⟨S250000x13, .f32⟩
  | 43 => ⟨S250000x16, .f32⟩
  | 44 => ⟨S1x16, .f32⟩
  | 45 => ⟨S250000x16, .f32⟩
  | 46 => ⟨S250000x16, .f32⟩
  | 47 => ⟨S250000x16, .f32⟩
  | 48 => ⟨S250000x16, .f32⟩
  | 49 => ⟨S_, .f32⟩
  | 50 => ⟨S_, .f32⟩
  | 51 => ⟨S250000x16, .f32⟩
  | 52 => ⟨S250000x16, .i1⟩
  | 53 => ⟨S_, .f32⟩
  | 54 => ⟨S250000x16, .f32⟩
  | 55 => ⟨S250000x16, .f32⟩
  | 56 => ⟨S250000x16, .f32⟩
  | 57 => ⟨S_, .i32⟩
  | 58 => ⟨S4000000, .i32⟩
  | 59 => ⟨S4000000, .i1⟩
  | 60 => ⟨S_, .i32⟩
  | 61 => ⟨S4000000, .i32⟩
  | 62 => ⟨S4000000, .i32⟩
  | 63 => ⟨S4000000, .i32⟩
  | 64 => ⟨S4000000x1, .i32⟩
  | 65 => ⟨S4000000x16, .f32⟩
  | 66 => ⟨S_, .f32⟩
  | 67 => ⟨S250000x16, .f32⟩
  | 68 => ⟨S4000000x1, .i32⟩
  | 69 => ⟨S250000x16, .f32⟩
  | 70 => ⟨S_, .f32⟩
  | 71 => ⟨S4000000, .f32⟩
  | 72 => ⟨S_, .f32⟩
  | 73 => ⟨S250000, .f32⟩
  | 74 => ⟨S4000000x1, .i32⟩
  | 75 => ⟨S250000, .f32⟩
  | 76 => ⟨S_, .f32⟩
  | 77 => ⟨S250000, .f32⟩
  | 78 => ⟨S250000, .f32⟩
  | 79 => ⟨S250000x1, .f32⟩
  | 80 => ⟨S250000x16, .f32⟩
  | 81 => ⟨S250000x16, .f32⟩
  | 82 => ⟨S250000x8, .f32⟩
  | 83 => ⟨S1x8, .f32⟩
  | 84 => ⟨S250000x8, .f32⟩
  | 85 => ⟨S250000x8, .f32⟩
  | 86 => ⟨S250000x8, .f32⟩
  | 87 => ⟨S250000x8, .f32⟩
  | 88 => ⟨S_, .f32⟩
  | 89 => ⟨S_, .f32⟩
  | 90 => ⟨S250000x8, .f32⟩
  | 91 => ⟨S250000x8, .i1⟩
  | 92 => ⟨S_, .f32⟩
  | 93 => ⟨S250000x8, .f32⟩
  | 94 => ⟨S250000x8, .f32⟩
  | 95 => ⟨S250000x8, .f32⟩
  | 96 => ⟨S_, .i32⟩
  | 97 => ⟨S4000000, .i32⟩
  | 98 => ⟨S4000000, .i1⟩
  | 99 => ⟨S_, .i32⟩
  | 100 => ⟨S4000000, .i32⟩
  | 101 => ⟨S4000000, .i32⟩
  | 102 => ⟨S4000000, .i32⟩
  | 103 => ⟨S4000000x1, .i32⟩
  | 104 => ⟨S4000000x8, .f32⟩
  | 105 => ⟨S_, .f32⟩
  | 106 => ⟨S250000x8, .f32⟩
  | 107 => ⟨S4000000x1, .i32⟩
  | 108 => ⟨S250000x8, .f32⟩
  | 109 => ⟨S_, .f32⟩
  | 110 => ⟨S4000000, .f32⟩
  | 111 => ⟨S_, .f32⟩
  | 112 => ⟨S250000, .f32⟩
  | 113 => ⟨S4000000x1, .i32⟩
  | 114 => ⟨S250000, .f32⟩
  | 115 => ⟨S_, .f32⟩
  | 116 => ⟨S250000, .f32⟩
  | 117 => ⟨S250000, .f32⟩
  | 118 => ⟨S250000x1, .f32⟩
  | 119 => ⟨S250000x8, .f32⟩
  | 120 => ⟨S250000x8, .f32⟩
  | 121 => ⟨S250000x4, .f32⟩
  | 122 => ⟨S1x4, .f32⟩
  | 123 => ⟨S250000x4, .f32⟩
  | 124 => ⟨S250000x4, .f32⟩
  | 125 => ⟨S250000x4, .f32⟩
  | 126 => ⟨S250000x4, .f32⟩
  | 127 => ⟨S_, .f32⟩
  | _ => ⟨S250000x13, .f32⟩

abbrev hbmTy0_1 (i : Nat) : BufTy := match i % 128 with
  | 0 => ⟨S512x4, .f32⟩
  | 1 => ⟨S250000x1, .i32⟩
  | 2 => ⟨S512x4, .f32⟩
  | 3 => ⟨S_, .f32⟩
  | 4 => ⟨S250000, .f32⟩
  | 5 => ⟨S_, .f32⟩
  | 6 => ⟨S512, .f32⟩
  | 7 => ⟨S250000x1, .i32⟩
  | 8 => ⟨S512, .f32⟩
  | 9 => ⟨S_, .f32⟩
  | 10 => ⟨S512, .f32⟩
  | 11 => ⟨S512, .f32⟩
  | 12 => ⟨S512x1, .f32⟩
  | 13 => ⟨S512x4, .f32⟩
  | 14 => ⟨S512x4, .f32⟩
  | 15 => ⟨S512x8, .f32⟩
  | 16 => ⟨S512x1, .f32⟩
  | 17 => ⟨S1x1, .f32⟩
  | 18 => ⟨S512x1, .f32⟩
  | 19 => ⟨S512x1, .f32⟩
  | _ => ⟨S250000x13, .f32⟩

abbrev hbmTy (i : Nat) : BufTy := match i / 128 with
  | 0 => hbmTy0_0 i
  | 1 => hbmTy0_1 i
  | _ => ⟨S250000x13, .f32⟩

abbrev bufTy : (tb : Table) → Fin (tcTables nBuf tb) → BufTy
  | .hbm, ⟨i, _⟩ => hbmTy i
  | _, _ => ⟨S250000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v55 : Ref sig .tc := ⟨.hbm, 95, rfl⟩
abbrev main_c_12 : Ref sig .tc := ⟨.hbm, 96, rfl⟩
abbrev main_v56 : Ref sig .tc := ⟨.hbm, 97, rfl⟩
abbrev main_v57 : Ref sig .tc := ⟨.hbm, 98, rfl⟩
abbrev main_c_13 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_14 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_15 : Ref sig .tc := ⟨.hbm, 109, rfl⟩
abbrev main_v66 : Ref sig .tc := ⟨.hbm, 110, rfl⟩
abbrev main_cst_16 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_17 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_18 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_19 : Ref sig .tc := ⟨.hbm, 131, rfl⟩
abbrev main_v84 : Ref sig .tc := ⟨.hbm, 132, rfl⟩
abbrev main_cst_20 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_21 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S250000x13 : S_.BroadcastsInDim S250000x13 (![] : Fin 0 → Fin S250000x13.rank)
  bcast_S_S250000 : S_.BroadcastsInDim S250000 (![] : Fin 0 → Fin S250000.rank)
  bcast_S250000_S250000x1_0 : S250000.BroadcastsInDim S250000x1 (![0] : Fin 1 → Fin S250000x1.rank)
  bcast_S250000x1_S250000x13_0_1 : S250000x1.BroadcastsInDim S250000x13 (![0, 1] : Fin 2 → Fin S250000x13.rank)
  bcast_S16_S1x16_1 : S16.BroadcastsInDim S1x16 (![1] : Fin 1 → Fin S1x16.rank)
  bcast_S1x16_S250000x16_0_1 : S1x16.BroadcastsInDim S250000x16 (![0, 1] : Fin 2 → Fin S250000x16.rank)
  bcast_S_S250000x16 : S_.BroadcastsInDim S250000x16 (![] : Fin 0 → Fin S250000x16.rank)
  bcast_S250000x1_S250000x16_0_1 : S250000x1.BroadcastsInDim S250000x16 (![0, 1] : Fin 2 → Fin S250000x16.rank)
  bcast_S8_S1x8_1 : S8.BroadcastsInDim S1x8 (![1] : Fin 1 → Fin S1x8.rank)
  bcast_S1x8_S250000x8_0_1 : S1x8.BroadcastsInDim S250000x8 (![0, 1] : Fin 2 → Fin S250000x8.rank)
  bcast_S_S250000x8 : S_.BroadcastsInDim S250000x8 (![] : Fin 0 → Fin S250000x8.rank)
  bcast_S250000x1_S250000x8_0_1 : S250000x1.BroadcastsInDim S250000x8 (![0, 1] : Fin 2 → Fin S250000x8.rank)
  bcast_S4_S1x4_1 : S4.BroadcastsInDim S1x4 (![1] : Fin 1 → Fin S1x4.rank)
  bcast_S1x4_S250000x4_0_1 : S1x4.BroadcastsInDim S250000x4 (![0, 1] : Fin 2 → Fin S250000x4.rank)
  bcast_S_S512x4 : S_.BroadcastsInDim S512x4 (![] : Fin 0 → Fin S512x4.rank)
  bcast_S_S512 : S_.BroadcastsInDim S512 (![] : Fin 0 → Fin S512.rank)
  bcast_S512_S512x1_0 : S512.BroadcastsInDim S512x1 (![0] : Fin 1 → Fin S512x1.rank)
  bcast_S512x1_S512x4_0_1 : S512x1.BroadcastsInDim S512x4 (![0, 1] : Fin 2 → Fin S512x4.rank)
  concatenates_S512x4_S512x4_S512x8_d1 : Shape.Concatenates [S512x4, S512x4] S512x8 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S250000x13_S4000000x1_S4000000x13_1_0_n_n_0_1_113_wf : GatherDims.WF S250000x13 S4000000x1 S4000000x13 [1] [0] [] [0] [] 1 ![1, 13]
  scatter_S250000x13_S4000000x1_S4000000x13_1_0_0_1_wf : ScatterDims.WF S250000x13 S4000000x1 S4000000x13 [1] [0] [0] 1
  scatter_S250000_S4000000x1_S4000000_n_0_0_1_wf : ScatterDims.WF S250000 S4000000x1 S4000000 [] [0] [0] 1
  dot_S250000x13_S13x16_S250000x16_1_0_0_1_n_n_wf : DotDims.WF S250000x13 S13x16 S250000x16 [1] [0] [0] [1] [] []
  gather_S250000x16_S4000000x1_S4000000x16_1_0_n_n_0_1_116_wf : GatherDims.WF S250000x16 S4000000x1 S4000000x16 [1] [0] [] [0] [] 1 ![1, 16]
  scatter_S250000x16_S4000000x1_S4000000x16_1_0_0_1_wf : ScatterDims.WF S250000x16 S4000000x1 S4000000x16 [1] [0] [0] 1
  dot_S250000x16_S16x8_S250000x8_1_0_0_1_n_n_wf : DotDims.WF S250000x16 S16x8 S250000x8 [1] [0] [0] [1] [] []
  gather_S250000x8_S4000000x1_S4000000x8_1_0_n_n_0_1_18_wf : GatherDims.WF S250000x8 S4000000x1 S4000000x8 [1] [0] [] [0] [] 1 ![1, 8]
  scatter_S250000x8_S4000000x1_S4000000x8_1_0_0_1_wf : ScatterDims.WF S250000x8 S4000000x1 S4000000x8 [1] [0] [0] 1
  dot_S250000x8_S8x4_S250000x4_1_0_0_1_n_n_wf : DotDims.WF S250000x8 S8x4 S250000x4 [1] [0] [0] [1] [] []
  scatter_S512x4_S250000x1_S250000x4_1_0_0_1_wf : ScatterDims.WF S512x4 S250000x1 S250000x4 [1] [0] [0] 1
  scatter_S512_S250000x1_S250000_n_0_0_1_wf : ScatterDims.WF S512 S250000x1 S250000 [] [0] [0] 1
  dot_S512x8_S8x1_S512x1_1_0_0_1_n_n_wf : DotDims.WF S512x8 S8x1 S512x1 [1] [0] [0] [1] [] []

variable [Facts₀]

def gather_S250000x13_S4000000x1_S4000000x13_1_0_n_n_0_1_113 : GatherDims S250000x13 S4000000x1 S4000000x13 where
  offsetDims := [1]
  collapsedSliceDims := [0]
  operandBatchingDims := []
  startIndicesBatchingDims := []
  startIndexMap := [0]
  indexVectorDim := 1
  sliceSizes := ![1, 13]
  wf := gather_S250000x13_S4000000x1_S4000000x13_1_0_n_n_0_1_113_wf
def scatter_S250000x13_S4000000x1_S4000000x13_1_0_0_1 : ScatterDims S250000x13 S4000000x1 S4000000x13 where
  updateWindowDims := [1]
  insertedWindowDims := [0]
  scatterDimsToOperandDims := [0]
  indexVectorDim := 1
  wf := scatter_S250000x13_S4000000x1_S4000000x13_1_0_0_1_wf
def scatter_S250000_S4000000x1_S4000000_n_0_0_1 : ScatterDims S250000 S4000000x1 S4000000 where
  updateWindowDims := []
  insertedWindowDims := [0]
  scatterDimsToOperandDims := [0]
  indexVectorDim := 1
  wf := scatter_S250000_S4000000x1_S4000000_n_0_0_1_wf
def dot_S250000x13_S13x16_S250000x16_1_0_0_1_n_n : DotDims S250000x13 S13x16 S250000x16 where
  lhsContracting := [1]
  rhsContracting := [0]
  lhsNonContracting := [0]
  rhsNonContracting := [1]
  lhsBatch := []
  rhsBatch := []
  wf := dot_S250000x13_S13x16_S250000x16_1_0_0_1_n_n_wf
def gather_S250000x16_S4000000x1_S4000000x16_1_0_n_n_0_1_116 : GatherDims S250000x16 S4000000x1 S4000000x16 where
  offsetDims := [1]
  collapsedSliceDims := [0]
  operandBatchingDims := []
  startIndicesBatchingDims := []
  startIndexMap := [0]
  indexVectorDim := 1
  sliceSizes := ![1, 16]
  wf := gather_S250000x16_S4000000x1_S4000000x16_1_0_n_n_0_1_116_wf
def scatter_S250000x16_S4000000x1_S4000000x16_1_0_0_1 : ScatterDims S250000x16 S4000000x1 S4000000x16 where
  updateWindowDims := [1]
  insertedWindowDims := [0]
  scatterDimsToOperandDims := [0]
  indexVectorDim := 1
  wf := scatter_S250000x16_S4000000x1_S4000000x16_1_0_0_1_wf
def dot_S250000x16_S16x8_S250000x8_1_0_0_1_n_n : DotDims S250000x16 S16x8 S250000x8 where
  lhsContracting := [1]
  rhsContracting := [0]
  lhsNonContracting := [0]
  rhsNonContracting := [1]
  lhsBatch := []
  rhsBatch := []
  wf := dot_S250000x16_S16x8_S250000x8_1_0_0_1_n_n_wf
def gather_S250000x8_S4000000x1_S4000000x8_1_0_n_n_0_1_18 : GatherDims S250000x8 S4000000x1 S4000000x8 where
  offsetDims := [1]
  collapsedSliceDims := [0]
  operandBatchingDims := []
  startIndicesBatchingDims := []
  startIndexMap := [0]
  indexVectorDim := 1
  sliceSizes := ![1, 8]
  wf := gather_S250000x8_S4000000x1_S4000000x8_1_0_n_n_0_1_18_wf
def scatter_S250000x8_S4000000x1_S4000000x8_1_0_0_1 : ScatterDims S250000x8 S4000000x1 S4000000x8 where
  updateWindowDims := [1]
  insertedWindowDims := [0]
  scatterDimsToOperandDims := [0]
  indexVectorDim := 1
  wf := scatter_S250000x8_S4000000x1_S4000000x8_1_0_0_1_wf
def dot_S250000x8_S8x4_S250000x4_1_0_0_1_n_n : DotDims S250000x8 S8x4 S250000x4 where
  lhsContracting := [1]
  rhsContracting := [0]
  lhsNonContracting := [0]
  rhsNonContracting := [1]
  lhsBatch := []
  rhsBatch := []
  wf := dot_S250000x8_S8x4_S250000x4_1_0_0_1_n_n_wf
def scatter_S512x4_S250000x1_S250000x4_1_0_0_1 : ScatterDims S512x4 S250000x1 S250000x4 where
  updateWindowDims := [1]
  insertedWindowDims := [0]
  scatterDimsToOperandDims := [0]
  indexVectorDim := 1
  wf := scatter_S512x4_S250000x1_S250000x4_1_0_0_1_wf
def scatter_S512_S250000x1_S250000_n_0_0_1 : ScatterDims S512 S250000x1 S250000 where
  updateWindowDims := []
  insertedWindowDims := [0]
  scatterDimsToOperandDims := [0]
  indexVectorDim := 1
  wf := scatter_S512_S250000x1_S250000_n_0_0_1_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

class Facts : Prop extends Facts₀ where

variable [Facts]
-- ==== Proof.Spec.lean ====
/-
  Three rounds of neighbourhood averaging over a graph, each followed by a dense layer, and a pooled read-out: the
  function of the inputs that both programs compute, cut into named pieces.

  A node's neighbourhood sum adds, over the edges that end at it, the feature row of the edge's start; the mean
  divides by the number of such edges, or by one where there are none. One program multiplies by the reciprocal of
  that count (`meanByRecip…`), the other divides by it (`meanByDiv…`): the same array, because the count is at
  least one, so never zero. A dense layer reads entry `(p, j)` as
  `act (∑ₖ mean (p, k) · wl (k, j) + b j + ∑ₖ h (p, k) · wr (k, j))`, with `act` the leaky ramp on the first two
  layers and the identity on the third. The read-out sums the last layer's rows per graph, divides by the graph's
  node count (or one), lays mean and sum side by side and applies one more affine map.

  The index gathers and the scatter-additions are the host's own operations at the programs' dimension records:
  both programs apply them to the same operands, so nothing here looks inside them.
-/
import proofs.«137498_j26774826123929_1_alg».proof.Proof.Gen.KernelIdeal
import Idealize.ShloMosaic.Lib.ValueIdx

noncomputable section

open scoped BigOperators

namespace Cert.Sage

open Cert.KernelIdeal Cert.KernelIdeal.Gen Idealize.ShloMosaic Idealize.ShloMosaic.ValueIdx

/-- A float array over the extended reals. -/
abbrev Arr (S : Shape) : Type := FVec Ideal S .f32
/-- An array of 32-bit integer words. -/
abbrev Ids (S : Shape) : Type := IVec S 32

/-! ## The graph's index arrays -/

/-- Row 0 of the edge list: each edge's start node. -/
def edgeStart (e : Ids S2x4000000) : Ids S4000000 :=
  shapeCast S4000000 (extractStridedSlice S1x4000000 ![0, 0] e slices_S2x4000000_S1x4000000_0_0) shapeCasts_S1x4000000_S4000000

/-- Row 1 of the edge list: each edge's end node. -/
def edgeEnd (e : Ids S2x4000000) : Ids S4000000 :=
  shapeCast S4000000 (extractStridedSlice S1x4000000 ![1, 0] e slices_S2x4000000_S1x4000000_1_0) shapeCasts_S1x4000000_S4000000

/-- Where each edge reads its feature row: the start node, a negative one counted from the end, as a column. -/
def readAt (e : Ids S2x4000000) : Ids S4000000x1 :=
  broadcastInDim S4000000x1 ![0] bcast_S4000000_S4000000x1_0
    (select (cmpi .slt (edgeStart e) (broadcastInDim S4000000 ![] bcast_S_S4000000 (constantI S_ 32 0#32)))
      (addi (edgeStart e) (broadcastInDim S4000000 ![] bcast_S_S4000000 (constantI S_ 32 250000#32))) (edgeStart e))

/-- Where each edge adds its row: the end node, as a column. -/
def addAt (e : Ids S2x4000000) : Ids S4000000x1 :=
  broadcastInDim S4000000x1 ![0] bcast_S4000000_S4000000x1_0 (edgeEnd e)

/-- The number of edges ending at each node, and one where there is none. -/
def degreeOrOne (e : Ids S2x4000000) : Arr S250000 :=
  maximumf
    (Host.scatterAdd scatter_S250000_S4000000x1_S4000000_n_0_0_1
      (broadcastInDim S250000 ![] bcast_S_S250000 (constant S_ .f32 0x00000000#32)) (addAt e)
      (broadcastInDim S4000000 ![] bcast_S_S4000000 (constant S_ .f32 0x3F800000#32)))
    (broadcastInDim S250000 ![] bcast_S_S250000 (constant S_ .f32 0x3F800000#32))

/-- Its reciprocal. -/
def recipDegree (e : Ids S2x4000000) : Arr S250000 :=
  Host.divf (broadcastInDim S250000 ![] bcast_S_S250000 (constant S_ .f32 0x3F800000#32)) (degreeOrOne e)

/-! ## Neighbourhood sums and means, per feature width -/

def nbrSum13 (h : Arr S250000x13) (e : Ids S2x4000000) : Arr S250000x13 :=
  Host.scatterAdd scatter_S250000x13_S4000000x1_S4000000x13_1_0_0_1
    (broadcastInDim S250000x13 ![] bcast_S_S250000x13 (constant S_ .f32 0x00000000#32)) (addAt e)
    (Host.gather gather_S250000x13_S4000000x1_S4000000x13_1_0_n_n_0_1_113 h (readAt e))

def nbrSum16 (h : Arr S250000x16) (e : Ids S2x4000000) : Arr S250000x16 :=
  Host.scatterAdd scatter_S250000x16_S4000000x1_S4000000x16_1_0_0_1
    (broadcastInDim S250000x16 ![] bcast_S_S250000x16 (constant S_ .f32 0x00000000#32)) (addAt e)
    (Host.gather gather_S250000x16_S4000000x1_S4000000x16_1_0_n_n_0_1_116 h (readAt e))

def nbrSum8 (h : Arr S250000x8) (e : Ids S2x4000000) : Arr S250000x8 :=
  Host.scatterAdd scatter_S250000x8_S4000000x1_S4000000x8_1_0_0_1
    (broadcastInDim S250000x8 ![] bcast_S_S250000x8 (constant S_ .f32 0x00000000#32)) (addAt e)
    (Host.gather gather_S250000x8_S4000000x1_S4000000x8_1_0_n_n_0_1_18 h (readAt e))

/-- The mean as the sum times the reciprocal count. -/
def meanByRecip13 (h : Arr S250000x13) (e : Ids S2x4000000) : Arr S250000x13 :=
  mulf (nbrSum13 h e) (broadcastInDim S250000x13 ![0, 1] bcast_S250000x1_S250000x13_0_1
    (broadcastInDim S250000x1 ![0] bcast_S250000_S250000x1_0 (recipDegree e)))
def meanByRecip16 (h : Arr S250000x16) (e : Ids S2x4000000) : Arr S250000x16 :=
  mulf (nbrSum16 h e) (broadcastInDim S250000x16 ![0, 1] bcast_S250000x1_S250000x16_0_1
    (broadcastInDim S250000x1 ![0] bcast_S250000_S250000x1_0 (recipDegree e)))
def meanByRecip8 (h : Arr S250000x8) (e : Ids S2x4000000) : Arr S250000x8 :=
  mulf (nbrSum8 h e) (broadcastInDim S250000x8 ![0, 1] bcast_S250000x1_S250000x8_0_1
    (broadcastInDim S250000x1 ![0] bcast_S250000_S250000x1_0 (recipDegree e)))

/-- The mean as the sum divided by the count. -/
def meanByDiv13 (h : Arr S250000x13) (e : Ids S2x4000000) : Arr S250000x13 :=
  Host.divf (nbrSum13 h e) (broadcastInDim S250000x13 ![0, 1] bcast_S250000x1_S250000x13_0_1
    (broadcastInDim S250000x1 ![0] bcast_S250000_S250000x1_0 (degreeOrOne e)))
def meanByDiv16 (h : Arr S250000x16) (e : Ids S2x4000000) : Arr S250000x16 :=
  Host.divf (nbrSum16 h e) (broadcastInDim S250000x16 ![0, 1] bcast_S250000x1_S250000x16_0_1
    (broadcastInDim S250000x1 ![0] bcast_S250000_S250000x1_0 (degreeOrOne e)))
def meanByDiv8 (h : Arr S250000x8) (e : Ids S2x4000000) : Arr S250000x8 :=
  Host.divf (nbrSum8 h e) (broadcastInDim S250000x8 ![0, 1] bcast_S250000x1_S250000x8_0_1
    (broadcastInDim S250000x1 ![0] bcast_S250000_S250000x1_0 (degreeOrOne e)))

/-! ## The dense layer -/

/-- The leaky ramp: a number at least zero is kept, any other is scaled by the slope. -/
def leak (z : EReal) : EReal :=
  Scalar.select (FloatOps.cmpf (F := Ideal) (φ := .f32) .oge z (Ideal.ofBits .f32 0x00000000#32)) z (Ideal.ofBits .f32 0x3C23D70A#32 * z)

/-- A dense layer on `R` rows, from width `K` to width `N`: entry `(p, j)` is
    `act (∑ₖ a (p, k) · wl (k, j) + b j + ∑ₖ x (p, k) · wr (k, j))`. -/
def dense (R K N : ℕ) (act : EReal → EReal) (a x : FVec Ideal ⟨2, ![R, K]⟩ .f32) (wl wr : FVec Ideal ⟨2, ![K, N]⟩ .f32)
    (b : Fin N → EReal) : FVec Ideal ⟨2, ![R, N]⟩ .f32 :=
  fun i => act ((∑ k : Fin K, a (ix2 (i 0) k) * wl (ix2 k (i 1))) + b (i 1) + ∑ k : Fin K, x (ix2 (i 0) k) * wr (ix2 k (i 1)))

/-! ## The read-out -/

/-- Per graph: the rows' sum, the sum over the node count (or one) beside it, and one affine map of the eight numbers. -/
def readout (h : Arr S250000x4) (g : Ids S250000) (wc : Arr S8x1) (bc : Arr S1) : Arr S512x1 :=
  let pooled : Arr S512x4 :=
    Host.scatterAdd scatter_S512x4_S250000x1_S250000x4_1_0_0_1
      (broadcastInDim S512x4 ![] bcast_S_S512x4 (constant S_ .f32 0x00000000#32))
      (broadcastInDim S250000x1 ![0] bcast_S250000_S250000x1_0 g) h
  let nodes : Arr S512 :=
    maximumf
      (Host.scatterAdd scatter_S512_S250000x1_S250000_n_0_0_1
        (broadcastInDim S512 ![] bcast_S_S512 (constant S_ .f32 0x00000000#32))
        (broadcastInDim S250000x1 ![0] bcast_S250000_S250000x1_0 g)
        (broadcastInDim S250000 ![] bcast_S_S250000 (constant S_ .f32 0x3F800000#32)))
      (broadcastInDim S512 ![] bcast_S_S512 (constant S_ .f32 0x3F800000#32))
  addf
    (Host.dotGeneral dot_S512x8_S8x1_S512x1_1_0_0_1_n_n none
      (concatenate S512x8 1
        [⟨S512x4, Host.divf pooled (broadcastInDim S512x4 ![0, 1] bcast_S512x1_S512x4_0_1
            (broadcastInDim S512x1 ![0] bcast_S512_S512x1_0 nodes))⟩, ⟨S512x4, pooled⟩]
        concatenates_S512x4_S512x4_S512x8_d1) wc)
    (broadcastInDim S512x1 ![0, 1] bcast_S1x1_S512x1_0_1 (broadcastInDim S1x1 ![1] bcast_S1_S1x1_1 bc))

/-! ## The whole function, with either spelling of the mean -/

section Whole

variable (x : Arr S250000x13) (e : Ids S2x4000000) (g : Ids S250000)
  (w1l : Arr S13x16) (b1 : Arr S16) (w1r : Arr S13x16) (w2l : Arr S16x8) (b2 : Arr S8) (w2r : Arr S16x8)
  (w3l : Arr S8x4) (b3 : Arr S4) (w3r : Arr S8x4) (wc : Arr S8x1) (bc : Arr S1)

/-- With the mean as sum times reciprocal count. -/
def outByRecip : Arr S512x1 :=
  let h1 : Arr S250000x16 := dense 250000 13 16 leak (meanByRecip13 x e) x w1l w1r (fun j => b1 (ix1 j))
  let h2 : Arr S250000x8 := dense 250000 16 8 leak (meanByRecip16 h1 e) h1 w2l w2r (fun j => b2 (ix1 j))
  let h3 : Arr S250000x4 := dense 250000 8 4 id (meanByRecip8 h2 e) h2 w3l w3r (fun j => b3 (ix1 j))
  readout h3 g wc bc

/-- With the mean as sum over count. -/
def outByDiv : Arr S512x1 :=
  let h1 : Arr S250000x16 := dense 250000 13 16 leak (meanByDiv13 x e) x w1l w1r (fun j => b1 (ix1 j))
  let h2 : Arr S250000x8 := dense 250000 16 8 leak (meanByDiv16 h1 e) h1 w2l w2r (fun j => b2 (ix1 j))
  let h3 : Arr S250000x4 := dense 250000 8 4 id (meanByDiv8 h2 e) h2 w3l w3r (fun j => b3 (ix1 j))
  readout h3 g wc bc

end Whole

end Cert.Sage

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.BlockDense.lean ====
/-
  One block of a dense layer, read at one entry, for every size.

  A dense layer's body works on a block of `R` rows: it multiplies the block of neighbourhood means by the left
  weights, adds the bias row to every row of the product, adds the block of features times the right weights, and
  (on the first two layers) passes each number through the leaky ramp. Every step but the two products is
  entrywise, and a product of an `R × K` by a `K × N` array into the zero array reads, at `(r, j)`, the sum over
  `k` of the left operand at `(r, k)` times the right operand at `(k, j)`. So entry `(r, j)` of the body's result
  depends on row `r` of the two blocks only, and is the dense layer's expression on that row.
-/
import proofs.«137498_j26774826123929_1_alg».proof.Proof.Spec
import proofs.«137498_j26774826123929_1_alg».proof.Proof.LibPlainProduct
import Idealize.ShloMosaic.Lib.ValueLayout

noncomputable section

open scoped BigOperators

namespace Cert.Sage

open Idealize.ShloMosaic Idealize.ShloMosaic.ValueIdx

variable {R K N : ℕ}

/-- Both products and the bias row, at entry `(r, j)` of the block: the bias is read in its one row at column `j`,
    each product is the sum over the contracted axis. -/
theorem affine_apply (a x : FVec Ideal ⟨2, ![R, K]⟩ .f32) (wl wr : FVec Ideal ⟨2, ![K, N]⟩ .f32)
    (b : FVec Ideal ⟨2, ![1, N]⟩ .f32) (hb : (⟨2, ![1, N]⟩ : Shape).Broadcasts ⟨2, ![R, N]⟩)
    (prec : Option ContractPrecision) (r : Fin R) (j : Fin N) :
    addf (addf (matmul (DotDims.plain R K N) prec a wl (constant (F := Ideal) ⟨2, ![R, N]⟩ .f32 0x00000000#32))
          (broadcastTo ⟨2, ![R, N]⟩ b hb))
        (matmul (DotDims.plain R K N) prec x wr (constant (F := Ideal) ⟨2, ![R, N]⟩ .f32 0x00000000#32)) (ix2 r j)
      = (∑ k : Fin K, a (ix2 r k) * wl (ix2 k j)) + b (ix2 0 j) + ∑ k : Fin K, x (ix2 r k) * wr (ix2 k j) := by
  show FloatOps.matmul (DotDims.plain R K N) prec a wl (constant (F := Ideal) ⟨2, ![R, N]⟩ .f32 0x00000000#32) (ix2 r j)
        + broadcastTo ⟨2, ![R, N]⟩ b hb (ix2 r j)
        + FloatOps.matmul (DotDims.plain R K N) prec x wr (constant (F := Ideal) ⟨2, ![R, N]⟩ .f32 0x00000000#32) (ix2 r j) = _
  rw [Cert.LibPlainProduct.matmul_zero_plain_apply, Cert.LibPlainProduct.matmul_zero_plain_apply,
    broadcastTo_1b_ab_apply]

/-- The ramp as the body spells it, entry by entry: compare with zero, keep the number or scale it by the slope. -/
theorem ramp_apply {s : Shape} (z : FVec Ideal s .f32) (i : s.Idx) :
    select (cmpf .oge z (broadcast s (Scalar.ofBits (F := Ideal) .f32 0x00000000#32))) z
        (mulf (broadcast s (Scalar.ofBits (F := Ideal) .f32 0x3C23D70A#32)) z) i
      = leak (z i) := rfl

/-- The body's expression on block row `r` is the dense layer at array row `p`, as soon as row `r` of each of the
    two blocks is row `p` of its array: nothing else of the blocks is read at that entry. The weights and the bias
    row are staged whole, so they are the arrays themselves. -/
theorem dense_row {Rb : ℕ} (act : EReal → EReal) (A X : FVec Ideal ⟨2, ![R, K]⟩ .f32) (WL WR : FVec Ideal ⟨2, ![K, N]⟩ .f32)
    (B : FVec Ideal ⟨2, ![1, N]⟩ .f32) (x0 x1 : FVec Ideal ⟨2, ![Rb, K]⟩ .f32) (r : Fin Rb) (p : Fin R) (j : Fin N)
    (h0 : ∀ k : Fin K, x0 (ix2 r k) = A (ix2 p k)) (h1 : ∀ k : Fin K, x1 (ix2 r k) = X (ix2 p k)) :
    act ((∑ k : Fin K, x0 (ix2 r k) * WL (ix2 k j)) + B (ix2 0 j) + ∑ k : Fin K, x1 (ix2 r k) * WR (ix2 k j))
      = dense R K N act A X WL WR (fun j => B (ix2 0 j)) (ix2 p j) := by
  show _ = act ((∑ k : Fin K, A (ix2 p k) * WL (ix2 k j)) + B (ix2 0 j) + ∑ k : Fin K, X (ix2 p k) * WR (ix2 k j))
  simp only [h0, h1]

end Cert.Sage

end
-- ==== Proof.Region0.lean ====
/-
  Region 0's result as one function of the arrays it finds.

  The region runs its body at 25 grid points; point `t` reads rows `10000·t … 10000·t + 9999` of the two feature
  arrays, the whole of both weight matrices and of the bias row, and writes the same rows of the result. The body's
  value at block entry `(r, j)` is the dense layer's expression on block row `r`; block row `r` of point `t` is array
  row `10000·t + r`, so each written block is the restriction of the whole-array dense layer, and the 25 blocks cover
  the result.
-/
import proofs.«137498_j26774826123929_1_alg».proof.Proof.Gen.KernelIdeal.Frame
import proofs.«137498_j26774826123929_1_alg».proof.Proof.Spec
import proofs.«137498_j26774826123929_1_alg».proof.Proof.LibPlainProduct
import proofs.«137498_j26774826123929_1_alg».proof.Proof.BlockDense
import Idealize.ShloMosaic.Lib.Pipeline.Value
import Idealize.ShloMosaic.PureOps.Ideal.Laws

noncomputable section

open scoped BigOperators

namespace Cert.Sage

open Cert.KernelIdeal Cert.KernelIdeal.Gen Idealize.ShloMosaic Idealize.ShloMosaic.ValueIdx Idealize.ShloMosaic.TcCoe Idealize.SL.Sem

/-! ## The body at one block entry -/

/-- Entry `(r, j)` of what the body stores: the ramp of the two products' sums and the bias, on block row `r`. -/
theorem body0_apply (x0 x1 : FVec Ideal S10000x13 .f32) (x2 : FVec Ideal S13x16 .f32) (x3 : FVec Ideal S1x16 .f32)
    (x4 : FVec Ideal S13x16 .f32) (r : Fin 10000) (j : Fin 16) :
    k0_pay1 (F := Ideal) x0 x1 x2 x3 x4 (ix2 r j)
      = leak ((∑ k : Fin 13, x0 (ix2 r k) * x2 (ix2 k j)) + x3 (ix2 0 j) + ∑ k : Fin 13, x1 (ix2 r k) * x4 (ix2 k j)) := by
  unfold k0_pay1
  simp only [shapeCast_self]
  exact (ramp_apply _ _).trans (congrArg leak (affine_apply x0 x1 x2 x4 x3 _ _ r j))

/-! ## Where each window's block sits in its array -/

/-- The block indices over the grid: the row windows (0, 1 and the result's, 5) sit at block `t` of axis 0 and at
    block 0 of axis 1; the weights' and the bias row's windows never move. -/
theorem blockIndex0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

section Blocks

variable (V : (c : Dev nD) → (b : Ref sig .tc) → Buf (Elt Ideal) ((c : Thread nD τ).loc b)) (c : Dev nD) (t : Fin cfg0.N)

/-- Row `r` of the means' block at point `t` is row `10000·t + r` of the means' array. -/
theorem meansRow0 (r : Fin 10000) (k : Fin 13) (p : Fin 250000) (hp : p.val = 10000 * t.val + r.val) :
    (iblk0 V c 0 t : FVec Ideal S10000x13 .f32) (ix2 r k) = (V c main_v24 : Arr S250000x13) (ix2 p k) := by
  obtain ⟨⟨e0, e1⟩, -⟩ := blockIndex0 t
  unfold iblk0
  rw [View.read_apply]
  show V c main_v24 _ = V c main_v24 _
  congr 1
  funext a
  apply Fin.ext
  match a with
  | ⟨0, _⟩ => show win0_0.index t (0 : Fin 2) * 10000 + 1 * r.val = p.val; rw [e0, hp]; omega
  | ⟨1, _⟩ => show win0_0.index t (1 : Fin 2) * 13 + 1 * k.val = k.val; rw [e1]; omega

/-- The same for the features' block. -/
theorem featuresRow0 (r : Fin 10000) (k : Fin 13) (p : Fin 250000) (hp : p.val = 10000 * t.val + r.val) :
    (iblk0 V c 1 t : FVec Ideal S10000x13 .f32) (ix2 r k) = (V c main_arg0 : Arr S250000x13) (ix2 p k) := by
  obtain ⟨-, ⟨e0, e1⟩, -⟩ := blockIndex0 t
  unfold iblk0
  rw [View.read_apply]
  show V c main_arg0 _ = V c main_arg0 _
  congr 1
  funext a
  apply Fin.ext
  match a with
  | ⟨0, _⟩ => show win0_1.index t (0 : Fin 2) * 10000 + 1 * r.val = p.val; rw [e0, hp]; omega
  | ⟨1, _⟩ => show win0_1.index t (1 : Fin 2) * 13 + 1 * k.val = k.val; rw [e1]; omega

/-- The left weights are staged whole. -/
theorem leftWeights0 : (iblk0 V c 2 t : FVec Ideal S13x16 .f32) = (V c main_arg3 : Arr S13x16) := by
  obtain ⟨-, -, ⟨e0, e1⟩, -⟩ := blockIndex0 t
  funext z
  unfold iblk0
  rw [View.read_apply]
  show V c main_arg3 _ = V c main_arg3 _
  congr 1
  funext a
  apply Fin.ext
  match a with
  | ⟨0, _⟩ => show win0_2.index t (0 : Fin 2) * 13 + 1 * (z 0).val = (z 0).val; rw [e0]; omega
  | ⟨1, _⟩ => show win0_2.index t (1 : Fin 2) * 16 + 1 * (z 1).val = (z 1).val; rw [e1]; omega

/-- So is the bias row. -/
theorem biasRow0 : (iblk0 V c 3 t : FVec Ideal S1x16 .f32) = (V c main_v25 : Arr S1x16) := by
  obtain ⟨-, -, -, ⟨e0, e1⟩, -⟩ := blockIndex0 t
  funext z
  unfold iblk0
  rw [View.read_apply]
  show V c main_v25 _ = V c main_v25 _
  congr 1
  funext a
  apply Fin.ext
  match a with
  | ⟨0, _⟩ => show win0_3.index t (0 : Fin 2) * 1 + 1 * (z 0).val = (z 0).val; rw [e0]; omega
  | ⟨1, _⟩ => show win0_3.index t (1 : Fin 2) * 16 + 1 * (z 1).val = (z 1).val; rw [e1]; omega

/-- And the right weights. -/
theorem rightWeights0 : (iblk0 V c 4 t : FVec Ideal S13x16 .f32) = (V c main_arg5 : Arr S13x16) := by
  obtain ⟨-, -, -, -, ⟨e0, e1⟩, -⟩ := blockIndex0 t
  funext z
  unfold iblk0
  rw [View.read_apply]
  show V c main_arg5 _ = V c main_arg5 _
  congr 1
  funext a
  apply Fin.ext
  match a with
  | ⟨0, _⟩ => show win0_4.index t (0 : Fin 2) * 13 + 1 * (z 0).val = (z 0).val; rw [e0]; omega
  | ⟨1, _⟩ => show win0_4.index t (1 : Fin 2) * 16 + 1 * (z 1).val = (z 1).val; rw [e1]; omega

end Blocks

/-! ## What a point writes back, the cover, the array -/

theorem zeroOffsets0 : (![0, 0] : Fin 2 → Nat) = fun _ => 0 := funext fun a => by fin_cases a <;> rfl

section Array

variable (V : (c : Dev nD) → (b : Ref sig .tc) → Buf (Elt Ideal) ((c : Thread nD τ).loc b)) (c : Dev nD)

/-- The dense layer of the arrays region 0 finds. -/
abbrev layer0 : Arr S250000x16 :=
  dense 250000 13 16 leak (V c main_v24) (V c main_arg0) (V c main_arg3) (V c main_arg5) (fun j => (V c main_v25 : Arr S1x16) (ix2 0 j))

/-- Point `t` writes back block `t` of the dense layer: entry `(r, j)` of the stored block is the layer at
    `(10000·t + r, j)`, which is where the result's window puts that entry. -/
theorem written0 (t : Fin cfg0.N) :
    (dat0 (F := Ideal) V c).flushed 5 t = ((cfg0.win 5).blk t).view.read (Elt Ideal) (layer0 V c) := by
  show (cfg0.win 5).cut (grid0.coords t) ((dat0 V c).after 5 t) = _
  rw [after0_5]
  unfold out0_5
  rw [View.canon_unit_zero zeroOffsets0]
  simp only [View.ld_unit_zero (S := S10000x13) zeroOffsets0, View.ld_unit_zero (S := S13x16) zeroOffsets0,
    View.ld_unit_zero (S := S1x16) zeroOffsets0]
  obtain ⟨-, -, -, -, -, ⟨e0, e1⟩⟩ := blockIndex0 t
  have hN : t.val < 25 := lt_of_lt_of_eq t.isLt N_0
  funext y
  have hr : (y 0).val < 10000 := (y 0).isLt
  have hj : (y 1).val < 16 := (y 1).isLt
  have ey : (win0 5).xinj (grid0.coords t) y = ix2 (⟨(y 0).val, hr⟩ : Fin 10000) (⟨(y 1).val, hj⟩ : Fin 16) :=
    funext fun a => by
      match a with
      | ⟨0, _⟩ => rfl
      | ⟨1, _⟩ => rfl
  have ei : ((View.whole main_v26).slice ((win0 5).rect t)).emb y
      = ix2 (⟨10000 * t.val + (y 0).val, by omega⟩ : Fin 250000) (⟨(y 1).val, hj⟩ : Fin 16) :=
    funext fun a => Fin.ext (by
      match a with
      | ⟨0, _⟩ => show win0_5.index t (0 : Fin 2) * 10000 + 1 * (y 0).val = 10000 * t.val + (y 0).val; rw [e0]; omega
      | ⟨1, _⟩ => show win0_5.index t (1 : Fin 2) * 16 + 1 * (y 1).val = (y 1).val; rw [e1]; omega)
  rw [View.read_apply]
  show k0_pay1 (F := Ideal) (iblk0 V c 0 t) (iblk0 V c 1 t) (iblk0 V c 2 t) (iblk0 V c 3 t) (iblk0 V c 4 t)
      ((win0 5).xinj (grid0.coords t) y) = layer0 V c (((View.whole main_v26).slice ((win0 5).rect t)).emb y)
  rw [ey, ei, leftWeights0 V c t, biasRow0 V c t, rightWeights0 V c t, body0_apply]
  exact dense_row leak (V c main_v24) (V c main_arg0) (V c main_arg3) (V c main_arg5) (V c main_v25)
    (iblk0 V c 0 t) (iblk0 V c 1 t) _ _ _ (fun k => meansRow0 V c t _ k _ rfl) (fun k => featuresRow0 V c t _ k _ rfl)

/-- An entry of the result array is in point `t`'s block iff each coordinate is in the block's range. -/
theorem mem_block0 (t : Fin cfg0.N) (i : S250000x16.Idx) :
    i ∈ ((cfg0.win 5).blk t).view.set ↔ ∀ a : Fin 2, win0_5.index t a * S10000x16.size a ≤ (i a).val
      ∧ (i a).val < win0_5.index t a * S10000x16.size a + S10000x16.size a := by
  show i ∈ ((View.whole main_v26).slice (win0_5.rect t)).set ↔ _
  rw [View.set_slice_whole, Rect.mem_set_unit]
  exact Iff.rfl

/-- Row `p` of the result is written by point `p / 10000`. -/
theorem covered0 (i : S250000x16.Idx) :
    ∃ t : Fin cfg0.N, (cfg0.win 5).flush t = true ∧ i ∈ ((cfg0.win 5).blk t).view.set := by
  have hi0 : (i 0).val < 250000 := (i 0).isLt
  have hi1 : (i 1).val < 16 := (i 1).isLt
  have hN : cfg0.N = 25 := N_0
  have ht : (i 0).val / 10000 < cfg0.N := by rw [hN]; omega
  obtain ⟨-, -, -, -, -, ⟨e0, e1⟩⟩ := blockIndex0 ⟨(i 0).val / 10000, ht⟩
  refine ⟨⟨(i 0).val / 10000, ht⟩, flush0_5 _, ?_⟩
  rw [mem_block0]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, ht⟩ (1 : Fin 2) * 16 ≤ (i 1).val
      ∧ (i 1).val < win0_5.index ⟨(i 0).val / 10000, ht⟩ (1 : Fin 2) * 16 + 16
    rw [e1]; omega

end Array

/-- What region 0 leaves in its result array, from the contents `V` it is entered at. -/
theorem region0_value (V : (c : Dev nD) → (b : Ref sig .tc) → Buf (Elt Ideal) ((c : Thread nD τ).loc b)) (c : Dev nD) :
    ((dat0 (F := Ideal) V c).arrAt 5 cfg0.N : Arr S250000x16)
      = dense 250000 13 16 leak (V c main_v24) (V c main_arg0) (V c main_arg3) (V c main_arg5) (fun j => (V c main_v25 : Arr S1x16) (ix2 0 j)) :=
  (dat0 (F := Ideal) V c).arrAt_eq_of_cover 5 (layer0 V c) (fun t _ => written0 V c t) covered0

end Cert.Sage

end
-- ==== Proof.Region1.lean ====
/-
  Region 1's result as one function of the arrays it finds.

  The region runs its body at 25 grid points; point `t` reads rows `10000·t … 10000·t + 9999` of the two feature
  arrays, the whole of both weight matrices and of the bias row, and writes the same rows of the result. The body's
  value at block entry `(r, j)` is the dense layer's expression on block row `r`; block row `r` of point `t` is array
  row `10000·t + r`, so each written block is the restriction of the whole-array dense layer, and the 25 blocks cover
  the result.
-/
import proofs.«137498_j26774826123929_1_alg».proof.Proof.Gen.KernelIdeal.Frame
import proofs.«137498_j26774826123929_1_alg».proof.Proof.Spec
import proofs.«137498_j26774826123929_1_alg».proof.Proof.LibPlainProduct
import proofs.«137498_j26774826123929_1_alg».proof.Proof.BlockDense
import Idealize.ShloMosaic.Lib.Pipeline.Value
import Idealize.ShloMosaic.PureOps.Ideal.Laws

noncomputable section

open scoped BigOperators

namespace Cert.Sage

open Cert.KernelIdeal Cert.KernelIdeal.Gen Idealize.ShloMosaic Idealize.ShloMosaic.ValueIdx Idealize.ShloMosaic.TcCoe Idealize.SL.Sem

/-! ## The body at one block entry -/

/-- Entry `(r, j)` of what the body stores: the ramp of the two products' sums and the bias, on block row `r`. -/
theorem body1_apply (x0 x1 : FVec Ideal S10000x16 .f32) (x2 : FVec Ideal S16x8 .f32) (x3 : FVec Ideal S1x8 .f32)
    (x4 : FVec Ideal S16x8 .f32) (r : Fin 10000) (j : Fin 8) :
    k1_pay1 (F := Ideal) x0 x1 x2 x3 x4 (ix2 r j)
      = leak ((∑ k : Fin 16, x0 (ix2 r k) * x2 (ix2 k j)) + x3 (ix2 0 j) + ∑ k : Fin 16, x1 (ix2 r k) * x4 (ix2 k j)) := by
  unfold k1_pay1
  simp only [shapeCast_self]
  exact (ramp_apply _ _).trans (congrArg leak (affine_apply x0 x1 x2 x4 x3 _ _ r j))

/-! ## Where each window's block sits in its array -/

/-- The block indices over the grid: the row windows (0, 1 and the result's, 5) sit at block `t` of axis 0 and at
    block 0 of axis 1; the weights' and the bias row's windows never move. -/
theorem blockIndex1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

section Blocks

variable (V : (c : Dev nD) → (b : Ref sig .tc) → Buf (Elt Ideal) ((c : Thread nD τ).loc b)) (c : Dev nD) (t : Fin cfg1.N)

/-- Row `r` of the means' block at point `t` is row `10000·t + r` of the means' array. -/
theorem meansRow1 (r : Fin 10000) (k : Fin 16) (p : Fin 250000) (hp : p.val = 10000 * t.val + r.val) :
    (iblk1 V c 0 t : FVec Ideal S10000x16 .f32) (ix2 r k) = (V c main_v39 : Arr S250000x16) (ix2 p k) := by
  obtain ⟨⟨e0, e1⟩, -⟩ := blockIndex1 t
  unfold iblk1
  rw [View.read_apply]
  show V c main_v39 _ = V c main_v39 _
  congr 1
  funext a
  apply Fin.ext
  match a with
  | ⟨0, _⟩ => show win1_0.index t (0 : Fin 2) * 10000 + 1 * r.val = p.val; rw [e0, hp]; omega
  | ⟨1, _⟩ => show win1_0.index t (1 : Fin 2) * 16 + 1 * k.val = k.val; rw [e1]; omega

/-- The same for the features' block. -/
theorem featuresRow1 (r : Fin 10000) (k : Fin 16) (p : Fin 250000) (hp : p.val = 10000 * t.val + r.val) :
    (iblk1 V c 1 t : FVec Ideal S10000x16 .f32) (ix2 r k) = (V c main_v26 : Arr S250000x16) (ix2 p k) := by
  obtain ⟨-, ⟨e0, e1⟩, -⟩ := blockIndex1 t
  unfold iblk1
  rw [View.read_apply]
  show V c main_v26 _ = V c main_v26 _
  congr 1
  funext a
  apply Fin.ext
  match a with
  | ⟨0, _⟩ => show win1_1.index t (0 : Fin 2) * 10000 + 1 * r.val = p.val; rw [e0, hp]; omega
  | ⟨1, _⟩ => show win1_1.index t (1 : Fin 2) * 16 + 1 * k.val = k.val; rw [e1]; omega

/-- The left weights are staged whole. -/
theorem leftWeights1 : (iblk1 V c 2 t : FVec Ideal S16x8 .f32) = (V c main_arg6 : Arr S16x8) := by
  obtain ⟨-, -, ⟨e0, e1⟩, -⟩ := blockIndex1 t
  funext z
  unfold iblk1
  rw [View.read_apply]
  show V c main_arg6 _ = V c main_arg6 _
  congr 1
  funext a
  apply Fin.ext
  match a with
  | ⟨0, _⟩ => show win1_2.index t (0 : Fin 2) * 16 + 1 * (z 0).val = (z 0).val; rw [e0]; omega
  | ⟨1, _⟩ => show win1_2.index t (1 : Fin 2) * 8 + 1 * (z 1).val = (z 1).val; rw [e1]; omega

/-- So is the bias row. -/
theorem biasRow1 : (iblk1 V c 3 t : FVec Ideal S1x8 .f32) = (V c main_v40 : Arr S1x8) := by
  obtain ⟨-, -, -, ⟨e0, e1⟩, -⟩ := blockIndex1 t
  funext z
  unfold iblk1
  rw [View.read_apply]
  show V c main_v40 _ = V c main_v40 _
  congr 1
  funext a
  apply Fin.ext
  match a with
  | ⟨0, _⟩ => show win1_3.index t (0 : Fin 2) * 1 + 1 * (z 0).val = (z 0).val; rw [e0]; omega
  | ⟨1, _⟩ => show win1_3.index t (1 : Fin 2) * 8 + 1 * (z 1).val = (z 1).val; rw [e1]; omega

/-- And the right weights. -/
theorem rightWeights1 : (iblk1 V c 4 t : FVec Ideal S16x8 .f32) = (V c main_arg8 : Arr S16x8) := by
  obtain ⟨-, -, -, -, ⟨e0, e1⟩, -⟩ := blockIndex1 t
  funext z
  unfold iblk1
  rw [View.read_apply]
  show V c main_arg8 _ = V c main_arg8 _
  congr 1
  funext a
  apply Fin.ext
  match a with
  | ⟨0, _⟩ => show win1_4.index t (0 : Fin 2) * 16 + 1 * (z 0).val = (z 0).val; rw [e0]; omega
  | ⟨1, _⟩ => show win1_4.index t (1 : Fin 2) * 8 + 1 * (z 1).val = (z 1).val; rw [e1]; omega

end Blocks

/-! ## What a point writes back, the cover, the array -/

theorem zeroOffsets1 : (![0, 0] : Fin 2 → Nat) = fun _ => 0 := funext fun a => by fin_cases a <;> rfl

section Array

variable (V : (c : Dev nD) → (b : Ref sig .tc) → Buf (Elt Ideal) ((c : Thread nD τ).loc b)) (c : Dev nD)

/-- The dense layer of the arrays region 1 finds. -/
abbrev layer1 : Arr S250000x8 :=
  dense 250000 16 8 leak (V c main_v39) (V c main_v26) (V c main_arg6) (V c main_arg8) (fun j => (V c main_v40 : Arr S1x8) (ix2 0 j))

/-- Point `t` writes back block `t` of the dense layer: entry `(r, j)` of the stored block is the layer at
    `(10000·t + r, j)`, which is where the result's window puts that entry. -/
theorem written1 (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero zeroOffsets1]
  simp only [View.ld_unit_zero (S := S10000x16) zeroOffsets1, View.ld_unit_zero (S := S16x8) zeroOffsets1,
    View.ld_unit_zero (S := S1x8) zeroOffsets1]
  obtain ⟨-, -, -, -, -, ⟨e0, e1⟩⟩ := blockIndex1 t
  have hN : t.val < 25 := lt_of_lt_of_eq t.isLt N_1
  funext y
  have hr : (y 0).val < 10000 := (y 0).isLt
  have hj : (y 1).val < 8 := (y 1).isLt
  have ey : (win1 5).xinj (grid1.coords t) y = ix2 (⟨(y 0).val, hr⟩ : Fin 10000) (⟨(y 1).val, hj⟩ : Fin 8) :=
    funext fun a => by
      match a with
      | ⟨0, _⟩ => rfl
      | ⟨1, _⟩ => rfl
  have ei : ((View.whole main_v41).slice ((win1 5).rect t)).emb y
      = ix2 (⟨10000 * t.val + (y 0).val, by omega⟩ : Fin 250000) (⟨(y 1).val, hj⟩ : Fin 8) :=
    funext fun a => Fin.ext (by
      match a with
      | ⟨0, _⟩ => show win1_5.index t (0 : Fin 2) * 10000 + 1 * (y 0).val = 10000 * t.val + (y 0).val; rw [e0]; omega
      | ⟨1, _⟩ => show win1_5.index t (1 : Fin 2) * 8 + 1 * (y 1).val = (y 1).val; rw [e1]; omega)
  rw [View.read_apply]
  show k1_pay1 (F := Ideal) (iblk1 V c 0 t) (iblk1 V c 1 t) (iblk1 V c 2 t) (iblk1 V c 3 t) (iblk1 V c 4 t)
      ((win1 5).xinj (grid1.coords t) y) = layer1 V c (((View.whole main_v41).slice ((win1 5).rect t)).emb y)
  rw [ey, ei, leftWeights1 V c t, biasRow1 V c t, rightWeights1 V c t, body1_apply]
  exact dense_row leak (V c main_v39) (V c main_v26) (V c main_arg6) (V c main_arg8) (V c main_v40)
    (iblk1 V c 0 t) (iblk1 V c 1 t) _ _ _ (fun k => meansRow1 V c t _ k _ rfl) (fun k => featuresRow1 V c t _ k _ rfl)

/-- An entry of the result array is in point `t`'s block iff each coordinate is in the block's range. -/
theorem mem_block1 (t : Fin cfg1.N) (i : S250000x8.Idx) :
    i ∈ ((cfg1.win 5).blk t).view.set ↔ ∀ a : Fin 2, win1_5.index t a * S10000x8.size a ≤ (i a).val
      ∧ (i a).val < win1_5.index t a * S10000x8.size a + S10000x8.size a := by
  show i ∈ ((View.whole main_v41).slice (win1_5.rect t)).set ↔ _
  rw [View.set_slice_whole, Rect.mem_set_unit]
  exact Iff.rfl

/-- Row `p` of the result is written by point `p / 10000`. -/
theorem covered1 (i : S250000x8.Idx) :
    ∃ t : Fin cfg1.N, (cfg1.win 5).flush t = true ∧ i ∈ ((cfg1.win 5).blk t).view.set := by
  have hi0 : (i 0).val < 250000 := (i 0).isLt
  have hi1 : (i 1).val < 8 := (i 1).isLt
  have hN : cfg1.N = 25 := N_1
  have ht : (i 0).val / 10000 < cfg1.N := by rw [hN]; omega
  obtain ⟨-, -, -, -, -, ⟨e0, e1⟩⟩ := blockIndex1 ⟨(i 0).val / 10000, ht⟩
  refine ⟨⟨(i 0).val / 10000, ht⟩, flush1_5 _, ?_⟩
  rw [mem_block1]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, ht⟩ (1 : Fin 2) * 8 ≤ (i 1).val
      ∧ (i 1).val < win1_5.index ⟨(i 0).val / 10000, ht⟩ (1 : Fin 2) * 8 + 8
    rw [e1]; omega

end Array

/-- What region 1 leaves in its result array, from the contents `V` it is entered at. -/
theorem region1_value (V : (c : Dev nD) → (b : Ref sig .tc) → Buf (Elt Ideal) ((c : Thread nD τ).loc b)) (c : Dev nD) :
    ((dat1 (F := Ideal) V c).arrAt 5 cfg1.N : Arr S250000x8)
      = dense 250000 16 8 leak (V c main_v39) (V c main_v26) (V c main_arg6) (V c main_arg8) (fun j => (V c main_v40 : Arr S1x8) (ix2 0 j)) :=
  (dat1 (F := Ideal) V c).arrAt_eq_of_cover 5 (layer1 V c) (fun t _ => written1 V c t) covered1

end Cert.Sage

end
-- ==== Proof.Region2.lean ====
/-
  Region 2's result as one function of the arrays it finds.

  The region runs its body at 25 grid points; point `t` reads rows `10000·t … 10000·t + 9999` of the two feature
  arrays, the whole of both weight matrices and of the bias row, and writes the same rows of the result. The body's
  value at block entry `(r, j)` is the dense layer's expression on block row `r`; block row `r` of point `t` is array
  row `10000·t + r`, so each written block is the restriction of the whole-array dense layer, and the 25 blocks cover
  the result.
-/
import proofs.«137498_j26774826123929_1_alg».proof.Proof.Gen.KernelIdeal.Frame
import proofs.«137498_j26774826123929_1_alg».proof.Proof.Spec
import proofs.«137498_j26774826123929_1_alg».proof.Proof.LibPlainProduct
import proofs.«137498_j26774826123929_1_alg».proof.Proof.BlockDense
import Idealize.ShloMosaic.Lib.Pipeline.Value
import Idealize.ShloMosaic.PureOps.Ideal.Laws

noncomputable section

open scoped BigOperators

namespace Cert.Sage

open Cert.KernelIdeal Cert.KernelIdeal.Gen Idealize.ShloMosaic Idealize.ShloMosaic.ValueIdx Idealize.ShloMosaic.TcCoe Idealize.SL.Sem

/-! ## The body at one block entry -/

/-- Entry `(r, j)` of what the body stores: the two products' sums and the bias, on block row `r`; this layer
    has no ramp. -/
theorem body2_apply (x0 x1 : FVec Ideal S10000x8 .f32) (x2 : FVec Ideal S8x4 .f32) (x3 : FVec Ideal S1x4 .f32)
    (x4 : FVec Ideal S8x4 .f32) (r : Fin 10000) (j : Fin 4) :
    k2_pay1 (F := Ideal) x0 x1 x2 x3 x4 (ix2 r j)
      = (∑ k : Fin 8, x0 (ix2 r k) * x2 (ix2 k j)) + x3 (ix2 0 j) + ∑ k : Fin 8, x1 (ix2 r k) * x4 (ix2 k j) := by
  unfold k2_pay1
  simp only [shapeCast_self]
  exact affine_apply x0 x1 x2 x4 x3 _ _ r j

/-! ## Where each window's block sits in its array -/

/-- The block indices over the grid: the row windows (0, 1 and the result's, 5) sit at block `t` of axis 0 and at
    block 0 of axis 1; the weights' and the bias row's windows never move. -/
theorem blockIndex2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

section Blocks

variable (V : (c : Dev nD) → (b : Ref sig .tc) → Buf (Elt Ideal) ((c : Thread nD τ).loc b)) (c : Dev nD) (t : Fin cfg2.N)

/-- Row `r` of the means' block at point `t` is row `10000·t + r` of the means' array. -/
theorem meansRow2 (r : Fin 10000) (k : Fin 8) (p : Fin 250000) (hp : p.val = 10000 * t.val + r.val) :
    (iblk2 V c 0 t : FVec Ideal S10000x8 .f32) (ix2 r k) = (V c main_v54 : Arr S250000x8) (ix2 p k) := by
  obtain ⟨⟨e0, e1⟩, -⟩ := blockIndex2 t
  unfold iblk2
  rw [View.read_apply]
  show V c main_v54 _ = V c main_v54 _
  congr 1
  funext a
  apply Fin.ext
  match a with
  | ⟨0, _⟩ => show win2_0.index t (0 : Fin 2) * 10000 + 1 * r.val = p.val; rw [e0, hp]; omega
  | ⟨1, _⟩ => show win2_0.index t (1 : Fin 2) * 8 + 1 * k.val = k.val; rw [e1]; omega

/-- The same for the features' block. -/
theorem featuresRow2 (r : Fin 10000) (k : Fin 8) (p : Fin 250000) (hp : p.val = 10000 * t.val + r.val) :
    (iblk2 V c 1 t : FVec Ideal S10000x8 .f32) (ix2 r k) = (V c main_v41 : Arr S250000x8) (ix2 p k) := by
  obtain ⟨-, ⟨e0, e1⟩, -⟩ := blockIndex2 t
  unfold iblk2
  rw [View.read_apply]
  show V c main_v41 _ = V c main_v41 _
  congr 1
  funext a
  apply Fin.ext
  match a with
  | ⟨0, _⟩ => show win2_1.index t (0 : Fin 2) * 10000 + 1 * r.val = p.val; rw [e0, hp]; omega
  | ⟨1, _⟩ => show win2_1.index t (1 : Fin 2) * 8 + 1 * k.val = k.val; rw [e1]; omega

/-- The left weights are staged whole. -/
theorem leftWeights2 : (iblk2 V c 2 t : FVec Ideal S8x4 .f32) = (V c main_arg9 : Arr S8x4) := by
  obtain ⟨-, -, ⟨e0, e1⟩, -⟩ := blockIndex2 t
  funext z
  unfold iblk2
  rw [View.read_apply]
  show V c main_arg9 _ = V c main_arg9 _
  congr 1
  funext a
  apply Fin.ext
  match a with
  | ⟨0, _⟩ => show win2_2.index t (0 : Fin 2) * 8 + 1 * (z 0).val = (z 0).val; rw [e0]; omega
  | ⟨1, _⟩ => show win2_2.index t (1 : Fin 2) * 4 + 1 * (z 1).val = (z 1).val; rw [e1]; omega

/-- So is the bias row. -/
theorem biasRow2 : (iblk2 V c 3 t : FVec Ideal S1x4 .f32) = (V c main_v55 : Arr S1x4) := by
  obtain ⟨-, -, -, ⟨e0, e1⟩, -⟩ := blockIndex2 t
  funext z
  unfold iblk2
  rw [View.read_apply]
  show V c main_v55 _ = V c main_v55 _
  congr 1
  funext a
  apply Fin.ext
  match a with
  | ⟨0, _⟩ => show win2_3.index t (0 : Fin 2) * 1 + 1 * (z 0).val = (z 0).val; rw [e0]; omega
  | ⟨1, _⟩ => show win2_3.index t (1 : Fin 2) * 4 + 1 * (z 1).val = (z 1).val; rw [e1]; omega

/-- And the right weights. -/
theorem rightWeights2 : (iblk2 V c 4 t : FVec Ideal S8x4 .f32) = (V c main_arg11 : Arr S8x4) := by
  obtain ⟨-, -, -, -, ⟨e0, e1⟩, -⟩ := blockIndex2 t
  funext z
  unfold iblk2
  rw [View.read_apply]
  show V c main_arg11 _ = V c main_arg11 _
  congr 1
  funext a
  apply Fin.ext
  match a with
  | ⟨0, _⟩ => show win2_4.index t (0 : Fin 2) * 8 + 1 * (z 0).val = (z 0).val; rw [e0]; omega
  | ⟨1, _⟩ => show win2_4.index t (1 : Fin 2) * 4 + 1 * (z 1).val = (z 1).val; rw [e1]; omega

end Blocks

/-! ## What a point writes back, the cover, the array -/

theorem zeroOffsets2 : (![0, 0] : Fin 2 → Nat) = fun _ => 0 := funext fun a => by fin_cases a <;> rfl

section Array

variable (V : (c : Dev nD) → (b : Ref sig .tc) → Buf (Elt Ideal) ((c : Thread nD τ).loc b)) (c : Dev nD)

/-- The dense layer of the arrays region 2 finds, with the identity in the ramp's place. -/
abbrev layer2 : Arr S250000x4 :=
  dense 250000 8 4 id (V c main_v54) (V c main_v41) (V c main_arg9) (V c main_arg11) (fun j => (V c main_v55 : Arr S1x4) (ix2 0 j))

/-- Point `t` writes back block `t` of the dense layer: entry `(r, j)` of the stored block is the layer at
    `(10000·t + r, j)`, which is where the result's window puts that entry. -/
theorem written2 (t : Fin cfg2.N) :
    (dat2 (F := Ideal) V c).flushed 5 t = ((cfg2.win 5).blk t).view.read (Elt Ideal) (layer2 V c) := by
  show (cfg2.win 5).cut (grid2.coords t) ((dat2 V c).after 5 t) = _
  rw [after2_5]
  unfold out2_5
  rw [View.canon_unit_zero zeroOffsets2]
  simp only [View.ld_unit_zero (S := S10000x8) zeroOffsets2, View.ld_unit_zero (S := S8x4) zeroOffsets2,
    View.ld_unit_zero (S := S1x4) zeroOffsets2]
  obtain ⟨-, -, -, -, -, ⟨e0, e1⟩⟩ := blockIndex2 t
  have hN : t.val < 25 := lt_of_lt_of_eq t.isLt N_2
  funext y
  have hr : (y 0).val < 10000 := (y 0).isLt
  have hj : (y 1).val < 4 := (y 1).isLt
  have ey : (win2 5).xinj (grid2.coords t) y = ix2 (⟨(y 0).val, hr⟩ : Fin 10000) (⟨(y 1).val, hj⟩ : Fin 4) :=
    funext fun a => by
      match a with
      | ⟨0, _⟩ => rfl
      | ⟨1, _⟩ => rfl
  have ei : ((View.whole main_v56).slice ((win2 5).rect t)).emb y
      = ix2 (⟨10000 * t.val + (y 0).val, by omega⟩ : Fin 250000) (⟨(y 1).val, hj⟩ : Fin 4) :=
    funext fun a => Fin.ext (by
      match a with
      | ⟨0, _⟩ => show win2_5.index t (0 : Fin 2) * 10000 + 1 * (y 0).val = 10000 * t.val + (y 0).val; rw [e0]; omega
      | ⟨1, _⟩ => show win2_5.index t (1 : Fin 2) * 4 + 1 * (y 1).val = (y 1).val; rw [e1]; omega)
  rw [View.read_apply]
  show k2_pay1 (F := Ideal) (iblk2 V c 0 t) (iblk2 V c 1 t) (iblk2 V c 2 t) (iblk2 V c 3 t) (iblk2 V c 4 t)
      ((win2 5).xinj (grid2.coords t) y) = layer2 V c (((View.whole main_v56).slice ((win2 5).rect t)).emb y)
  rw [ey, ei, leftWeights2 V c t, biasRow2 V c t, rightWeights2 V c t, body2_apply]
  exact dense_row id (V c main_v54) (V c main_v41) (V c main_arg9) (V c main_arg11) (V c main_v55)
    (iblk2 V c 0 t) (iblk2 V c 1 t) _ _ _ (fun k => meansRow2 V c t _ k _ rfl) (fun k => featuresRow2 V c t _ k _ rfl)

/-- An entry of the result array is in point `t`'s block iff each coordinate is in the block's range. -/
theorem mem_block2 (t : Fin cfg2.N) (i : S250000x4.Idx) :
    i ∈ ((cfg2.win 5).blk t).view.set ↔ ∀ a : Fin 2, win2_5.index t a * S10000x4.size a ≤ (i a).val
      ∧ (i a).val < win2_5.index t a * S10000x4.size a + S10000x4.size a := by
  show i ∈ ((View.whole main_v56).slice (win2_5.rect t)).set ↔ _
  rw [View.set_slice_whole, Rect.mem_set_unit]
  exact Iff.rfl

/-- Row `p` of the result is written by point `p / 10000`. -/
theorem covered2 (i : S250000x4.Idx) :
    ∃ t : Fin cfg2.N, (cfg2.win 5).flush t = true ∧ i ∈ ((cfg2.win 5).blk t).view.set := by
  have hi0 : (i 0).val < 250000 := (i 0).isLt
  have hi1 : (i 1).val < 4 := (i 1).isLt
  have hN : cfg2.N = 25 := N_2
  have ht : (i 0).val / 10000 < cfg2.N := by rw [hN]; omega
  obtain ⟨-, -, -, -, -, ⟨e0, e1⟩⟩ := blockIndex2 ⟨(i 0).val / 10000, ht⟩
  refine ⟨⟨(i 0).val / 10000, ht⟩, flush2_5 _, ?_⟩
  rw [mem_block2]
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_5.index ⟨(i 0).val / 10000, ht⟩ (1 : Fin 2) * 4 ≤ (i 1).val
      ∧ (i 1).val < win2_5.index ⟨(i 0).val / 10000, ht⟩ (1 : Fin 2) * 4 + 4
    rw [e1]; omega

end Array

/-- What region 2 leaves in its result array, from the contents `V` it is entered at. -/
theorem region2_value (V : (c : Dev nD) → (b : Ref sig .tc) → Buf (Elt Ideal) ((c : Thread nD τ).loc b)) (c : Dev nD) :
    ((dat2 (F := Ideal) V c).arrAt 5 cfg2.N : Arr S250000x4)
      = dense 250000 8 4 id (V c main_v54) (V c main_v41) (V c main_arg9) (V c main_arg11) (fun j => (V c main_v55 : Arr S1x4) (ix2 0 j)) :=
  (dat2 (F := Ideal) V c).arrAt_eq_of_cover 5 (layer2 V c) (fun t _ => written2 V c t) covered2

end Cert.Sage

end
-- ==== Proof.KernelValue.lean ====
/-
  The idealized kernel program's result as the function of its arguments.

  The result buffer's final contents are the last host stretch applied to what the third region leaves, which is the
  dense layer of what the stretch before it computes from what the second region leaves, and so on back to the
  launch contents: four host stretches, each read operation by operation, and three regions, each one dense layer of
  the arrays it is entered at. Buffers a stretch or a region does not write are carried across it unchanged (the edge
  endpoints, the reciprocal counts, an earlier layer's output, every argument).
-/
import proofs.«137498_j26774826123929_1_alg».proof.Proof.Gen.KernelIdeal.Frame
import proofs.«137498_j26774826123929_1_alg».proof.Proof.Spec
import proofs.«137498_j26774826123929_1_alg».proof.Proof.Region0
import proofs.«137498_j26774826123929_1_alg».proof.Proof.Region1
import proofs.«137498_j26774826123929_1_alg».proof.Proof.Region2
import Idealize.ShloMosaic.Lib.StableHlo.Run
import Idealize.ShloMosaic.Lib.ValueLayout

noncomputable section

open scoped BigOperators

namespace Cert.KernelIdeal.Result

open Cert.KernelIdeal Cert.KernelIdeal.Gen Cert.Sage Idealize.ShloMosaic Idealize.ShloMosaic.ValueIdx Idealize.ShloMosaic.TcCoe Idealize.SL.Sem

section Boundaries

variable (m : (ℓ : Loc nD τ sig) → Buf (Elt Ideal) ℓ) (ρ : Dev nD → PrngReg) (c : Dev nD)

/-! ## The function's intermediate arrays, named -/

/-- The launch contents of a buffer of core `c`. -/
abbrev arg (r : Ref sig .tc) : Buf (Elt Ideal) ((c.tc : Thread nD τ).loc r) := m ((c.tc : Thread nD τ).loc r)

/-- The first layer's output, of the launch contents. -/
def H1 : Arr S250000x16 :=
  dense 250000 13 16 leak (meanByRecip13 (arg m c main_arg0) (arg m c main_arg1)) (arg m c main_arg0) (arg m c main_arg3)
    (arg m c main_arg5) (fun j => (arg m c main_arg4 : Arr S16) (ix1 j))
/-- The second layer's output. -/
def H2 : Arr S250000x8 :=
  dense 250000 16 8 leak (meanByRecip16 (H1 m c) (arg m c main_arg1)) (H1 m c) (arg m c main_arg6)
    (arg m c main_arg8) (fun j => (arg m c main_arg7 : Arr S8) (ix1 j))
/-- The third layer's output. -/
def H3 : Arr S250000x4 :=
  dense 250000 8 4 id (meanByRecip8 (H2 m c) (arg m c main_arg1)) (H2 m c) (arg m c main_arg9)
    (arg m c main_arg11) (fun j => (arg m c main_arg10 : Arr S4) (ix1 j))

/-- A dense layer of equal operands is the same array. -/
theorem dense_congr {R K N : ℕ} {act : EReal → EReal} {a a' x x' : FVec Ideal ⟨2, ![R, K]⟩ .f32} {wl wl' wr wr' : FVec Ideal ⟨2, ![K, N]⟩ .f32}
    {b b' : Fin N → EReal} (ha : a = a') (hx : x = x') (hl : wl = wl') (hr : wr = wr') (hb : ∀ j, b j = b' j) :
    dense R K N act a x wl wr b = dense R K N act a' x' wl' wr' b' := by
  obtain rfl : b = b' := funext hb
  subst ha hx hl hr; rfl

/-! ## What each host stretch writes, and what therefore crosses it -/

/-- The references the first host stretch writes. -/
abbrev wr0 : List (Ref sig .tc) :=
  [main_v0, main_v1, main_v2, main_v3, main_cst, main_v4, main_cst_0, main_v5, main_v6, main_v7, main_cst_1, main_v8, main_v9,
   main_cst_2, main_v10, main_v11, main_c, main_v12, main_v13, main_c_3, main_v14, main_v15, main_v16, main_v17, main_v18,
   main_cst_4, main_v19, main_v20, main_v21, main_v22, main_v23, main_v24, main_v25]
/-- The references the second host stretch writes. -/
abbrev wr1 : List (Ref sig .tc) :=
  [main_c_5, main_v27, main_v28, main_c_6, main_v29, main_v30, main_v31, main_v32, main_v33, main_cst_7, main_v34, main_v35,
   main_v36, main_v37, main_v38, main_v39, main_v40]
/-- The references the third host stretch writes. -/
abbrev wr2 : List (Ref sig .tc) :=
  [main_c_8, main_v42, main_v43, main_c_9, main_v44, main_v45, main_v46, main_v47, main_v48, main_cst_10, main_v49, main_v50,
   main_v51, main_v52, main_v53, main_v54, main_v55]

theorem writes0 : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes1 : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem writes2 : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the first stretch does not write holds its launch contents at region 0's entry. -/
theorem W1_keep (r : Ref sig .tc) (h : r ∉ wr0) : W1 (F := Ideal) m ρ c (Proc.devRef .tc r) = arg m c r :=
  StableHlo.after_of_writes_sub hostOps0 _ writes0 h
/-- A buffer the second stretch does not write crosses it. -/
theorem W3_keep (r : Ref sig .tc) (h : r ∉ wr1) : W3 (F := Ideal) m ρ c (Proc.devRef .tc r) = W2 m ρ c (Proc.devRef .tc r) :=
  StableHlo.after_of_writes_sub hostOps1 _ writes1 h
/-- A buffer the third stretch does not write crosses it. -/
theorem W5_keep (r : Ref sig .tc) (h : r ∉ wr2) : W5 (F := Ideal) m ρ c (Proc.devRef .tc r) = W4 m ρ c (Proc.devRef .tc r) :=
  StableHlo.after_of_writes_sub hostOps2 _ writes2 h

/-! ### A buffer that nothing up to a boundary writes holds its launch contents there -/

theorem W2_launch (r : Ref sig .tc) (h0 : r ∉ wr0) (hr0 : ∀ w, Pipeline.arrRef spec0 w ≠ r) :
    W2 (F := Ideal) m ρ c (Proc.devRef .tc r) = arg m c r :=
  (W2_of_ne m ρ c r hr0).trans (W1_keep m ρ c r h0)
theorem W3_launch (r : Ref sig .tc) (h0 : r ∉ wr0) (hr0 : ∀ w, Pipeline.arrRef spec0 w ≠ r) (h1 : r ∉ wr1) :
    W3 (F := Ideal) m ρ c (Proc.devRef .tc r) = arg m c r :=
  (W3_keep m ρ c r h1).trans (W2_launch m ρ c r h0 hr0)
theorem W4_launch (r : Ref sig .tc) (h0 : r ∉ wr0) (hr0 : ∀ w, Pipeline.arrRef spec0 w ≠ r) (h1 : r ∉ wr1)
    (hr1 : ∀ w, Pipeline.arrRef spec1 w ≠ r) : W4 (F := Ideal) m ρ c (Proc.devRef .tc r) = arg m c r :=
  (W4_of_ne m ρ c r hr1).trans (W3_launch m ρ c r h0 hr0 h1)
theorem W5_launch (r : Ref sig .tc) (h0 : r ∉ wr0) (hr0 : ∀ w, Pipeline.arrRef spec0 w ≠ r) (h1 : r ∉ wr1)
    (hr1 : ∀ w, Pipeline.arrRef spec1 w ≠ r) (h2 : r ∉ wr2) : W5 (F := Ideal) m ρ c (Proc.devRef .tc r) = arg m c r :=
  (W5_keep m ρ c r h2).trans (W4_launch m ρ c r h0 hr0 h1 hr1)
theorem W6_launch (r : Ref sig .tc) (h0 : r ∉ wr0) (hr0 : ∀ w, Pipeline.arrRef spec0 w ≠ r) (h1 : r ∉ wr1)
    (hr1 : ∀ w, Pipeline.arrRef spec1 w ≠ r) (h2 : r ∉ wr2) (hr2 : ∀ w, Pipeline.arrRef spec2 w ≠ r) :
    W6 (F := Ideal) m ρ c (Proc.devRef .tc r) = arg m c r :=
  (W6_of_ne m ρ c r hr2).trans (W5_launch m ρ c r h0 hr0 h1 hr1 h2)

/-- What the first stretch leaves and only later stretches read crosses a region and a stretch unchanged. -/
theorem W4_of_W2 (r : Ref sig .tc) (h1 : r ∉ wr1) (hr1 : ∀ w, Pipeline.arrRef spec1 w ≠ r) :
    W4 (F := Ideal) m ρ c (Proc.devRef .tc r) = W2 m ρ c (Proc.devRef .tc r) :=
  (W4_of_ne m ρ c r hr1).trans (W3_keep m ρ c r h1)

/-! ## Region 0's entry: the first stretch's results -/

theorem W1_v1 : (W1 (F := Ideal) m ρ c (Proc.devRef .tc main_v1) : Ids S4000000) = edgeStart (arg m c main_arg1) := by
  show StableHlo.after hostOps0 (W0 m ρ c) (Proc.devRef .tc main_v1) = _
  after_results
  rfl
theorem W1_v3 : (W1 (F := Ideal) m ρ c (Proc.devRef .tc main_v3) : Ids S4000000) = edgeEnd (arg m c main_arg1) := by
  show StableHlo.after hostOps0 (W0 m ρ c) (Proc.devRef .tc main_v3) = _
  after_results
  rfl
theorem W1_v11 : (W1 (F := Ideal) m ρ c (Proc.devRef .tc main_v11) : Arr S250000) = recipDegree (arg m c main_arg1) := by
  show StableHlo.after hostOps0 (W0 m ρ c) (Proc.devRef .tc main_v11) = _
  after_results
  rfl
theorem W1_v24 : (W1 (F := Ideal) m ρ c (Proc.devRef .tc main_v24) : Arr S250000x13)
    = meanByRecip13 (arg m c main_arg0) (arg m c main_arg1) := by
  show StableHlo.after hostOps0 (W0 m ρ c) (Proc.devRef .tc main_v24) = _
  after_results_simp
  rfl
/-- The first bias as a one-row matrix reads, in its row, the bias. -/
theorem W1_v25 (j : Fin 16) : (W1 (F := Ideal) m ρ c (Proc.devRef .tc main_v25) : Arr S1x16) (ix2 0 j) = (arg m c main_arg4 : Arr S16) (ix1 j) := by
  have h : (W1 (F := Ideal) m ρ c (Proc.devRef .tc main_v25) : Arr S1x16) = shapeCast S1x16 (arg m c main_arg4 : Arr S16) shapeCasts_S16_S1x16 := by
    show StableHlo.after hostOps0 (W0 m ρ c) (Proc.devRef .tc main_v25) = _
    after_results
    rfl
  rw [h]
  exact shapeCast_a_1a_apply _ _ 0 j

/-! ## Region 0's exit -/

theorem W2_v26 : (W2 (F := Ideal) m ρ c (Proc.devRef .tc main_v26) : Arr S250000x16) = H1 m c :=
  (W2_arr m ρ c 5).trans ((region0_value (V1 m ρ) c).trans
    (dense_congr (W1_v24 m ρ c) (W1_keep m ρ c main_arg0 (by decide)) (W1_keep m ρ c main_arg3 (by decide))
      (W1_keep m ρ c main_arg5 (by decide)) (W1_v25 m ρ c)))
theorem W2_v1 : (W2 (F := Ideal) m ρ c (Proc.devRef .tc main_v1) : Ids S4000000) = edgeStart (arg m c main_arg1) :=
  (W2_of_ne m ρ c main_v1 (by decide)).trans (W1_v1 m ρ c)
theorem W2_v3 : (W2 (F := Ideal) m ρ c (Proc.devRef .tc main_v3) : Ids S4000000) = edgeEnd (arg m c main_arg1) :=
  (W2_of_ne m ρ c main_v3 (by decide)).trans (W1_v3 m ρ c)
theorem W2_v11 : (W2 (F := Ideal) m ρ c (Proc.devRef .tc main_v11) : Arr S250000) = recipDegree (arg m c main_arg1) :=
  (W2_of_ne m ρ c main_v11 (by decide)).trans (W1_v11 m ρ c)

/-! ## Region 1's entry: the second stretch's results -/

theorem W3_v39 : (W3 (F := Ideal) m ρ c (Proc.devRef .tc main_v39) : Arr S250000x16) = meanByRecip16 (H1 m c) (arg m c main_arg1) := by
  show StableHlo.after hostOps1 (W2 m ρ c) (Proc.devRef .tc main_v39) = _
  after_results_simp
  rw [W2_v1 m ρ c, W2_v3 m ρ c, W2_v11 m ρ c, W2_v26 m ρ c]
  rfl
/-- The second bias as a one-row matrix reads, in its row, the bias. -/
theorem W3_v40 (j : Fin 8) : (W3 (F := Ideal) m ρ c (Proc.devRef .tc main_v40) : Arr S1x8) (ix2 0 j) = (arg m c main_arg7 : Arr S8) (ix1 j) := by
  have h : (W3 (F := Ideal) m ρ c (Proc.devRef .tc main_v40) : Arr S1x8) = shapeCast S1x8 (arg m c main_arg7 : Arr S8) shapeCasts_S8_S1x8 := by
    show StableHlo.after hostOps1 (W2 m ρ c) (Proc.devRef .tc main_v40) = _
    after_results
    rw [W2_launch m ρ c main_arg7 (by decide) (by decide)]
    rfl
  rw [h]
  exact shapeCast_a_1a_apply _ _ 0 j
theorem W3_v26 : (W3 (F := Ideal) m ρ c (Proc.devRef .tc main_v26) : Arr S250000x16) = H1 m c :=
  (W3_keep m ρ c main_v26 (by decide)).trans (W2_v26 m ρ c)

/-! ## Region 1's exit -/

theorem W4_v41 : (W4 (F := Ideal) m ρ c (Proc.devRef .tc main_v41) : Arr S250000x8) = H2 m c :=
  (W4_arr m ρ c 5).trans ((region1_value (V3 m ρ) c).trans
    (dense_congr (W3_v39 m ρ c) (W3_v26 m ρ c) (W3_launch m ρ c main_arg6 (by decide) (by decide) (by decide))
      (W3_launch m ρ c main_arg8 (by decide) (by decide) (by decide)) (W3_v40 m ρ c)))
theorem W4_v1 : (W4 (F := Ideal) m ρ c (Proc.devRef .tc main_v1) : Ids S4000000) = edgeStart (arg m c main_arg1) :=
  (W4_of_W2 m ρ c main_v1 (by decide) (by decide)).trans (W2_v1 m ρ c)
theorem W4_v3 : (W4 (F := Ideal) m ρ c (Proc.devRef .tc main_v3) : Ids S4000000) = edgeEnd (arg m c main_arg1) :=
  (W4_of_W2 m ρ c main_v3 (by decide) (by decide)).trans (W2_v3 m ρ c)
theorem W4_v11 : (W4 (F := Ideal) m ρ c (Proc.devRef .tc main_v11) : Arr S250000) = recipDegree (arg m c main_arg1) :=
  (W4_of_W2 m ρ c main_v11 (by decide) (by decide)).trans (W2_v11 m ρ c)

/-! ## Region 2's entry: the third stretch's results -/

theorem W5_v54 : (W5 (F := Ideal) m ρ c (Proc.devRef .tc main_v54) : Arr S250000x8) = meanByRecip8 (H2 m c) (arg m c main_arg1) := by
  show StableHlo.after hostOps2 (W4 m ρ c) (Proc.devRef .tc main_v54) = _
  after_results_simp
  rw [W4_v1 m ρ c, W4_v3 m ρ c, W4_v11 m ρ c, W4_v41 m ρ c]
  rfl
/-- The third bias as a one-row matrix reads, in its row, the bias. -/
theorem W5_v55 (j : Fin 4) : (W5 (F := Ideal) m ρ c (Proc.devRef .tc main_v55) : Arr S1x4) (ix2 0 j) = (arg m c main_arg10 : Arr S4) (ix1 j) := by
  have h : (W5 (F := Ideal) m ρ c (Proc.devRef .tc main_v55) : Arr S1x4) = shapeCast S1x4 (arg m c main_arg10 : Arr S4) shapeCasts_S4_S1x4 := by
    show StableHlo.after hostOps2 (W4 m ρ c) (Proc.devRef .tc main_v55) = _
    after_results
    rw [W4_launch m ρ c main_arg10 (by decide) (by decide) (by decide) (by decide)]
    rfl
  rw [h]
  exact shapeCast_a_1a_apply _ _ 0 j
theorem W5_v41 : (W5 (F := Ideal) m ρ c (Proc.devRef .tc main_v41) : Arr S250000x8) = H2 m c :=
  (W5_keep m ρ c main_v41 (by decide)).trans (W4_v41 m ρ c)

/-! ## Region 2's exit -/

theorem W6_v56 : (W6 (F := Ideal) m ρ c (Proc.devRef .tc main_v56) : Arr S250000x4) = H3 m c :=
  (W6_arr m ρ c 5).trans ((region2_value (V5 m ρ) c).trans
    (dense_congr (W5_v54 m ρ c) (W5_v41 m ρ c) (W5_launch m ρ c main_arg9 (by decide) (by decide) (by decide) (by decide) (by decide))
      (W5_launch m ρ c main_arg11 (by decide) (by decide) (by decide) (by decide) (by decide)) (W5_v55 m ρ c)))

/-! ## The result: the last stretch in two steps, the pooled sums and means, then the affine map of the two side by side -/

/-- Per graph, the sum of the rows of `h`. -/
def pooledSum (h : Arr S250000x4) (g : Ids S250000) : Arr S512x4 :=
  Host.scatterAdd scatter_S512x4_S250000x1_S250000x4_1_0_0_1
    (broadcastInDim S512x4 ![] bcast_S_S512x4 (constant S_ .f32 0x00000000#32))
    (broadcastInDim S250000x1 ![0] bcast_S250000_S250000x1_0 g) h
/-- Per graph, that sum over the graph's node count, or over one where the graph has no node. -/
def pooledMean (h : Arr S250000x4) (g : Ids S250000) : Arr S512x4 :=
  Host.divf (pooledSum h g) (broadcastInDim S512x4 ![0, 1] bcast_S512x1_S512x4_0_1
    (broadcastInDim S512x1 ![0] bcast_S512_S512x1_0
      (maximumf
        (Host.scatterAdd scatter_S512_S250000x1_S250000_n_0_0_1
          (broadcastInDim S512 ![] bcast_S_S512 (constant S_ .f32 0x00000000#32))
          (broadcastInDim S250000x1 ![0] bcast_S250000_S250000x1_0 g)
          (broadcastInDim S250000 ![] bcast_S_S250000 (constant S_ .f32 0x3F800000#32)))
        (broadcastInDim S512 ![] bcast_S_S512 (constant S_ .f32 0x3F800000#32)))))

/-- The buffers after the last stretch's first sixteen operations (through the pooled mean). -/
def P3 : Valuation τ sig (Elt Ideal) := StableHlo.after (hostOps3.take 16) (W6 m ρ c)

theorem W7_eq : W7 (F := Ideal) m ρ c = StableHlo.after (hostOps3.drop 16) (P3 m ρ c) := by
  unfold P3
  rw [← StableHlo.after_append, List.take_append_drop]

theorem P3_v59 : (P3 m ρ c (Proc.devRef .tc main_v59) : Arr S512x4) = pooledSum (H3 m c) (arg m c main_arg2) := by
  show StableHlo.after (hostOps3.take 16) (W6 m ρ c) (Proc.devRef .tc main_v59) = _
  simp only [hostOps3, List.take_succ_cons, List.take_zero]
  after_results_simp
  rw [W6_v56 m ρ c, W6_launch m ρ c main_arg2 (by decide) (by decide) (by decide) (by decide) (by decide) (by decide)]
  rfl
theorem P3_v68 : (P3 m ρ c (Proc.devRef .tc main_v68) : Arr S512x4) = pooledMean (H3 m c) (arg m c main_arg2) := by
  show StableHlo.after (hostOps3.take 16) (W6 m ρ c) (Proc.devRef .tc main_v68) = _
  simp only [hostOps3, List.take_succ_cons, List.take_zero]
  after_results_simp
  rw [W6_v56 m ρ c, W6_launch m ρ c main_arg2 (by decide) (by decide) (by decide) (by decide) (by decide) (by decide)]
  rfl
theorem P3_arg12 : (P3 m ρ c (Proc.devRef .tc main_arg12) : Arr S8x1) = arg m c main_arg12 := by
  show StableHlo.after (hostOps3.take 16) (W6 m ρ c) (Proc.devRef .tc main_arg12) = _
  simp only [hostOps3, List.take_succ_cons, List.take_zero]
  after_results_simp
  exact W6_launch m ρ c main_arg12 (by decide) (by decide) (by decide) (by decide) (by decide) (by decide)
theorem P3_arg13 : (P3 m ρ c (Proc.devRef .tc main_arg13) : Arr S1) = arg m c main_arg13 := by
  show StableHlo.after (hostOps3.take 16) (W6 m ρ c) (Proc.devRef .tc main_arg13) = _
  simp only [hostOps3, List.take_succ_cons, List.take_zero]
  after_results_simp
  exact W6_launch m ρ c main_arg13 (by decide) (by decide) (by decide) (by decide) (by decide) (by decide)

theorem W7_v73 : (W7 (F := Ideal) m ρ c (Proc.devRef .tc main_v73) : Arr S512x1)
    = readout (H3 m c) (arg m c main_arg2) (arg m c main_arg12) (arg m c main_arg13) := by
  rw [W7_eq m ρ c]
  simp only [hostOps3, List.drop_succ_cons, List.drop_zero]
  after_results_simp
  rw [P3_v59 m ρ c, P3_v68 m ρ c, P3_arg12 m ρ c, P3_arg13 m ρ c]
  rfl

end Boundaries

/-- The last boundary's contents at the result buffer: the whole function, with the mean as sum times reciprocal
    count, of the launch contents of the arguments. -/
theorem result_value (m : (ℓ : Loc nD τ sig) → Buf (Elt Ideal) ℓ) (ρ : Dev nD → PrngReg) (c : Dev nD) :
    (W7 (F := Ideal) m ρ c (Proc.devRef .tc main_v73) : Arr S512x1)
      = outByRecip (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) :=
  W7_v73 m ρ c

end Cert.KernelIdeal.Result

end
-- ==== Proof.RefOps.lean ====
/-
  The reference program as one straight line: its 134 host operations in the order @main runs them, the two
  leaky-ramp calls written out at their call sites over the buffers each call names (seven operations each: the zero,
  its broadcast, the comparison, the slope, its broadcast, the product, the selection).
-/
import proofs.«137498_j26774826123929_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's host operations, in order. -/
abbrev ops : List (HloOp τ sig (Elt F)) :=
  [ StableHlo.unary main_arg1 main_v0 ((extractStridedSlice S1x4000000 ![0, 0] · slices_S2x4000000_S1x4000000_0_0) : (⟨S2x4000000, .i32⟩ : BufTy).Contents (Elt F) → (⟨S1x4000000, .i32⟩ : BufTy).Contents (Elt F)),
    StableHlo.reshape main_v0 main_v1 rfl shapeCasts_S1x4000000_S4000000,
    StableHlo.unary main_arg1 main_v2 ((extractStridedSlice S1x4000000 ![1, 0] · slices_S2x4000000_S1x4000000_1_0) : (⟨S2x4000000, .i32⟩ : BufTy).Contents (Elt F) → (⟨S1x4000000, .i32⟩ : BufTy).Contents (Elt F)),
    StableHlo.reshape main_v2 main_v3 rfl shapeCasts_S1x4000000_S4000000,
    StableHlo.nullary main_c (constantI S_ 32 0#32),
    StableHlo.unary main_c main_v4 (broadcastInDim S4000000 ![] bcast_S_S4000000 : (⟨S_, .i32⟩ : BufTy).Contents (Elt F) → (⟨S4000000, .i32⟩ : BufTy).Contents (Elt F)),
    StableHlo.binary main_v1 main_v4 main_v5 (cmpi .slt : (⟨S4000000, .i32⟩ : BufTy).Contents (Elt F) → (⟨S4000000, .i32⟩ : BufTy).Contents (Elt F) → (⟨S4000000, .i1⟩ : BufTy).Contents (Elt F)),
    StableHlo.nullary main_c_0 (constantI S_ 32 250000#32),
    StableHlo.unary main_c_0 main_v6 (broadcastInDim S4000000 ![] bcast_S_S4000000 : (⟨S_, .i32⟩ : BufTy).Contents (Elt F) → (⟨S4000000, .i32⟩ : BufTy).Contents (Elt F)),
    StableHlo.binary main_v1 main_v6 main_v7 (addi : (⟨S4000000, .i32⟩ : BufTy).Contents (Elt F) → (⟨S4000000, .i32⟩ : BufTy).Contents (Elt F) → (⟨S4000000, .i32⟩ : BufTy).Contents (Elt F)),
    StableHlo.ternary main_v5 main_v7 main_v1 main_v8 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v8 main_v9 (broadcastInDim S4000000x1 ![0] bcast_S4000000_S4000000x1_0 : (⟨S4000000, .i32⟩ : BufTy).Contents (Elt F) → (⟨S4000000x1, .i32⟩ : BufTy).Contents (Elt F)),
    StableHlo.binary main_arg0 main_v9 main_v10 ((fun x i => Host.gather gather_S250000x13_S4000000x1_S4000000x13_1_0_n_n_0_1_113 x i) : (⟨S250000x13, .f32⟩ : BufTy).Contents (Elt F) → (⟨S4000000x1, .i32⟩ : BufTy).Contents (Elt F) → (⟨S4000000x13, .f32⟩ : BufTy).Contents (Elt F)),
    StableHlo.nullary main_cst (constant S_ .f32 0x00000000#32),
    StableHlo.unary main_cst main_v11 (broadcastInDim S250000x13 ![] bcast_S_S250000x13 : (⟨S_, .f32⟩ : BufTy).Contents (Elt F) → (⟨S250000x13, .f32⟩ : BufTy).Contents (Elt F)),
    StableHlo.unary main_v3 main_v12 (broadcastInDim S4000000x1 ![0] bcast_S4000000_S4000000x1_0 : (⟨S4000000, .i32⟩ : BufTy).Contents (Elt F) → (⟨S4000000x1, .i32⟩ : BufTy).Contents (Elt F)),
    StableHlo.ternary main_v11 main_v12 main_v10 main_v13 ((fun x i u => Host.scatterAdd scatter_S250000x13_S4000000x1_S4000000x13_1_0_0_1 x i u) : (⟨S250000x13, .f32⟩ : BufTy).Contents (Elt F) → (⟨S4000000x1, .i32⟩ : BufTy).Contents (Elt F) → (⟨S4000000x13, .f32⟩ : BufTy).Contents (Elt F) → (⟨S250000x13, .f32⟩ : BufTy).Contents (Elt F)),
    StableHlo.nullary main_cst_1 (constant S_ .f32 0x3F800000#32),
    StableHlo.unary main_cst_1 main_v14 (broadcastInDim S4000000 ![] bcast_S_S4000000 : (⟨S_, .f32⟩ : BufTy).Contents (Elt F) → (⟨S4000000, .f32⟩ : BufTy).Contents (Elt F)),
    StableHlo.nullary main_cst_2 (constant S_ .f32 0x00000000#32),
    StableHlo.unary main_cst_2 main_v15 (broadcastInDim S250000 ![] bcast_S_S250000 : (⟨S_, .f32⟩ : BufTy).Contents (Elt F) → (⟨S250000, .f32⟩ : BufTy).Contents (Elt F)),
    StableHlo.unary main_v3 main_v16 (broadcastInDim S4000000x1 ![0] bcast_S4000000_S4000000x1_0 : (⟨S4000000, .i32⟩ : BufTy).Contents (Elt F) → (⟨S4000000x1, .i32⟩ : BufTy).Contents (Elt F)),
    StableHlo.ternary main_v15 main_v16 main_v14 main_v17 ((fun x i u => Host.scatterAdd scatter_S250000_S4000000x1_S4000000_n_0_0_1 x i u) : (⟨S250000, .f32⟩ : BufTy).Contents (Elt F) → (⟨S4000000x1, .i32⟩ : BufTy).Contents (Elt F) → (⟨S4000000, .f32⟩ : BufTy).Contents (Elt F) → (⟨S250000, .f32⟩ : BufTy).Contents (Elt F)),
    StableHlo.nullary main_cst_3 (constant S_ .f32 0x3F800000#32),
    StableHlo.unary main_cst_3 main_v18 (broadcastInDim S250000 ![] bcast_S_S250000 : (⟨S_, .f32⟩ : BufTy).Contents (Elt F) → (⟨S250000, .f32⟩ : BufTy).Contents (Elt F)),
    StableHlo.binary main_v17 main_v18 main_v19 (maximumf : (⟨S250000, .f32⟩ : BufTy).Contents (Elt F) → (⟨S250000, .f32⟩ : BufTy).Contents (Elt F) → (⟨S250000, .f32⟩ : BufTy).Contents (Elt F)),
    StableHlo.unary main_v19 main_v20 (broadcastInDim S250000x1 ![0] bcast_S250000_S250000x1_0 : (⟨S250000, .f32⟩ : BufTy).Contents (Elt F) → (⟨S250000x1, .f32⟩ : BufTy).Contents (Elt F)),
    StableHlo.unary main_v20 main_v21 (broadcastInDim S250000x13 ![0, 1] bcast_S250000x1_S250000x13_0_1 : (⟨S250000x1, .f32⟩ : BufTy).Contents (Elt F) → (⟨S250000x13, .f32⟩ : BufTy).Contents (Elt F)),
    StableHlo.binary main_v13 main_v21 main_v22 (Host.divf : (⟨S250000x13, .f32⟩ : BufTy).Contents (Elt F) → (⟨S250000x13, .f32⟩ : BufTy).Contents (Elt F) → (⟨S250000x13, .f32⟩ : BufTy).Contents (Elt F)),
    StableHlo.binary main_v22 main_arg3 main_v23 ((fun l r => Host.dotGeneral dot_S250000x13_S13x16_S250000x16_1_0_0_1_n_n none l r) : (⟨S250000x13, .f32⟩ : BufTy).Contents (Elt F) → (⟨S13x16, .f32⟩ : BufTy).Contents (Elt F) → (⟨S250000x16, .f32⟩ : BufTy).Contents (Elt F)),
    StableHlo.unary main_arg4 main_v24 (broadcastInDim S1x16 ![1] bcast_S16_S1x16_1 : (⟨S16, .f32⟩ : BufTy).Contents (Elt F) → (⟨S1x16, .f32⟩ : BufTy).Contents (Elt F)),
    StableHlo.unary main_v24 main_v25 (broadcastInDim S250000x16 ![0, 1] bcast_S1x16_S250000x16_0_1 : (⟨S1x16, .f32⟩ : BufTy).Contents (Elt F) → (⟨S250000x16, .f32⟩ : BufTy).Contents (Elt F)),
    StableHlo.binary main_v23 main_v25 main_v26 (addf : (⟨S250000x16, .f32⟩ : BufTy).Contents (Elt F) → (⟨S250000x16, .f32⟩ : BufTy).Contents (Elt F) → (⟨S250000x16, .f32⟩ : BufTy).Contents (Elt F)),
    StableHlo.binary main_arg0 main_arg5 main_v27 ((fun l r => Host.dotGeneral dot_S250000x13_S13x16_S250000x16_1_0_0_1_n_n none l r) : (⟨S250000x13, .f32⟩ : BufTy).Contents (Elt F) → (⟨S13x16, .f32⟩ : BufTy).Contents (Elt F) → (⟨S250000x16, .f32⟩ : BufTy).Contents (Elt F)),
    StableHlo.binary main_v26 main_v27 main_v28 (addf : (⟨S250000x16, .f32⟩ : BufTy).Contents (Elt F) → (⟨S250000x16, .f32⟩ : BufTy).Contents (Elt F) → (⟨S250000x16, .f32⟩ : BufTy).Contents (Elt F)),
    StableHlo.nullary main_cst_4 (constant S_ .f32 0x3C23D70A#32),
    StableHlo.TRef.nullary main_call0.cst (constant S_ .f32 0x00000000#32),
    StableHlo.TRef.unary main_call0.cst main_call0.v0 (broadcastInDim S250000x16 ![] bcast_S_S250000x16),
    StableHlo.TRef.binary (.of main_v28) main_call0.v0 main_call0.v1 (cmpf .oge),
    StableHlo.TRef.unary (.of main_cst_4) main_call0.v2 id,
    StableHlo.TRef.unary main_call0.v2 main_call0.v3 (broadcastInDim S250000x16 ![] bcast_S_S250000x16),
    StableHlo.TRef.binary main_call0.v3 (.of main_v28) main_call0.v4 mulf,
    StableHlo.TRef.ternary main_call0.v1 (.of main_v28) main_call0.v4 main_call0.call0.v0 select,
    StableHlo.nullary main_c_5 (constantI S_ 32 0#32),
    StableHlo.unary main_c_5 main_v30 (broadcastInDim S4000000 ![] bcast_S_S4000000 : (⟨S_, .i32⟩ : BufTy).Contents (Elt F) → (⟨S4000000, .i32⟩ : BufTy).Contents (Elt F)),
    StableHlo.binary main_v1 main_v30 main_v31 (cmpi .slt : (⟨S4000000, .i32⟩ : BufTy).Contents (Elt F) → (⟨S4000000, .i32⟩ : BufTy).Contents (Elt F) → (⟨S4000000, .i1⟩ : BufTy).Contents (Elt F)),
    StableHlo.nullary main_c_6 (constantI S_ 32 250000#32),
    StableHlo.unary main_c_6 main_v32 (broadcastInDim S4000000 ![] bcast_S_S4000000 : (⟨S_, .i32⟩ : BufTy).Contents (Elt F) → (⟨S4000000, .i32⟩ : BufTy).Contents (Elt F)),
    StableHlo.binary main_v1 main_v32 main_v33 (addi : (⟨S4000000, .i32⟩ : BufTy).Contents (Elt F) → (⟨S4000000, .i32⟩ : BufTy).Contents (Elt F) → (⟨S4000000, .i32⟩ : BufTy).Contents (Elt F)),
    StableHlo.ternary main_v31 main_v33 main_v1 main_v34 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v34 main_v35 (broadcastInDim S4000000x1 ![0] bcast_S4000000_S4000000x1_0 : (⟨S4000000, .i32⟩ : BufTy).Contents (Elt F) → (⟨S4000000x1, .i32⟩ : BufTy).Contents (Elt F)),
    StableHlo.binary main_v29 main_v35 main_v36 ((fun x i => Host.gather gather_S250000x16_S4000000x1_S4000000x16_1_0_n_n_0_1_116 x i) : (⟨S250000x16, .f32⟩ : BufTy).Contents (Elt F) → (⟨S4000000x1, .i32⟩ : BufTy).Contents (Elt F) → (⟨S4000000x16, .f32⟩ : BufTy).Contents (Elt F)),
    StableHlo.nullary main_cst_7 (constant S_ .f32 0x00000000#32),
    StableHlo.unary main_cst_7 main_v37 (broadcastInDim S250000x16 ![] bcast_S_S250000x16 : (⟨S_, .f32⟩ : BufTy).Contents (Elt F) → (⟨S250000x16, .f32⟩ : BufTy).Contents (Elt F)),
    StableHlo.unary main_v3 main_v38 (broadcastInDim S4000000x1 ![0] bcast_S4000000_S4000000x1_0 : (⟨S4000000, .i32⟩ : BufTy).Contents (Elt F) → (⟨S4000000x1, .i32⟩ : BufTy).Contents (Elt F)),
    StableHlo.ternary main_v37 main_v38 main_v36 main_v39 ((fun x i u => Host.scatterAdd scatter_S250000x16_S4000000x1_S4000000x16_1_0_0_1 x i u) : (⟨S250000x16, .f32⟩ : BufTy).Contents (Elt F) → (⟨S4000000x1, .i32⟩ : BufTy).Contents (Elt F) → (⟨S4000000x16, .f32⟩ : BufTy).Contents (Elt F) → (⟨S250000x16, .f32⟩ : BufTy).Contents (Elt F)),
    StableHlo.nullary main_cst_8 (constant S_ .f32 0x3F800000#32),
    StableHlo.unary main_cst_8 main_v40 (broadcastInDim S4000000 ![] bcast_S_S4000000 : (⟨S_, .f32⟩ : BufTy).Contents (Elt F) → (⟨S4000000, .f32⟩ : BufTy).Contents (Elt F)),
    StableHlo.nullary main_cst_9 (constant S_ .f32 0x00000000#32),
    StableHlo.unary main_cst_9 main_v41 (broadcastInDim S250000 ![] bcast_S_S250000 : (⟨S_, .f32⟩ : BufTy).Contents (Elt F) → (⟨S250000, .f32⟩ : BufTy).Contents (Elt F)),
    StableHlo.unary main_v3 main_v42 (broadcastInDim S4000000x1 ![0] bcast_S4000000_S4000000x1_0 : (⟨S4000000, .i32⟩ : BufTy).Contents (Elt F) → (⟨S4000000x1, .i32⟩ : BufTy).Contents (Elt F)),
    StableHlo.ternary main_v41 main_v42 main_v40 main_v43 ((fun x i u => Host.scatterAdd scatter_S250000_S4000000x1_S4000000_n_0_0_1 x i u) : (⟨S250000, .f32⟩ : BufTy).Contents (Elt F) → (⟨S4000000x1, .i32⟩ : BufTy).Contents (Elt F) → (⟨S4000000, .f32⟩ : BufTy).Contents (Elt F) → (⟨S250000, .f32⟩ : BufTy).Contents (Elt F)),
    StableHlo.nullary main_cst_10 (constant S_ .f32 0x3F800000#32),
    StableHlo.unary main_cst_10 main_v44 (broadcastInDim S250000 ![] bcast_S_S250000 : (⟨S_, .f32⟩ : BufTy).Contents (Elt F) → (⟨S250000, .f32⟩ : BufTy).Contents (Elt F)),
    StableHlo.binary main_v43 main_v44 main_v45 (maximumf : (⟨S250000, .f32⟩ : BufTy).Contents (Elt F) → (⟨S250000, .f32⟩ : BufTy).Contents (Elt F) → (⟨S250000, .f32⟩ : BufTy).Contents (Elt F)),
    StableHlo.unary main_v45 main_v46 (broadcastInDim S250000x1 ![0] bcast_S250000_S250000x1_0 : (⟨S250000, .f32⟩ : BufTy).Contents (Elt F) → (⟨S250000x1, .f32⟩ : BufTy).Contents (Elt F)),
    StableHlo.unary main_v46 main_v47 (broadcastInDim S250000x16 ![0, 1] bcast_S250000x1_S250000x16_0_1 : (⟨S250000x1, .f32⟩ : BufTy).Contents (Elt F) → (⟨S250000x16, .f32⟩ : BufTy).Contents (Elt F)),
    StableHlo.binary main_v39 main_v47 main_v48 (Host.divf : (⟨S250000x16, .f32⟩ : BufTy).Contents (Elt F) → (⟨S250000x16, .f32⟩ : BufTy).Contents (Elt F) → (⟨S250000x16, .f32⟩ : BufTy).Contents (Elt F)),
    StableHlo.binary main_v48 main_arg6 main_v49 ((fun l r => Host.dotGeneral dot_S250000x16_S16x8_S250000x8_1_0_0_1_n_n none l r) : (⟨S250000x16, .f32⟩ : BufTy).Contents (Elt F) → (⟨S16x8, .f32⟩ : BufTy).Contents (Elt F) → (⟨S250000x8, .f32⟩ : BufTy).Contents (Elt F)),
    StableHlo.unary main_arg7 main_v50 (broadcastInDim S1x8 ![1] bcast_S8_S1x8_1 : (⟨S8, .f32⟩ : BufTy).Contents (Elt F) → (⟨S1x8, .f32⟩ : BufTy).Contents (Elt F)),
    StableHlo.unary main_v50 main_v51 (broadcastInDim S250000x8 ![0, 1] bcast_S1x8_S250000x8_0_1 : (⟨S1x8, .f32⟩ : BufTy).Contents (Elt F) → (⟨S250000x8, .f32⟩ : BufTy).Contents (Elt F)),
    StableHlo.binary main_v49 main_v51 main_v52 (addf : (⟨S250000x8, .f32⟩ : BufTy).Contents (Elt F) → (⟨S250000x8, .f32⟩ : BufTy).Contents (Elt F) → (⟨S250000x8, .f32⟩ : BufTy).Contents (Elt F)),
    StableHlo.binary main_v29 main_arg8 main_v53 ((fun l r => Host.dotGeneral dot_S250000x16_S16x8_S250000x8_1_0_0_1_n_n none l r) : (⟨S250000x16, .f32⟩ : BufTy).Contents (Elt F) → (⟨S16x8, .f32⟩ : BufTy).Contents (Elt F) → (⟨S250000x8, .f32⟩ : BufTy).Contents (Elt F)),
    StableHlo.binary main_v52 main_v53 main_v54 (addf : (⟨S250000x8, .f32⟩ : BufTy).Contents (Elt F) → (⟨S250000x8, .f32⟩ : BufTy).Contents (Elt F) → (⟨S250000x8, .f32⟩ : BufTy).Contents (Elt F)),
    StableHlo.nullary main_cst_11 (constant S_ .f32 0x3C23D70A#32),
    StableHlo.TRef.nullary main_call1.cst (constant S_ .f32 0x00000000#32),
    StableHlo.TRef.unary main_call1.cst main_call1.v0 (broadcastInDim S250000x8 ![] bcast_S_S250000x8),
    StableHlo.TRef.binary (.of main_v54) main_call1.v0 main_call1.v1 (cmpf .oge),
    StableHlo.TRef.unary (.of main_cst_11) main_call1.v2 id,
    StableHlo.TRef.unary main_call1.v2 main_call1.v3 (broadcastInDim S250000x8 ![] bcast_S_S250000x8),
    StableHlo.TRef.binary main_call1.v3 (.of main_v54) main_call1.v4 mulf,
    StableHlo.TRef.ternary main_call1.v1 (.of main_v54) main_call1.v4 main_call1.call0.v0 select,
    StableHlo.nullary main_c_12 (constantI S_ 32 0#32),
    StableHlo.unary main_c_12 main_v56 (broadcastInDim S4000000 ![] bcast_S_S4000000 : (⟨S_, .i32⟩ : BufTy).Contents (Elt F) → (⟨S4000000, .i32⟩ : BufTy).Contents (Elt F)),
    StableHlo.binary main_v1 main_v56 main_v57 (cmpi .slt : (⟨S4000000, .i32⟩ : BufTy).Contents (Elt F) → (⟨S4000000, .i32⟩ : BufTy).Contents (Elt F) → (⟨S4000000, .i1⟩ : BufTy).Contents (Elt F)),
    StableHlo.nullary main_c_13 (constantI S_ 32 250000#32),
    StableHlo.unary main_c_13 main_v58 (broadcastInDim S4000000 ![] bcast_S_S4000000 : (⟨S_, .i32⟩ : BufTy).Contents (Elt F) → (⟨S4000000, .i32⟩ : BufTy).Contents (Elt F)),
    StableHlo.binary main_v1 main_v58 main_v59 (addi : (⟨S4000000, .i32⟩ : BufTy).Contents (Elt F) → (⟨S4000000, .i32⟩ : BufTy).Contents (Elt F) → (⟨S4000000, .i32⟩ : BufTy).Contents (Elt F)),
    StableHlo.ternary main_v57 main_v59 main_v1 main_v60 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v60 main_v61 (broadcastInDim S4000000x1 ![0] bcast_S4000000_S4000000x1_0 : (⟨S4000000, .i32⟩ : BufTy).Contents (Elt F) → (⟨S4000000x1, .i32⟩ : BufTy).Contents (Elt F)),
    StableHlo.binary main_v55 main_v61 main_v62 ((fun x i => Host.gather gather_S250000x8_S4000000x1_S4000000x8_1_0_n_n_0_1_18 x i) : (⟨S250000x8, .f32⟩ : BufTy).Contents (Elt F) → (⟨S4000000x1, .i32⟩ : BufTy).Contents (Elt F) → (⟨S4000000x8, .f32⟩ : BufTy).Contents (Elt F)),
    StableHlo.nullary main_cst_14 (constant S_ .f32 0x00000000#32),
    StableHlo.unary main_cst_14 main_v63 (broadcastInDim S250000x8 ![] bcast_S_S250000x8 : (⟨S_, .f32⟩ : BufTy).Contents (Elt F) → (⟨S250000x8, .f32⟩ : BufTy).Contents (Elt F)),
    StableHlo.unary main_v3 main_v64 (broadcastInDim S4000000x1 ![0] bcast_S4000000_S4000000x1_0 : (⟨S4000000, .i32⟩ : BufTy).Contents (Elt F) → (⟨S4000000x1, .i32⟩ : BufTy).Contents (Elt F)),
    StableHlo.ternary main_v63 main_v64 main_v62 main_v65 ((fun x i u => Host.scatterAdd scatter_S250000x8_S4000000x1_S4000000x8_1_0_0_1 x i u) : (⟨S250000x8, .f32⟩ : BufTy).Contents (Elt F) → (⟨S4000000x1, .i32⟩ : BufTy).Contents (Elt F) → (⟨S4000000x8, .f32⟩ : BufTy).Contents (Elt F) → (⟨S250000x8, .f32⟩ : BufTy).Contents (Elt F)),
    StableHlo.nullary main_cst_15 (constant S_ .f32 0x3F800000#32),
    StableHlo.unary main_cst_15 main_v66 (broadcastInDim S4000000 ![] bcast_S_S4000000 : (⟨S_, .f32⟩ : BufTy).Contents (Elt F) → (⟨S4000000, .f32⟩ : BufTy).Contents (Elt F)),
    StableHlo.nullary main_cst_16 (constant S_ .f32 0x00000000#32),
    StableHlo.unary main_cst_16 main_v67 (broadcastInDim S250000 ![] bcast_S_S250000 : (⟨S_, .f32⟩ : BufTy).Contents (Elt F) → (⟨S250000, .f32⟩ : BufTy).Contents (Elt F)),
    StableHlo.unary main_v3 main_v68 (broadcastInDim S4000000x1 ![0] bcast_S4000000_S4000000x1_0 : (⟨S4000000, .i32⟩ : BufTy).Contents (Elt F) → (⟨S4000000x1, .i32⟩ : BufTy).Contents (Elt F)),
    StableHlo.ternary main_v67 main_v68 main_v66 main_v69 ((fun x i u => Host.scatterAdd scatter_S250000_S4000000x1_S4000000_n_0_0_1 x i u) : (⟨S250000, .f32⟩ : BufTy).Contents (Elt F) → (⟨S4000000x1, .i32⟩ : BufTy).Contents (Elt F) → (⟨S4000000, .f32⟩ : BufTy).Contents (Elt F) → (⟨S250000, .f32⟩ : BufTy).Contents (Elt F)),
    StableHlo.nullary main_cst_17 (constant S_ .f32 0x3F800000#32),
    StableHlo.unary main_cst_17 main_v70 (broadcastInDim S250000 ![] bcast_S_S250000 : (⟨S_, .f32⟩ : BufTy).Contents (Elt F) → (⟨S250000, .f32⟩ : BufTy).Contents (Elt F)),
    StableHlo.binary main_v69 main_v70 main_v71 (maximumf : (⟨S250000, .f32⟩ : BufTy).Contents (Elt F) → (⟨S250000, .f32⟩ : BufTy).Contents (Elt F) → (⟨S250000, .f32⟩ : BufTy).Contents (Elt F)),
    StableHlo.unary main_v71 main_v72 (broadcastInDim S250000x1 ![0] bcast_S250000_S250000x1_0 : (⟨S250000, .f32⟩ : BufTy).Contents (Elt F) → (⟨S250000x1, .f32⟩ : BufTy).Contents (Elt F)),
    StableHlo.unary main_v72 main_v73 (broadcastInDim S250000x8 ![0, 1] bcast_S250000x1_S250000x8_0_1 : (⟨S250000x1, .f32⟩ : BufTy).Contents (Elt F) → (⟨S250000x8, .f32⟩ : BufTy).Contents (Elt F)),
    StableHlo.binary main_v65 main_v73 main_v74 (Host.divf : (⟨S250000x8, .f32⟩ : BufTy).Contents (Elt F) → (⟨S250000x8, .f32⟩ : BufTy).Contents (Elt F) → (⟨S250000x8, .f32⟩ : BufTy).Contents (Elt F)),
    StableHlo.binary main_v74 main_arg9 main_v75 ((fun l r => Host.dotGeneral dot_S250000x8_S8x4_S250000x4_1_0_0_1_n_n none l r) : (⟨S250000x8, .f32⟩ : BufTy).Contents (Elt F) → (⟨S8x4, .f32⟩ : BufTy).Contents (Elt F) → (⟨S250000x4, .f32⟩ : BufTy).Contents (Elt F)),
    StableHlo.unary main_arg10 main_v76 (broadcastInDim S1x4 ![1] bcast_S4_S1x4_1 : (⟨S4, .f32⟩ : BufTy).Contents (Elt F) → (⟨S1x4, .f32⟩ : BufTy).Contents (Elt F)),
    StableHlo.unary main_v76 main_v77 (broadcastInDim S250000x4 ![0, 1] bcast_S1x4_S250000x4_0_1 : (⟨S1x4, .f32⟩ : BufTy).Contents (Elt F) → (⟨S250000x4, .f32⟩ : BufTy).Contents (Elt F)),
    StableHlo.binary main_v75 main_v77 main_v78 (addf : (⟨S250000x4, .f32⟩ : BufTy).Contents (Elt F) → (⟨S250000x4, .f32⟩ : BufTy).Contents (Elt F) → (⟨S250000x4, .f32⟩ : BufTy).Contents (Elt F)),
    StableHlo.binary main_v55 main_arg11 main_v79 ((fun l r => Host.dotGeneral dot_S250000x8_S8x4_S250000x4_1_0_0_1_n_n none l r) : (⟨S250000x8, .f32⟩ : BufTy).Contents (Elt F) → (⟨S8x4, .f32⟩ : BufTy).Contents (Elt F) → (⟨S250000x4, .f32⟩ : BufTy).Contents (Elt F)),
    StableHlo.binary main_v78 main_v79 main_v80 (addf : (⟨S250000x4, .f32⟩ : BufTy).Contents (Elt F) → (⟨S250000x4, .f32⟩ : BufTy).Contents (Elt F) → (⟨S250000x4, .f32⟩ : BufTy).Contents (Elt F)),
    StableHlo.nullary main_cst_18 (constant S_ .f32 0x00000000#32),
    StableHlo.unary main_cst_18 main_v81 (broadcastInDim S512x4 ![] bcast_S_S512x4 : (⟨S_, .f32⟩ : BufTy).Contents (Elt F) → (⟨S512x4, .f32⟩ : BufTy).Contents (Elt F)),
    StableHlo.unary main_arg2 main_v82 (broadcastInDim S250000x1 ![0] bcast_S250000_S250000x1_0 : (⟨S250000, .i32⟩ : BufTy).Contents (Elt F) → (⟨S250000x1, .i32⟩ : BufTy).Contents (Elt F)),
    StableHlo.ternary main_v81 main_v82 main_v80 main_v83 ((fun x i u => Host.scatterAdd scatter_S512x4_S250000x1_S250000x4_1_0_0_1 x i u) : (⟨S512x4, .f32⟩ : BufTy).Contents (Elt F) → (⟨S250000x1, .i32⟩ : BufTy).Contents (Elt F) → (⟨S250000x4, .f32⟩ : BufTy).Contents (Elt F) → (⟨S512x4, .f32⟩ : BufTy).Contents (Elt F)),
    StableHlo.nullary main_cst_19 (constant S_ .f32 0x3F800000#32),
    StableHlo.unary main_cst_19 main_v84 (broadcastInDim S250000 ![] bcast_S_S250000 : (⟨S_, .f32⟩ : BufTy).Contents (Elt F) → (⟨S250000, .f32⟩ : BufTy).Contents (Elt F)),
    StableHlo.nullary main_cst_20 (constant S_ .f32 0x00000000#32),
    StableHlo.unary main_cst_20 main_v85 (broadcastInDim S512 ![] bcast_S_S512 : (⟨S_, .f32⟩ : BufTy).Contents (Elt F) → (⟨S512, .f32⟩ : BufTy).Contents (Elt F)),
    StableHlo.unary main_arg2 main_v86 (broadcastInDim S250000x1 ![0] bcast_S250000_S250000x1_0 : (⟨S250000, .i32⟩ : BufTy).Contents (Elt F) → (⟨S250000x1, .i32⟩ : BufTy).Contents (Elt F)),
    StableHlo.ternary main_v85 main_v86 main_v84 main_v87 ((fun x i u => Host.scatterAdd scatter_S512_S250000x1_S250000_n_0_0_1 x i u) : (⟨S512, .f32⟩ : BufTy).Contents (Elt F) → (⟨S250000x1, .i32⟩ : BufTy).Contents (Elt F) → (⟨S250000, .f32⟩ : BufTy).Contents (Elt F) → (⟨S512, .f32⟩ : BufTy).Contents (Elt F)),
    StableHlo.nullary main_cst_21 (constant S_ .f32 0x3F800000#32),
    StableHlo.unary main_cst_21 main_v88 (broadcastInDim S512 ![] bcast_S_S512 : (⟨S_, .f32⟩ : BufTy).Contents (Elt F) → (⟨S512, .f32⟩ : BufTy).Contents (Elt F)),
    StableHlo.binary main_v87 main_v88 main_v89 (maximumf : (⟨S512, .f32⟩ : BufTy).Contents (Elt F) → (⟨S512, .f32⟩ : BufTy).Contents (Elt F) → (⟨S512, .f32⟩ : BufTy).Contents (Elt F)),
    StableHlo.unary main_v89 main_v90 (broadcastInDim S512x1 ![0] bcast_S512_S512x1_0 : (⟨S512, .f32⟩ : BufTy).Contents (Elt F) → (⟨S512x1, .f32⟩ : BufTy).Contents (Elt F)),
    StableHlo.unary main_v90 main_v91 (broadcastInDim S512x4 ![0, 1] bcast_S512x1_S512x4_0_1 : (⟨S512x1, .f32⟩ : BufTy).Contents (Elt F) → (⟨S512x4, .f32⟩ : BufTy).Contents (Elt F)),
    StableHlo.binary main_v83 main_v91 main_v92 (Host.divf : (⟨S512x4, .f32⟩ : BufTy).Contents (Elt F) → (⟨S512x4, .f32⟩ : BufTy).Contents (Elt F) → (⟨S512x4, .f32⟩ : BufTy).Contents (Elt F)),
    StableHlo.binary main_v92 main_v83 main_v93 ((fun a b => concatenate S512x8 1 [⟨S512x4, a⟩, ⟨S512x4, b⟩] concatenates_S512x4_S512x4_S512x8_d1) : (⟨S512x4, .f32⟩ : BufTy).Contents (Elt F) → (⟨S512x4, .f32⟩ : BufTy).Contents (Elt F) → (⟨S512x8, .f32⟩ : BufTy).Contents (Elt F)),
    StableHlo.binary main_v93 main_arg12 main_v94 ((fun l r => Host.dotGeneral dot_S512x8_S8x1_S512x1_1_0_0_1_n_n none l r) : (⟨S512x8, .f32⟩ : BufTy).Contents (Elt F) → (⟨S8x1, .f32⟩ : BufTy).Contents (Elt F) → (⟨S512x1, .f32⟩ : BufTy).Contents (Elt F)),
    StableHlo.unary main_arg13 main_v95 (broadcastInDim S1x1 ![1] bcast_S1_S1x1_1 : (⟨S1, .f32⟩ : BufTy).Contents (Elt F) → (⟨S1x1, .f32⟩ : BufTy).Contents (Elt F)),
    StableHlo.unary main_v95 main_v96 (broadcastInDim S512x1 ![0, 1] bcast_S1x1_S512x1_0_1 : (⟨S1x1, .f32⟩ : BufTy).Contents (Elt F) → (⟨S512x1, .f32⟩ : BufTy).Contents (Elt F)),
    StableHlo.binary main_v94 main_v96 main_v97 (addf : (⟨S512x1, .f32⟩ : BufTy).Contents (Elt F) → (⟨S512x1, .f32⟩ : BufTy).Contents (Elt F) → (⟨S512x1, .f32⟩ : BufTy).Contents (Elt F)) ]

/-- Each touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., binary_bufs_sub .., unary_bufs_sub .., unary_bufs_sub .., binary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., binary_bufs_sub .., unary_bufs_sub ..,
    unary_bufs_sub .., binary_bufs_sub ..⟩

/-- The operations of the first layer (43). -/
abbrev layer1Ops : List (HloOp τ sig (Elt F)) :=
  [ StableHlo.unary main_arg1 main_v0 ((extractStridedSlice S1x4000000 ![0, 0] · slices_S2x4000000_S1x4000000_0_0) : (⟨S2x4000000, .i32⟩ : BufTy).Contents (Elt F) → (⟨S1x4000000, .i32⟩ : BufTy).Contents (Elt F)),
    StableHlo.reshape main_v0 main_v1 rfl shapeCasts_S1x4000000_S4000000,
    StableHlo.unary main_arg1 main_v2 ((extractStridedSlice S1x4000000 ![1, 0] · slices_S2x4000000_S1x4000000_1_0) : (⟨S2x4000000, .i32⟩ : BufTy).Contents (Elt F) → (⟨S1x4000000, .i32⟩ : BufTy).Contents (Elt F)),
    StableHlo.reshape main_v2 main_v3 rfl shapeCasts_S1x4000000_S4000000,
    StableHlo.nullary main_c (constantI S_ 32 0#32),
    StableHlo.unary main_c main_v4 (broadcastInDim S4000000 ![] bcast_S_S4000000 : (⟨S_, .i32⟩ : BufTy).Contents (Elt F) → (⟨S4000000, .i32⟩ : BufTy).Contents (Elt F)),
    StableHlo.binary main_v1 main_v4 main_v5 (cmpi .slt : (⟨S4000000, .i32⟩ : BufTy).Contents (Elt F) → (⟨S4000000, .i32⟩ : BufTy).Contents (Elt F) → (⟨S4000000, .i1⟩ : BufTy).Contents (Elt F)),
    StableHlo.nullary main_c_0 (constantI S_ 32 250000#32),
    StableHlo.unary main_c_0 main_v6 (broadcastInDim S4000000 ![] bcast_S_S4000000 : (⟨S_, .i32⟩ : BufTy).Contents (Elt F) → (⟨S4000000, .i32⟩ : BufTy).Contents (Elt F)),
    StableHlo.binary main_v1 main_v6 main_v7 (addi : (⟨S4000000, .i32⟩ : BufTy).Contents (Elt F) → (⟨S4000000, .i32⟩ : BufTy).Contents (Elt F) → (⟨S4000000, .i32⟩ : BufTy).Contents (Elt F)),
    StableHlo.ternary main_v5 main_v7 main_v1 main_v8 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v8 main_v9 (broadcastInDim S4000000x1 ![0] bcast_S4000000_S4000000x1_0 : (⟨S4000000, .i32⟩ : BufTy).Contents (Elt F) → (⟨S4000000x1, .i32⟩ : BufTy).Contents (Elt F)),
    StableHlo.binary main_arg0 main_v9 main_v10 ((fun x i => Host.gather gather_S250000x13_S4000000x1_S4000000x13_1_0_n_n_0_1_113 x i) : (⟨S250000x13, .f32⟩ : BufTy).Contents (Elt F) → (⟨S4000000x1, .i32⟩ : BufTy).Contents (Elt F) → (⟨S4000000x13, .f32⟩ : BufTy).Contents (Elt F)),
    StableHlo.nullary main_cst (constant S_ .f32 0x00000000#32),
    StableHlo.unary main_cst main_v11 (broadcastInDim S250000x13 ![] bcast_S_S250000x13 : (⟨S_, .f32⟩ : BufTy).Contents (Elt F) → (⟨S250000x13, .f32⟩ : BufTy).Contents (Elt F)),
    StableHlo.unary main_v3 main_v12 (broadcastInDim S4000000x1 ![0] bcast_S4000000_S4000000x1_0 : (⟨S4000000, .i32⟩ : BufTy).Contents (Elt F) → (⟨S4000000x1, .i32⟩ : BufTy).Contents (Elt F)),
    StableHlo.ternary main_v11 main_v12 main_v10 main_v13 ((fun x i u => Host.scatterAdd scatter_S250000x13_S4000000x1_S4000000x13_1_0_0_1 x i u) : (⟨S250000x13, .f32⟩ : BufTy).Contents (Elt F) → (⟨S4000000x1, .i32⟩ : BufTy).Contents (Elt F) → (⟨S4000000x13, .f32⟩ : BufTy).Contents (Elt F) → (⟨S250000x13, .f32⟩ : BufTy).Contents (Elt F)),
    StableHlo.nullary main_cst_1 (constant S_ .f32 0x3F800000#32),
    StableHlo.unary main_cst_1 main_v14 (broadcastInDim S4000000 ![] bcast_S_S4000000 : (⟨S_, .f32⟩ : BufTy).Contents (Elt F) → (⟨S4000000, .f32⟩ : BufTy).Contents (Elt F)),
    StableHlo.nullary main_cst_2 (constant S_ .f32 0x00000000#32),
    StableHlo.unary main_cst_2 main_v15 (broadcastInDim S250000 ![] bcast_S_S250000 : (⟨S_, .f32⟩ : BufTy).Contents (Elt F) → (⟨S250000, .f32⟩ : BufTy).Contents (Elt F)),
    StableHlo.unary main_v3 main_v16 (broadcastInDim S4000000x1 ![0] bcast_S4000000_S4000000x1_0 : (⟨S4000000, .i32⟩ : BufTy).Contents (Elt F) → (⟨S4000000x1, .i32⟩ : BufTy).Contents (Elt F)),
    StableHlo.ternary main_v15 main_v16 main_v14 main_v17 ((fun x i u => Host.scatterAdd scatter_S250000_S4000000x1_S4000000_n_0_0_1 x i u) : (⟨S250000, .f32⟩ : BufTy).Contents (Elt F) → (⟨S4000000x1, .i32⟩ : BufTy).Contents (Elt F) → (⟨S4000000, .f32⟩ : BufTy).Contents (Elt F) → (⟨S250000, .f32⟩ : BufTy).Contents (Elt F)),
    StableHlo.nullary main_cst_3 (constant S_ .f32 0x3F800000#32),
    StableHlo.unary main_cst_3 main_v18 (broadcastInDim S250000 ![] bcast_S_S250000 : (⟨S_, .f32⟩ : BufTy).Contents (Elt F) → (⟨S250000, .f32⟩ : BufTy).Contents (Elt F)),
    StableHlo.binary main_v17 main_v18 main_v19 (maximumf : (⟨S250000, .f32⟩ : BufTy).Contents (Elt F) → (⟨S250000, .f32⟩ : BufTy).Contents (Elt F) → (⟨S250000, .f32⟩ : BufTy).Contents (Elt F)),
    StableHlo.unary main_v19 main_v20 (broadcastInDim S250000x1 ![0] bcast_S250000_S250000x1_0 : (⟨S250000, .f32⟩ : BufTy).Contents (Elt F) → (⟨S250000x1, .f32⟩ : BufTy).Contents (Elt F)),
    StableHlo.unary main_v20 main_v21 (broadcastInDim S250000x13 ![0, 1] bcast_S250000x1_S250000x13_0_1 : (⟨S250000x1, .f32⟩ : BufTy).Contents (Elt F) → (⟨S250000x13, .f32⟩ : BufTy).Contents (Elt F)),
    StableHlo.binary main_v13 main_v21 main_v22 (Host.divf : (⟨S250000x13, .f32⟩ : BufTy).Contents (Elt F) → (⟨S250000x13, .f32⟩ : BufTy).Contents (Elt F) → (⟨S250000x13, .f32⟩ : BufTy).Contents (Elt F)),
    StableHlo.binary main_v22 main_arg3 main_v23 ((fun l r => Host.dotGeneral dot_S250000x13_S13x16_S250000x16_1_0_0_1_n_n none l r) : (⟨S250000x13, .f32⟩ : BufTy).Contents (Elt F) → (⟨S13x16, .f32⟩ : BufTy).Contents (Elt F) → (⟨S250000x16, .f32⟩ : BufTy).Contents (Elt F)),
    StableHlo.unary main_arg4 main_v24 (broadcastInDim S1x16 ![1] bcast_S16_S1x16_1 : (⟨S16, .f32⟩ : BufTy).Contents (Elt F) → (⟨S1x16, .f32⟩ : BufTy).Contents (Elt F)),
    StableHlo.unary main_v24 main_v25 (broadcastInDim S250000x16 ![0, 1] bcast_S1x16_S250000x16_0_1 : (⟨S1x16, .f32⟩ : BufTy).Contents (Elt F) → (⟨S250000x16, .f32⟩ : BufTy).Contents (Elt F)),
    StableHlo.binary main_v23 main_v25 main_v26 (addf : (⟨S250000x16, .f32⟩ : BufTy).Contents (Elt F) → (⟨S250000x16, .f32⟩ : BufTy).Contents (Elt F) → (⟨S250000x16, .f32⟩ : BufTy).Contents (Elt F)),
    StableHlo.binary main_arg0 main_arg5 main_v27 ((fun l r => Host.dotGeneral dot_S250000x13_S13x16_S250000x16_1_0_0_1_n_n none l r) : (⟨S250000x13, .f32⟩ : BufTy).Contents (Elt F) → (⟨S13x16, .f32⟩ : BufTy).Contents (Elt F) → (⟨S250000x16, .f32⟩ : BufTy).Contents (Elt F)),
    StableHlo.binary main_v26 main_v27 main_v28 (addf : (⟨S250000x16, .f32⟩ : BufTy).Contents (Elt F) → (⟨S250000x16, .f32⟩ : BufTy).Contents (Elt F) → (⟨S250000x16, .f32⟩ : BufTy).Contents (Elt F)),
    StableHlo.nullary main_cst_4 (constant S_ .f32 0x3C23D70A#32),
    StableHlo.TRef.nullary main_call0.cst (constant S_ .f32 0x00000000#32),
    StableHlo.TRef.unary main_call0.cst main_call0.v0 (broadcastInDim S250000x16 ![] bcast_S_S250000x16),
    StableHlo.TRef.binary (.of main_v28) main_call0.v0 main_call0.v1 (cmpf .oge),
    StableHlo.TRef.unary (.of main_cst_4) main_call0.v2 id,
    StableHlo.TRef.unary main_call0.v2 main_call0.v3 (broadcastInDim S250000x16 ![] bcast_S_S250000x16),
    StableHlo.TRef.binary main_call0.v3 (.of main_v28) main_call0.v4 mulf,
    StableHlo.TRef.ternary main_call0.v1 (.of main_v28) main_call0.v4 main_call0.call0.v0 select ]

/-- The operations of the second layer (39). -/
abbrev layer2Ops : List (HloOp τ sig (Elt F)) :=
  [ StableHlo.nullary main_c_5 (constantI S_ 32 0#32),
    StableHlo.unary main_c_5 main_v30 (broadcastInDim S4000000 ![] bcast_S_S4000000 : (⟨S_, .i32⟩ : BufTy).Contents (Elt F) → (⟨S4000000, .i32⟩ : BufTy).Contents (Elt F)),
    StableHlo.binary main_v1 main_v30 main_v31 (cmpi .slt : (⟨S4000000, .i32⟩ : BufTy).Contents (Elt F) → (⟨S4000000, .i32⟩ : BufTy).Contents (Elt F) → (⟨S4000000, .i1⟩ : BufTy).Contents (Elt F)),
    StableHlo.nullary main_c_6 (constantI S_ 32 250000#32),
    StableHlo.unary main_c_6 main_v32 (broadcastInDim S4000000 ![] bcast_S_S4000000 : (⟨S_, .i32⟩ : BufTy).Contents (Elt F) → (⟨S4000000, .i32⟩ : BufTy).Contents (Elt F)),
    StableHlo.binary main_v1 main_v32 main_v33 (addi : (⟨S4000000, .i32⟩ : BufTy).Contents (Elt F) → (⟨S4000000, .i32⟩ : BufTy).Contents (Elt F) → (⟨S4000000, .i32⟩ : BufTy).Contents (Elt F)),
    StableHlo.ternary main_v31 main_v33 main_v1 main_v34 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v34 main_v35 (broadcastInDim S4000000x1 ![0] bcast_S4000000_S4000000x1_0 : (⟨S4000000, .i32⟩ : BufTy).Contents (Elt F) → (⟨S4000000x1, .i32⟩ : BufTy).Contents (Elt F)),
    StableHlo.binary main_v29 main_v35 main_v36 ((fun x i => Host.gather gather_S250000x16_S4000000x1_S4000000x16_1_0_n_n_0_1_116 x i) : (⟨S250000x16, .f32⟩ : BufTy).Contents (Elt F) → (⟨S4000000x1, .i32⟩ : BufTy).Contents (Elt F) → (⟨S4000000x16, .f32⟩ : BufTy).Contents (Elt F)),
    StableHlo.nullary main_cst_7 (constant S_ .f32 0x00000000#32),
    StableHlo.unary main_cst_7 main_v37 (broadcastInDim S250000x16 ![] bcast_S_S250000x16 : (⟨S_, .f32⟩ : BufTy).Contents (Elt F) → (⟨S250000x16, .f32⟩ : BufTy).Contents (Elt F)),
    StableHlo.unary main_v3 main_v38 (broadcastInDim S4000000x1 ![0] bcast_S4000000_S4000000x1_0 : (⟨S4000000, .i32⟩ : BufTy).Contents (Elt F) → (⟨S4000000x1, .i32⟩ : BufTy).Contents (Elt F)),
    StableHlo.ternary main_v37 main_v38 main_v36 main_v39 ((fun x i u => Host.scatterAdd scatter_S250000x16_S4000000x1_S4000000x16_1_0_0_1 x i u) : (⟨S250000x16, .f32⟩ : BufTy).Contents (Elt F) → (⟨S4000000x1, .i32⟩ : BufTy).Contents (Elt F) → (⟨S4000000x16, .f32⟩ : BufTy).Contents (Elt F) → (⟨S250000x16, .f32⟩ : BufTy).Contents (Elt F)),
    StableHlo.nullary main_cst_8 (constant S_ .f32 0x3F800000#32),
    StableHlo.unary main_cst_8 main_v40 (broadcastInDim S4000000 ![] bcast_S_S4000000 : (⟨S_, .f32⟩ : BufTy).Contents (Elt F) → (⟨S4000000, .f32⟩ : BufTy).Contents (Elt F)),
    StableHlo.nullary main_cst_9 (constant S_ .f32 0x00000000#32),
    StableHlo.unary main_cst_9 main_v41 (broadcastInDim S250000 ![] bcast_S_S250000 : (⟨S_, .f32⟩ : BufTy).Contents (Elt F) → (⟨S250000, .f32⟩ : BufTy).Contents (Elt F)),
    StableHlo.unary main_v3 main_v42 (broadcastInDim S4000000x1 ![0] bcast_S4000000_S4000000x1_0 : (⟨S4000000, .i32⟩ : BufTy).Contents (Elt F) → (⟨S4000000x1, .i32⟩ : BufTy).Contents (Elt F)),
    StableHlo.ternary main_v41 main_v42 main_v40 main_v43 ((fun x i u => Host.scatterAdd scatter_S250000_S4000000x1_S4000000_n_0_0_1 x i u) : (⟨S250000, .f32⟩ : BufTy).Contents (Elt F) → (⟨S4000000x1, .i32⟩ : BufTy).Contents (Elt F) → (⟨S4000000, .f32⟩ : BufTy).Contents (Elt F) → (⟨S250000, .f32⟩ : BufTy).Contents (Elt F)),
    StableHlo.nullary main_cst_10 (constant S_ .f32 0x3F800000#32),
    StableHlo.unary main_cst_10 main_v44 (broadcastInDim S250000 ![] bcast_S_S250000 : (⟨S_, .f32⟩ : BufTy).Contents (Elt F) → (⟨S250000, .f32⟩ : BufTy).Contents (Elt F)),
    StableHlo.binary main_v43 main_v44 main_v45 (maximumf : (⟨S250000, .f32⟩ : BufTy).Contents (Elt F) → (⟨S250000, .f32⟩ : BufTy).Contents (Elt F) → (⟨S250000, .f32⟩ : BufTy).Contents (Elt F)),
    StableHlo.unary main_v45 main_v46 (broadcastInDim S250000x1 ![0] bcast_S250000_S250000x1_0 : (⟨S250000, .f32⟩ : BufTy).Contents (Elt F) → (⟨S250000x1, .f32⟩ : BufTy).Contents (Elt F)),
    StableHlo.unary main_v46 main_v47 (broadcastInDim S250000x16 ![0, 1] bcast_S250000x1_S250000x16_0_1 : (⟨S250000x1, .f32⟩ : BufTy).Contents (Elt F) → (⟨S250000x16, .f32⟩ : BufTy).Contents (Elt F)),
    StableHlo.binary main_v39 main_v47 main_v48 (Host.divf : (⟨S250000x16, .f32⟩ : BufTy).Contents (Elt F) → (⟨S250000x16, .f32⟩ : BufTy).Contents (Elt F) → (⟨S250000x16, .f32⟩ : BufTy).Contents (Elt F)),
    StableHlo.binary main_v48 main_arg6 main_v49 ((fun l r => Host.dotGeneral dot_S250000x16_S16x8_S250000x8_1_0_0_1_n_n none l r) : (⟨S250000x16, .f32⟩ : BufTy).Contents (Elt F) → (⟨S16x8, .f32⟩ : BufTy).Contents (Elt F) → (⟨S250000x8, .f32⟩ : BufTy).Contents (Elt F)),
    StableHlo.unary main_arg7 main_v50 (broadcastInDim S1x8 ![1] bcast_S8_S1x8_1 : (⟨S8, .f32⟩ : BufTy).Contents (Elt F) → (⟨S1x8, .f32⟩ : BufTy).Contents (Elt F)),
    StableHlo.unary main_v50 main_v51 (broadcastInDim S250000x8 ![0, 1] bcast_S1x8_S250000x8_0_1 : (⟨S1x8, .f32⟩ : BufTy).Contents (Elt F) → (⟨S250000x8, .f32⟩ : BufTy).Contents (Elt F)),
    StableHlo.binary main_v49 main_v51 main_v52 (addf : (⟨S250000x8, .f32⟩ : BufTy).Contents (Elt F) → (⟨S250000x8, .f32⟩ : BufTy).Contents (Elt F) → (⟨S250000x8, .f32⟩ : BufTy).Contents (Elt F)),
    StableHlo.binary main_v29 main_arg8 main_v53 ((fun l r => Host.dotGeneral dot_S250000x16_S16x8_S250000x8_1_0_0_1_n_n none l r) : (⟨S250000x16, .f32⟩ : BufTy).Contents (Elt F) → (⟨S16x8, .f32⟩ : BufTy).Contents (Elt F) → (⟨S250000x8, .f32⟩ : BufTy).Contents (Elt F)),
    StableHlo.binary main_v52 main_v53 main_v54 (addf : (⟨S250000x8, .f32⟩ : BufTy).Contents (Elt F) → (⟨S250000x8, .f32⟩ : BufTy).Contents (Elt F) → (⟨S250000x8, .f32⟩ : BufTy).Contents (Elt F)),
    StableHlo.nullary main_cst_11 (constant S_ .f32 0x3C23D70A#32),
    StableHlo.TRef.nullary main_call1.cst (constant S_ .f32 0x00000000#32),
    StableHlo.TRef.unary main_call1.cst main_call1.v0 (broadcastInDim S250000x8 ![] bcast_S_S250000x8),
    StableHlo.TRef.binary (.of main_v54) main_call1.v0 main_call1.v1 (cmpf .oge),
    StableHlo.TRef.unary (.of main_cst_11) main_call1.v2 id,
    StableHlo.TRef.unary main_call1.v2 main_call1.v3 (broadcastInDim S250000x8 ![] bcast_S_S250000x8),
    StableHlo.TRef.binary main_call1.v3 (.of main_v54) main_call1.v4 mulf,
    StableHlo.TRef.ternary main_call1.v1 (.of main_v54) main_call1.v4 main_call1.call0.v0 select ]

/-- The operations of the third layer (31). -/
abbrev layer3Ops : List (HloOp τ sig (Elt F)) :=
  [ StableHlo.nullary main_c_12 (constantI S_ 32 0#32),
    StableHlo.unary main_c_12 main_v56 (broadcastInDim S4000000 ![] bcast_S_S4000000 : (⟨S_, .i32⟩ : BufTy).Contents (Elt F) → (⟨S4000000, .i32⟩ : BufTy).Contents (Elt F)),
    StableHlo.binary main_v1 main_v56 main_v57 (cmpi .slt : (⟨S4000000, .i32⟩ : BufTy).Contents (Elt F) → (⟨S4000000, .i32⟩ : BufTy).Contents (Elt F) → (⟨S4000000, .i1⟩ : BufTy).Contents (Elt F)),
    StableHlo.nullary main_c_13 (constantI S_ 32 250000#32),
    StableHlo.unary main_c_13 main_v58 (broadcastInDim S4000000 ![] bcast_S_S4000000 : (⟨S_, .i32⟩ : BufTy).Contents (Elt F) → (⟨S4000000, .i32⟩ : BufTy).Contents (Elt F)),
    StableHlo.binary main_v1 main_v58 main_v59 (addi : (⟨S4000000, .i32⟩ : BufTy).Contents (Elt F) → (⟨S4000000, .i32⟩ : BufTy).Contents (Elt F) → (⟨S4000000, .i32⟩ : BufTy).Contents (Elt F)),
    StableHlo.ternary main_v57 main_v59 main_v1 main_v60 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v60 main_v61 (broadcastInDim S4000000x1 ![0] bcast_S4000000_S4000000x1_0 : (⟨S4000000, .i32⟩ : BufTy).Contents (Elt F) → (⟨S4000000x1, .i32⟩ : BufTy).Contents (Elt F)),
    StableHlo.binary main_v55 main_v61 main_v62 ((fun x i => Host.gather gather_S250000x8_S4000000x1_S4000000x8_1_0_n_n_0_1_18 x i) : (⟨S250000x8, .f32⟩ : BufTy).Contents (Elt F) → (⟨S4000000x1, .i32⟩ : BufTy).Contents (Elt F) → (⟨S4000000x8, .f32⟩ : BufTy).Contents (Elt F)),
    StableHlo.nullary main_cst_14 (constant S_ .f32 0x00000000#32),
    StableHlo.unary main_cst_14 main_v63 (broadcastInDim S250000x8 ![] bcast_S_S250000x8 : (⟨S_, .f32⟩ : BufTy).Contents (Elt F) → (⟨S250000x8, .f32⟩ : BufTy).Contents (Elt F)),
    StableHlo.unary main_v3 main_v64 (broadcastInDim S4000000x1 ![0] bcast_S4000000_S4000000x1_0 : (⟨S4000000, .i32⟩ : BufTy).Contents (Elt F) → (⟨S4000000x1, .i32⟩ : BufTy).Contents (Elt F)),
    StableHlo.ternary main_v63 main_v64 main_v62 main_v65 ((fun x i u => Host.scatterAdd scatter_S250000x8_S4000000x1_S4000000x8_1_0_0_1 x i u) : (⟨S250000x8, .f32⟩ : BufTy).Contents (Elt F) → (⟨S4000000x1, .i32⟩ : BufTy).Contents (Elt F) → (⟨S4000000x8, .f32⟩ : BufTy).Contents (Elt F) → (⟨S250000x8, .f32⟩ : BufTy).Contents (Elt F)),
    StableHlo.nullary main_cst_15 (constant S_ .f32 0x3F800000#32),
    StableHlo.unary main_cst_15 main_v66 (broadcastInDim S4000000 ![] bcast_S_S4000000 : (⟨S_, .f32⟩ : BufTy).Contents (Elt F) → (⟨S4000000, .f32⟩ : BufTy).Contents (Elt F)),
    StableHlo.nullary main_cst_16 (constant S_ .f32 0x00000000#32),
    StableHlo.unary main_cst_16 main_v67 (broadcastInDim S250000 ![] bcast_S_S250000 : (⟨S_, .f32⟩ : BufTy).Contents (Elt F) → (⟨S250000, .f32⟩ : BufTy).Contents (Elt F)),
    StableHlo.unary main_v3 main_v68 (broadcastInDim S4000000x1 ![0] bcast_S4000000_S4000000x1_0 : (⟨S4000000, .i32⟩ : BufTy).Contents (Elt F) → (⟨S4000000x1, .i32⟩ : BufTy).Contents (Elt F)),
    StableHlo.ternary main_v67 main_v68 main_v66 main_v69 ((fun x i u => Host.scatterAdd scatter_S250000_S4000000x1_S4000000_n_0_0_1 x i u) : (⟨S250000, .f32⟩ : BufTy).Contents (Elt F) → (⟨S4000000x1, .i32⟩ : BufTy).Contents (Elt F) → (⟨S4000000, .f32⟩ : BufTy).Contents (Elt F) → (⟨S250000, .f32⟩ : BufTy).Contents (Elt F)),
    StableHlo.nullary main_cst_17 (constant S_ .f32 0x3F800000#32),
    StableHlo.unary main_cst_17 main_v70 (broadcastInDim S250000 ![] bcast_S_S250000 : (⟨S_, .f32⟩ : BufTy).Contents (Elt F) → (⟨S250000, .f32⟩ : BufTy).Contents (Elt F)),
    StableHlo.binary main_v69 main_v70 main_v71 (maximumf : (⟨S250000, .f32⟩ : BufTy).Contents (Elt F) → (⟨S250000, .f32⟩ : BufTy).Contents (Elt F) → (⟨S250000, .f32⟩ : BufTy).Contents (Elt F)),
    StableHlo.unary main_v71 main_v72 (broadcastInDim S250000x1 ![0] bcast_S250000_S250000x1_0 : (⟨S250000, .f32⟩ : BufTy).Contents (Elt F) → (⟨S250000x1, .f32⟩ : BufTy).Contents (Elt F)),
    StableHlo.unary main_v72 main_v73 (broadcastInDim S250000x8 ![0, 1] bcast_S250000x1_S250000x8_0_1 : (⟨S250000x1, .f32⟩ : BufTy).Contents (Elt F) → (⟨S250000x8, .f32⟩ : BufTy).Contents (Elt F)),
    StableHlo.binary main_v65 main_v73 main_v74 (Host.divf : (⟨S250000x8, .f32⟩ : BufTy).Contents (Elt F) → (⟨S250000x8, .f32⟩ : BufTy).Contents (Elt F) → (⟨S250000x8, .f32⟩ : BufTy).Contents (Elt F)),
    StableHlo.binary main_v74 main_arg9 main_v75 ((fun l r => Host.dotGeneral dot_S250000x8_S8x4_S250000x4_1_0_0_1_n_n none l r) : (⟨S250000x8, .f32⟩ : BufTy).Contents (Elt F) → (⟨S8x4, .f32⟩ : BufTy).Contents (Elt F) → (⟨S250000x4, .f32⟩ : BufTy).Contents (Elt F)),
    StableHlo.unary main_arg10 main_v76 (broadcastInDim S1x4 ![1] bcast_S4_S1x4_1 : (⟨S4, .f32⟩ : BufTy).Contents (Elt F) → (⟨S1x4, .f32⟩ : BufTy).Contents (Elt F)),
    StableHlo.unary main_v76 main_v77 (broadcastInDim S250000x4 ![0, 1] bcast_S1x4_S250000x4_0_1 : (⟨S1x4, .f32⟩ : BufTy).Contents (Elt F) → (⟨S250000x4, .f32⟩ : BufTy).Contents (Elt F)),
    StableHlo.binary main_v75 main_v77 main_v78 (addf : (⟨S250000x4, .f32⟩ : BufTy).Contents (Elt F) → (⟨S250000x4, .f32⟩ : BufTy).Contents (Elt F) → (⟨S250000x4, .f32⟩ : BufTy).Contents (Elt F)),
    StableHlo.binary main_v55 main_arg11 main_v79 ((fun l r => Host.dotGeneral dot_S250000x8_S8x4_S250000x4_1_0_0_1_n_n none l r) : (⟨S250000x8, .f32⟩ : BufTy).Contents (Elt F) → (⟨S8x4, .f32⟩ : BufTy).Contents (Elt F) → (⟨S250000x4, .f32⟩ : BufTy).Contents (Elt F)),
    StableHlo.binary main_v78 main_v79 main_v80 (addf : (⟨S250000x4, .f32⟩ : BufTy).Contents (Elt F) → (⟨S250000x4, .f32⟩ : BufTy).Contents (Elt F) → (⟨S250000x4, .f32⟩ : BufTy).Contents (Elt F)) ]

/-- The operations of the read-out (21). -/
abbrev readoutOps : List (HloOp τ sig (Elt F)) :=
  [ StableHlo.nullary main_cst_18 (constant S_ .f32 0x00000000#32),
    StableHlo.unary main_cst_18 main_v81 (broadcastInDim S512x4 ![] bcast_S_S512x4 : (⟨S_, .f32⟩ : BufTy).Contents (Elt F) → (⟨S512x4, .f32⟩ : BufTy).Contents (Elt F)),
    StableHlo.unary main_arg2 main_v82 (broadcastInDim S250000x1 ![0] bcast_S250000_S250000x1_0 : (⟨S250000, .i32⟩ : BufTy).Contents (Elt F) → (⟨S250000x1, .i32⟩ : BufTy).Contents (Elt F)),
    StableHlo.ternary main_v81 main_v82 main_v80 main_v83 ((fun x i u => Host.scatterAdd scatter_S512x4_S250000x1_S250000x4_1_0_0_1 x i u) : (⟨S512x4, .f32⟩ : BufTy).Contents (Elt F) → (⟨S250000x1, .i32⟩ : BufTy).Contents (Elt F) → (⟨S250000x4, .f32⟩ : BufTy).Contents (Elt F) → (⟨S512x4, .f32⟩ : BufTy).Contents (Elt F)),
    StableHlo.nullary main_cst_19 (constant S_ .f32 0x3F800000#32),
    StableHlo.unary main_cst_19 main_v84 (broadcastInDim S250000 ![] bcast_S_S250000 : (⟨S_, .f32⟩ : BufTy).Contents (Elt F) → (⟨S250000, .f32⟩ : BufTy).Contents (Elt F)),
    StableHlo.nullary main_cst_20 (constant S_ .f32 0x00000000#32),
    StableHlo.unary main_cst_20 main_v85 (broadcastInDim S512 ![] bcast_S_S512 : (⟨S_, .f32⟩ : BufTy).Contents (Elt F) → (⟨S512, .f32⟩ : BufTy).Contents (Elt F)),
    StableHlo.unary main_arg2 main_v86 (broadcastInDim S250000x1 ![0] bcast_S250000_S250000x1_0 : (⟨S250000, .i32⟩ : BufTy).Contents (Elt F) → (⟨S250000x1, .i32⟩ : BufTy).Contents (Elt F)),
    StableHlo.ternary main_v85 main_v86 main_v84 main_v87 ((fun x i u => Host.scatterAdd scatter_S512_S250000x1_S250000_n_0_0_1 x i u) : (⟨S512, .f32⟩ : BufTy).Contents (Elt F) → (⟨S250000x1, .i32⟩ : BufTy).Contents (Elt F) → (⟨S250000, .f32⟩ : BufTy).Contents (Elt F) → (⟨S512, .f32⟩ : BufTy).Contents (Elt F)),
    StableHlo.nullary main_cst_21 (constant S_ .f32 0x3F800000#32),
    StableHlo.unary main_cst_21 main_v88 (broadcastInDim S512 ![] bcast_S_S512 : (⟨S_, .f32⟩ : BufTy).Contents (Elt F) → (⟨S512, .f32⟩ : BufTy).Contents (Elt F)),
    StableHlo.binary main_v87 main_v88 main_v89 (maximumf : (⟨S512, .f32⟩ : BufTy).Contents (Elt F) → (⟨S512, .f32⟩ : BufTy).Contents (Elt F) → (⟨S512, .f32⟩ : BufTy).Contents (Elt F)),
    StableHlo.unary main_v89 main_v90 (broadcastInDim S512x1 ![0] bcast_S512_S512x1_0 : (⟨S512, .f32⟩ : BufTy).Contents (Elt F) → (⟨S512x1, .f32⟩ : BufTy).Contents (Elt F)),
    StableHlo.unary main_v90 main_v91 (broadcastInDim S512x4 ![0, 1] bcast_S512x1_S512x4_0_1 : (⟨S512x1, .f32⟩ : BufTy).Contents (Elt F) → (⟨S512x4, .f32⟩ : BufTy).Contents (Elt F)),
    StableHlo.binary main_v83 main_v91 main_v92 (Host.divf : (⟨S512x4, .f32⟩ : BufTy).Contents (Elt F) → (⟨S512x4, .f32⟩ : BufTy).Contents (Elt F) → (⟨S512x4, .f32⟩ : BufTy).Contents (Elt F)),
    StableHlo.binary main_v92 main_v83 main_v93 ((fun a b => concatenate S512x8 1 [⟨S512x4, a⟩, ⟨S512x4, b⟩] concatenates_S512x4_S512x4_S512x8_d1) : (⟨S512x4, .f32⟩ : BufTy).Contents (Elt F) → (⟨S512x4, .f32⟩ : BufTy).Contents (Elt F) → (⟨S512x8, .f32⟩ : BufTy).Contents (Elt F)),
    StableHlo.binary main_v93 main_arg12 main_v94 ((fun l r => Host.dotGeneral dot_S512x8_S8x1_S512x1_1_0_0_1_n_n none l r) : (⟨S512x8, .f32⟩ : BufTy).Contents (Elt F) → (⟨S8x1, .f32⟩ : BufTy).Contents (Elt F) → (⟨S512x1, .f32⟩ : BufTy).Contents (Elt F)),
    StableHlo.unary main_arg13 main_v95 (broadcastInDim S1x1 ![1] bcast_S1_S1x1_1 : (⟨S1, .f32⟩ : BufTy).Contents (Elt F) → (⟨S1x1, .f32⟩ : BufTy).Contents (Elt F)),
    StableHlo.unary main_v95 main_v96 (broadcastInDim S512x1 ![0, 1] bcast_S1x1_S512x1_0_1 : (⟨S1x1, .f32⟩ : BufTy).Contents (Elt F) → (⟨S512x1, .f32⟩ : BufTy).Contents (Elt F)),
    StableHlo.binary main_v94 main_v96 main_v97 (addf : (⟨S512x1, .f32⟩ : BufTy).Contents (Elt F) → (⟨S512x1, .f32⟩ : BufTy).Contents (Elt F) → (⟨S512x1, .f32⟩ : BufTy).Contents (Elt F)) ]

/-- The line is its four stretches, one after the other. -/
theorem ops_split : (ops : List (HloOp τ sig (Elt F))) = layer1Ops ++ (layer2Ops ++ (layer3Ops ++ readoutOps)) := rfl

end Cert.ReferenceIdeal.Line

end
-- ==== Proof.RefRun.lean ====
/-
  The reference program's run: it IS the straight line of its host operations, so from any memory every weakly fair
  execution terminates without a fault and leaves each TensorCore buffer at the line's fold over the launch contents.

  The printed @main is three windows run one after the other, with two calls of the leaky ramp (which itself calls a
  selection): unfolding the windows and the called functions at their calls, and re-associating the sequencing, gives
  exactly the listed line.
-/
import proofs.«137498_j26774826123929_1_alg».proof.Proof.RefOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

-- some hundred and thirty binds re-associated: the rewrite under the chain recurses once per statement
set_option maxRecDepth 8192 in
set_option maxHeartbeats 4000000 in
/-- @main is that straight line. -/
theorem main_eq (c : Dev nD) : main (F := F) c = seq ops := by
  simp only [main, main_part0, main_part1, main_part2, fn_leaky_relu.body, fn_leaky_relu_0.body, fn_where.body, fn_where_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LibBroadcastRead.lean ====
/-
  The host's two-step broadcasts of a vector into a rectangle, read at one entry.

  `jnp` lays a vector along a rectangle in two steps: first it gives the vector a unit axis (a row `[1, m]` or a column
  `[n, 1]`), then it repeats that along the unit axis. Read at entry `(p, q)`, a row repeated down the rows holds the
  row's entry `q`, and a column repeated along the columns holds the column's entry `p`; the unit-axis step changes
  nothing but the index's shape. Stated for every size, so a program's printed broadcast is an instance.
-/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

/-- A vector as a one-row matrix: entry `(0, q)` is the vector's entry `q`. -/
theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

/-- A vector as a one-column matrix: entry `(p, 0)` is the vector's entry `p`. -/
theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

/-- A one-row matrix repeated down `n` rows: entry `(p, q)` is the row's entry `q`. -/
theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

/-- A one-column matrix repeated along `m` columns: entry `(p, q)` is the column's entry `p`. -/
theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.LayerLaws.lean ====
/-
  The laws that join the two programs' spellings, on the extended reals.

  The mean: for a count `c ≥ 1` the quotient `s / c` is `s · c⁻¹` and the reciprocal `1 / c` is `c⁻¹` (the divisor is
  not zero), so the sum times the reciprocal count is the sum over the count, entry by entry, with no condition on
  `s`. The dense layer: the host's two matrix products, its two-step broadcast of the bias and its selection between
  the value and the slope times the value are, read at `(p, j)`, the layer's defining expression.
-/
import proofs.«137498_j26774826123929_1_alg».proof.Proof.Spec
import proofs.«137498_j26774826123929_1_alg».proof.Proof.LibPlainProduct
import proofs.«137498_j26774826123929_1_alg».proof.Proof.LibBroadcastRead
import Idealize.ShloMosaic.PureOps.Ideal.Laws

noncomputable section

open scoped BigOperators

namespace Cert.Sage

open Cert.KernelIdeal Cert.KernelIdeal.Gen Idealize.ShloMosaic Idealize.ShloMosaic.ValueIdx

/-! ## The mean, either way -/

/-- The float word `0x3F800000` is the number one: sign clear, exponent field at the bias, fraction zero. -/
theorem ofBits_one_f32 : Ideal.ofBits .f32 0x3F800000#32 = 1 := by
  simp [Ideal.ofBits, Ideal.ieee, -EReal.coe_mul]; norm_num

/-- For a divisor `max c 1`, which is at least one and so not zero, `x` times the reciprocal is `x` over the
    divisor: both are `x · (max c 1)⁻¹`, whatever extended real `x` is. -/
theorem mul_recip_eq_div (x c : EReal) : x * Ideal.div 1 (max c 1) = Ideal.div x (max c 1) := by
  have h1 : (1 : EReal) ≤ max c 1 := le_max_right _ _
  have h0 : max c 1 ≠ 0 := fun h => absurd (h ▸ h1) (not_le.mpr zero_lt_one)
  unfold Ideal.div
  rw [if_neg h0, if_neg h0, one_mul]

/-- The two spellings of the mean agree for every size, every sum `s` and every count `cnt`: at entry `(p, q)`
    one reads `s (p, q) · (1 / max (cnt p) 1)` and the other `s (p, q) / max (cnt p) 1`. -/
theorem mean_recip_eq_div {n d : ℕ}
    (hall : (⟨0, ![]⟩ : Shape).BroadcastsInDim ⟨1, ![n]⟩ ![])
    (hcol : (⟨1, ![n]⟩ : Shape).BroadcastsInDim ⟨2, ![n, 1]⟩ ![0])
    (halong : (⟨2, ![n, 1]⟩ : Shape).BroadcastsInDim ⟨2, ![n, d]⟩ ![0, 1])
    (s : FVec Ideal ⟨2, ![n, d]⟩ .f32) (cnt : FVec Ideal ⟨1, ![n]⟩ .f32) :
    mulf s (broadcastInDim ⟨2, ![n, d]⟩ ![0, 1] halong (broadcastInDim ⟨2, ![n, 1]⟩ ![0] hcol
        (Host.divf (broadcastInDim ⟨1, ![n]⟩ ![] hall (constant (F := Ideal) ⟨0, ![]⟩ .f32 0x3F800000#32))
          (maximumf cnt (broadcastInDim ⟨1, ![n]⟩ ![] hall (constant (F := Ideal) ⟨0, ![]⟩ .f32 0x3F800000#32))))))
      = Host.divf s (broadcastInDim ⟨2, ![n, d]⟩ ![0, 1] halong (broadcastInDim ⟨2, ![n, 1]⟩ ![0] hcol
          (maximumf cnt (broadcastInDim ⟨1, ![n]⟩ ![] hall (constant (F := Ideal) ⟨0, ![]⟩ .f32 0x3F800000#32))))) := by
  funext i
  obtain ⟨p, q, rfl⟩ : ∃ (p : Fin n) (q : Fin d), i = ix2 p q := ⟨i 0, i 1, eq_ix2 i⟩
  have hone : ∀ j : (⟨1, ![n]⟩ : Shape).Idx,
      broadcastInDim ⟨1, ![n]⟩ ![] hall (constant (F := Ideal) ⟨0, ![]⟩ .f32 0x3F800000#32) j = 1 := fun j => by
    rw [broadcastInDim_apply _ hall _ j ix0 (fun a => a.elim0), constant_apply, ofBits_one_f32]
  show s (ix2 p q) * _ = Ideal.div (s (ix2 p q)) _
  rw [Cert.LibBroadcastRead.col_along_apply, Cert.LibBroadcastRead.vec_as_col_apply,
    Cert.LibBroadcastRead.col_along_apply, Cert.LibBroadcastRead.vec_as_col_apply]
  show s (ix2 p q) * Ideal.div _ (max (cnt (ix1 p)) _) = Ideal.div (s (ix2 p q)) (max (cnt (ix1 p)) _)
  rw [hone, mul_recip_eq_div]

theorem meanByRecip13_eq (h : Arr S250000x13) (e : Ids S2x4000000) : meanByRecip13 h e = meanByDiv13 h e := by
  unfold meanByRecip13 meanByDiv13 recipDegree degreeOrOne
  exact mean_recip_eq_div bcast_S_S250000 bcast_S250000_S250000x1_0 bcast_S250000x1_S250000x13_0_1 _ _
theorem meanByRecip16_eq (h : Arr S250000x16) (e : Ids S2x4000000) : meanByRecip16 h e = meanByDiv16 h e := by
  unfold meanByRecip16 meanByDiv16 recipDegree degreeOrOne
  exact mean_recip_eq_div bcast_S_S250000 bcast_S250000_S250000x1_0 bcast_S250000x1_S250000x16_0_1 _ _
theorem meanByRecip8_eq (h : Arr S250000x8) (e : Ids S2x4000000) : meanByRecip8 h e = meanByDiv8 h e := by
  unfold meanByRecip8 meanByDiv8 recipDegree degreeOrOne
  exact mean_recip_eq_div bcast_S_S250000 bcast_S250000_S250000x1_0 bcast_S250000x1_S250000x8_0_1 _ _

/-- The whole function does not depend on the spelling of the mean. -/
theorem outByRecip_eq_outByDiv (x : Arr S250000x13) (e : Ids S2x4000000) (g : Ids S250000)
    (w1l : Arr S13x16) (b1 : Arr S16) (w1r : Arr S13x16) (w2l : Arr S16x8) (b2 : Arr S8) (w2r : Arr S16x8)
    (w3l : Arr S8x4) (b3 : Arr S4) (w3r : Arr S8x4) (wc : Arr S8x1) (bc : Arr S1) :
    outByRecip x e g w1l b1 w1r w2l b2 w2r w3l b3 w3r wc bc = outByDiv x e g w1l b1 w1r w2l b2 w2r w3l b3 w3r wc bc := by
  unfold outByRecip outByDiv
  simp only [meanByRecip13_eq, meanByRecip16_eq, meanByRecip8_eq]

/-! ## The host's spelling of a dense layer -/

/-- The host's affine part read at `(p, j)`: each plain product is the sum over the contracted axis, and the bias laid
    as a row and repeated down the rows holds `b j`. -/
theorem hostAffine_apply {R K N : ℕ}
    (hrow : (⟨1, ![N]⟩ : Shape).BroadcastsInDim ⟨2, ![1, N]⟩ ![1])
    (hdown : (⟨2, ![1, N]⟩ : Shape).BroadcastsInDim ⟨2, ![R, N]⟩ ![0, 1])
    (a x : FVec Ideal ⟨2, ![R, K]⟩ .f32) (wl wr : FVec Ideal ⟨2, ![K, N]⟩ .f32) (b : FVec Ideal ⟨1, ![N]⟩ .f32)
    (p : Fin R) (j : Fin N) :
    addf (addf (Host.dotGeneral (DotDims.plain R K N) none a wl)
        (broadcastInDim ⟨2, ![R, N]⟩ ![0, 1] hdown (broadcastInDim ⟨2, ![1, N]⟩ ![1] hrow b)))
        (Host.dotGeneral (DotDims.plain R K N) none x wr) (ix2 p j)
      = (∑ k : Fin K, a (ix2 p k) * wl (ix2 k j)) + b (ix1 j) + ∑ k : Fin K, x (ix2 p k) * wr (ix2 k j) := by
  rw [addf_apply, addf_apply]
  simp only [Host.dotGeneral]
  rw [Cert.LibPlainProduct.dotGeneral_plain_apply, Cert.LibPlainProduct.dotGeneral_plain_apply,
    Cert.LibBroadcastRead.row_down_apply, Cert.LibBroadcastRead.vec_as_row_apply]

/-- A scalar repeated over a rectangle holds the scalar at every entry. -/
theorem scalar_all_apply {α : Type} {R N : ℕ} (hall : (⟨0, ![]⟩ : Shape).BroadcastsInDim ⟨2, ![R, N]⟩ ![])
    (v : (⟨0, ![]⟩ : Shape).Idx → α) (i : (⟨2, ![R, N]⟩ : Shape).Idx) :
    broadcastInDim ⟨2, ![R, N]⟩ ![] hall v i = v ix0 :=
  broadcastInDim_apply _ hall v i ix0 fun a => a.elim0

/-- With the leaky ramp: the host compares with a broadcast zero and selects between the value and a broadcast slope
    times the value. -/
theorem hostDenseLeak_eq {R K N : ℕ}
    (hrow : (⟨1, ![N]⟩ : Shape).BroadcastsInDim ⟨2, ![1, N]⟩ ![1])
    (hdown : (⟨2, ![1, N]⟩ : Shape).BroadcastsInDim ⟨2, ![R, N]⟩ ![0, 1])
    (hall : (⟨0, ![]⟩ : Shape).BroadcastsInDim ⟨2, ![R, N]⟩ ![])
    (a x : FVec Ideal ⟨2, ![R, K]⟩ .f32) (wl wr : FVec Ideal ⟨2, ![K, N]⟩ .f32) (b : FVec Ideal ⟨1, ![N]⟩ .f32) :
    select
        (cmpf .oge
          (addf (addf (Host.dotGeneral (DotDims.plain R K N) none a wl)
            (broadcastInDim ⟨2, ![R, N]⟩ ![0, 1] hdown (broadcastInDim ⟨2, ![1, N]⟩ ![1] hrow b)))
            (Host.dotGeneral (DotDims.plain R K N) none x wr))
          (broadcastInDim ⟨2, ![R, N]⟩ ![] hall (constant ⟨0, ![]⟩ .f32 0x00000000#32)))
        (addf (addf (Host.dotGeneral (DotDims.plain R K N) none a wl)
            (broadcastInDim ⟨2, ![R, N]⟩ ![0, 1] hdown (broadcastInDim ⟨2, ![1, N]⟩ ![1] hrow b)))
            (Host.dotGeneral (DotDims.plain R K N) none x wr))
        (mulf (broadcastInDim ⟨2, ![R, N]⟩ ![] hall (id (constant ⟨0, ![]⟩ .f32 0x3C23D70A#32)))
          (addf (addf (Host.dotGeneral (DotDims.plain R K N) none a wl)
            (broadcastInDim ⟨2, ![R, N]⟩ ![0, 1] hdown (broadcastInDim ⟨2, ![1, N]⟩ ![1] hrow b)))
            (Host.dotGeneral (DotDims.plain R K N) none x wr)))
      = dense R K N leak a x wl wr (fun j => b (ix1 j)) := by
  funext i
  obtain ⟨p, j, rfl⟩ : ∃ (p : Fin R) (j : Fin N), i = ix2 p j := ⟨i 0, i 1, eq_ix2 i⟩
  rw [select_apply, cmpf_apply, mulf_apply, hostAffine_apply, scalar_all_apply, scalar_all_apply]
  rfl

/-- Without an activation. -/
theorem hostDense_eq {R K N : ℕ}
    (hrow : (⟨1, ![N]⟩ : Shape).BroadcastsInDim ⟨2, ![1, N]⟩ ![1])
    (hdown : (⟨2, ![1, N]⟩ : Shape).BroadcastsInDim ⟨2, ![R, N]⟩ ![0, 1])
    (a x : FVec Ideal ⟨2, ![R, K]⟩ .f32) (wl wr : FVec Ideal ⟨2, ![K, N]⟩ .f32) (b : FVec Ideal ⟨1, ![N]⟩ .f32) :
    addf (addf (Host.dotGeneral (DotDims.plain R K N) none a wl)
        (broadcastInDim ⟨2, ![R, N]⟩ ![0, 1] hdown (broadcastInDim ⟨2, ![1, N]⟩ ![1] hrow b)))
        (Host.dotGeneral (DotDims.plain R K N) none x wr)
      = dense R K N id a x wl wr (fun j => b (ix1 j)) := by
  funext i
  obtain ⟨p, j, rfl⟩ : ∃ (p : Fin R) (j : Fin N), i = ix2 p j := ⟨i 0, i 1, eq_ix2 i⟩
  rw [hostAffine_apply]
  rfl

end Cert.Sage

end
-- ==== Proof.RefValue.lean ====
/-
  The reference program's result as the function of its arguments.

  The line's fold at the result buffer, read stretch by stretch: each layer's stretch gathers, sums and divides by
  the count, applies the two matrix products, the bias and (on the first two layers) the leaky ramp; the last stretch
  is the read-out. A stretch is read from ANY contents it starts at: what it leaves at its result is the layer's
  defining expression of what it finds at the previous layer's result, at the two rows of the edge list and at its
  own weights, and it leaves every buffer it does not write as it found it. Chaining the four readings, with the
  arguments carried unchanged across the earlier stretches, gives the whole function.
-/
import proofs.«137498_j26774826123929_1_alg».proof.Proof.RefRun
import proofs.«137498_j26774826123929_1_alg».proof.Proof.Spec
import proofs.«137498_j26774826123929_1_alg».proof.Proof.LayerLaws

noncomputable section

open scoped BigOperators

namespace Cert.ReferenceIdeal.Line

open Cert.ReferenceIdeal Cert.ReferenceIdeal.Gen Idealize.ShloMosaic Idealize.ShloMosaic.ValueIdx Idealize.ShloMosaic.TcCoe Idealize.SL.Sem Idealize.ShloMosaic.StableHlo

/-! ## Folding over a concatenation -/

/-- The fold over two lines one after the other is the second line's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## What each stretch leaves alone -/

/-- A one-reference set lies in the image of a list that holds the reference. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The references the first layer's stretch writes, in order. -/
def written1 : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_cst_4, main_call0.cst.ref, main_call0.v0.ref, main_call0.v1.ref, main_call0.v2.ref, main_call0.v3.ref, main_call0.v4.ref, main_call0.call0.v0.ref]

theorem written1_sub :
    (layer1Ops (F := Ideal)).Forall fun op => op.writes ⊆ (written1.map (Proc.devRef (τ := τ) .tc)).toFinset := by
  simp only [List.Forall]
  repeat' apply And.intro
  all_goals exact single_sub_of_mem (by decide)

/-- A reference outside that list keeps its contents over the first layer's stretch. -/
theorem written1_keeps (W : Valuation τ sig (Elt Ideal)) {r : Ref sig .tc} (hr : r ∉ written1) :
    after layer1Ops W (Proc.devRef .tc r) = W (Proc.devRef .tc r) :=
  after_of_writes_sub layer1Ops W written1_sub hr

/-- The references the second layer's stretch writes, in order. -/
def written2 : List (Ref sig .tc) :=
  [main_c_5, main_v30, main_v31, main_c_6, main_v32, main_v33, main_v34, main_v35, main_v36, main_cst_7, main_v37, main_v38, main_v39, main_cst_8, main_v40, main_cst_9, main_v41, main_v42, main_v43, main_cst_10, main_v44, main_v45, main_v46, main_v47, main_v48, main_v49, main_v50, main_v51, main_v52, main_v53, main_v54, main_cst_11, main_call1.cst.ref, main_call1.v0.ref, main_call1.v1.ref, main_call1.v2.ref, main_call1.v3.ref, main_call1.v4.ref, main_call1.call0.v0.ref]

theorem written2_sub :
    (layer2Ops (F := Ideal)).Forall fun op => op.writes ⊆ (written2.map (Proc.devRef (τ := τ) .tc)).toFinset := by
  simp only [List.Forall]
  repeat' apply And.intro
  all_goals exact single_sub_of_mem (by decide)

/-- A reference outside that list keeps its contents over the second layer's stretch. -/
theorem written2_keeps (W : Valuation τ sig (Elt Ideal)) {r : Ref sig .tc} (hr : r ∉ written2) :
    after layer2Ops W (Proc.devRef .tc r) = W (Proc.devRef .tc r) :=
  after_of_writes_sub layer2Ops W written2_sub hr

/-- The references the third layer's stretch writes, in order. -/
def written3 : List (Ref sig .tc) :=
  [main_c_12, main_v56, main_v57, main_c_13, main_v58, main_v59, main_v60, main_v61, main_v62, main_cst_14, main_v63, main_v64, main_v65, main_cst_15, main_v66, main_cst_16, main_v67, main_v68, main_v69, main_cst_17, main_v70, main_v71, main_v72, main_v73, main_v74, main_v75, main_v76, main_v77, main_v78, main_v79, main_v80]

theorem written3_sub :
    (layer3Ops (F := Ideal)).Forall fun op => op.writes ⊆ (written3.map (Proc.devRef (τ := τ) .tc)).toFinset := by
  simp only [List.Forall]
  repeat' apply And.intro
  all_goals exact single_sub_of_mem (by decide)

/-- A reference outside that list keeps its contents over the third layer's stretch. -/
theorem written3_keeps (W : Valuation τ sig (Elt Ideal)) {r : Ref sig .tc} (hr : r ∉ written3) :
    after layer3Ops W (Proc.devRef .tc r) = W (Proc.devRef .tc r) :=
  after_of_writes_sub layer3Ops W written3_sub hr

/-! ## Values through a typed reference

A called function's operations move each value to its buffer's own type and back; at a literal reference both moves
are the identity. -/

/-- Moving a value to a typed reference's buffer type and back gives the value. -/
theorem ofBuf_toBuf {Val : EltTy → Type} {T : BufTy} (x : TRef sig T) (v : T.Contents Val) : x.ofBuf (x.toBuf v) = v := by
  obtain ⟨r, h, hd, hu⟩ := x
  subst h
  rfl

theorem read_v28 (v : (main_v28 : Ref sig .tc).ty.Contents (Elt Ideal)) :
    (TRef.of main_v28 : TRef sig ⟨S250000x16, .f32⟩).ofBuf v = (v : FVec Ideal S250000x16 .f32) := rfl
theorem read_cst_4 (v : (main_cst_4 : Ref sig .tc).ty.Contents (Elt Ideal)) :
    (TRef.of main_cst_4 : TRef sig ⟨S_, .f32⟩).ofBuf v = (v : FVec Ideal S_ .f32) := rfl
theorem write_v29 (v : FVec Ideal S250000x16 .f32) :
    (TRef.of main_v29 : TRef sig ⟨S250000x16, .f32⟩).toBuf (Val := Elt Ideal) v
      = (v : (main_v29 : Ref sig .tc).ty.Contents (Elt Ideal)) := rfl
theorem read_v54 (v : (main_v54 : Ref sig .tc).ty.Contents (Elt Ideal)) :
    (TRef.of main_v54 : TRef sig ⟨S250000x8, .f32⟩).ofBuf v = (v : FVec Ideal S250000x8 .f32) := rfl
theorem read_cst_11 (v : (main_cst_11 : Ref sig .tc).ty.Contents (Elt Ideal)) :
    (TRef.of main_cst_11 : TRef sig ⟨S_, .f32⟩).ofBuf v = (v : FVec Ideal S_ .f32) := rfl
theorem write_v55 (v : FVec Ideal S250000x8 .f32) :
    (TRef.of main_v55 : TRef sig ⟨S250000x8, .f32⟩).toBuf (Val := Elt Ideal) v
      = (v : (main_v55 : Ref sig .tc).ty.Contents (Elt Ideal)) := rfl

/-! ## The first layer -/

/-- Row 0 of the edge list, as the first stretch leaves it. -/
theorem layer1_start (W : Valuation τ sig (Elt Ideal)) :
    after layer1Ops W (main_v1 : DevRef τ sig) = Cert.Sage.edgeStart (W (main_arg1 : DevRef τ sig)) := by
  after_results_simp
  rfl

/-- Row 1 of the edge list, as the first stretch leaves it. -/
theorem layer1_end (W : Valuation τ sig (Elt Ideal)) :
    after layer1Ops W (main_v3 : DevRef τ sig) = Cert.Sage.edgeEnd (W (main_arg1 : DevRef τ sig)) := by
  after_results_simp
  rfl

attribute [local irreducible] Host.scatterAdd Host.gather Host.divf in
/-- The first layer's result: the dense layer with the leaky ramp, of the mean of the input features and of the
    features themselves. -/
theorem layer1_value (W : Valuation τ sig (Elt Ideal)) :
    (after layer1Ops W (main_v29 : DevRef τ sig) : Cert.Sage.Arr Cert.KernelIdeal.S250000x16)
      = Cert.Sage.dense 250000 13 16 Cert.Sage.leak (Cert.Sage.meanByDiv13 (W (main_arg0 : DevRef τ sig)) (W (main_arg1 : DevRef τ sig)))
          (W (main_arg0 : DevRef τ sig)) (W (main_arg3 : DevRef τ sig)) (W (main_arg5 : DevRef τ sig))
          (fun j => ((W (main_arg4 : DevRef τ sig)) : Cert.Sage.Arr Cert.KernelIdeal.S16) (ix1 j)) := by
  have key := Cert.Sage.hostDenseLeak_eq (R := 250000) (K := 13) (N := 16) bcast_S16_S1x16_1 bcast_S1x16_S250000x16_0_1
    bcast_S_S250000x16 (Cert.Sage.meanByDiv13 (W (main_arg0 : DevRef τ sig)) (W (main_arg1 : DevRef τ sig))) (W (main_arg0 : DevRef τ sig)) (W (main_arg3 : DevRef τ sig)) (W (main_arg5 : DevRef τ sig)) (W (main_arg4 : DevRef τ sig))
  after_results_simp
  refine Eq.trans ?_ key
  rw [read_v28]
  simp only [ofBuf_toBuf, read_cst_4, write_v29]
  rfl

/-! ## The second layer -/

attribute [local irreducible] Host.scatterAdd Host.gather Host.divf in
/-- The second layer's result, from contents that hold the two rows of the edge list `e` where the first stretch
    left them. -/
theorem layer2_value (W : Valuation τ sig (Elt Ideal)) (e : Cert.Sage.Ids Cert.KernelIdeal.S2x4000000)
    (hs : W (main_v1 : DevRef τ sig) = Cert.Sage.edgeStart e) (ht : W (main_v3 : DevRef τ sig) = Cert.Sage.edgeEnd e) :
    (after layer2Ops W (main_v55 : DevRef τ sig) : Cert.Sage.Arr Cert.KernelIdeal.S250000x8)
      = Cert.Sage.dense 250000 16 8 Cert.Sage.leak (Cert.Sage.meanByDiv16 (W (main_v29 : DevRef τ sig)) e)
          (W (main_v29 : DevRef τ sig)) (W (main_arg6 : DevRef τ sig)) (W (main_arg8 : DevRef τ sig))
          (fun j => ((W (main_arg7 : DevRef τ sig)) : Cert.Sage.Arr Cert.KernelIdeal.S8) (ix1 j)) := by
  have key := Cert.Sage.hostDenseLeak_eq (R := 250000) (K := 16) (N := 8) bcast_S8_S1x8_1 bcast_S1x8_S250000x8_0_1
    bcast_S_S250000x8 (Cert.Sage.meanByDiv16 (W (main_v29 : DevRef τ sig)) e) (W (main_v29 : DevRef τ sig))
    (W (main_arg6 : DevRef τ sig)) (W (main_arg8 : DevRef τ sig)) (W (main_arg7 : DevRef τ sig))
  after_results_simp
  refine Eq.trans ?_ key
  rw [read_v54, hs, ht]
  simp only [ofBuf_toBuf, read_cst_11, write_v55]
  rfl

/-! ## The third layer -/

attribute [local irreducible] Host.scatterAdd Host.gather Host.divf in
/-- The third layer's result (no activation), from contents that hold the two rows of the edge list `e`. -/
theorem layer3_value (W : Valuation τ sig (Elt Ideal)) (e : Cert.Sage.Ids Cert.KernelIdeal.S2x4000000)
    (hs : W (main_v1 : DevRef τ sig) = Cert.Sage.edgeStart e) (ht : W (main_v3 : DevRef τ sig) = Cert.Sage.edgeEnd e) :
    (after layer3Ops W (main_v80 : DevRef τ sig) : Cert.Sage.Arr Cert.KernelIdeal.S250000x4)
      = Cert.Sage.dense 250000 8 4 id (Cert.Sage.meanByDiv8 (W (main_v55 : DevRef τ sig)) e)
          (W (main_v55 : DevRef τ sig)) (W (main_arg9 : DevRef τ sig)) (W (main_arg11 : DevRef τ sig))
          (fun j => ((W (main_arg10 : DevRef τ sig)) : Cert.Sage.Arr Cert.KernelIdeal.S4) (ix1 j)) := by
  have key := Cert.Sage.hostDense_eq (R := 250000) (K := 8) (N := 4) bcast_S4_S1x4_1 bcast_S1x4_S250000x4_0_1
    (Cert.Sage.meanByDiv8 (W (main_v55 : DevRef τ sig)) e) (W (main_v55 : DevRef τ sig)) (W (main_arg9 : DevRef τ sig)) (W (main_arg11 : DevRef τ sig)) (W (main_arg10 : DevRef τ sig))
  after_results_simp
  refine Eq.trans ?_ key
  rw [hs, ht]
  rfl

/-! ## The read-out -/

attribute [local irreducible] Host.scatterAdd Host.gather Host.divf concatenate in
/-- The last stretch is the read-out of the third layer's result. -/
theorem readout_value (W : Valuation τ sig (Elt Ideal)) :
    (after readoutOps W (main_v97 : DevRef τ sig) : Cert.Sage.Arr Cert.KernelIdeal.S512x1)
      = Cert.Sage.readout (W (main_v80 : DevRef τ sig)) (W (main_arg2 : DevRef τ sig)) (W (main_arg12 : DevRef τ sig)) (W (main_arg13 : DevRef τ sig)) := by
  after_results
  rfl

/-! ## The whole line -/

/-- A reference none of the three layers writes holds after them what it held before. -/
theorem layers_keep (V : Valuation τ sig (Elt Ideal)) {r : Ref sig .tc} (h1 : r ∉ written1) (h2 : r ∉ written2)
    (h3 : r ∉ written3) :
    after layer3Ops (after layer2Ops (after layer1Ops V)) (Proc.devRef .tc r) = V (Proc.devRef .tc r) :=
  (written3_keeps _ h3).trans ((written2_keeps _ h2).trans (written1_keeps _ h1))

/-- The fold at the result buffer: the whole function, with the mean as sum over count, of the contents the line
    starts from. -/
theorem result_value (V : Valuation τ sig (Elt Ideal)) :
    (after ops V (main_v97 : DevRef τ sig) : Cert.Sage.Arr Cert.KernelIdeal.S512x1)
      = Cert.Sage.outByDiv (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  have hs1 := layer1_start V
  have ht1 := layer1_end V
  have hs2 : after layer2Ops (after layer1Ops V) (main_v1 : DevRef τ sig) = Cert.Sage.edgeStart (V (main_arg1 : DevRef τ sig)) :=
    (written2_keeps (r := main_v1) _ (by decide)).trans hs1
  have ht2 : after layer2Ops (after layer1Ops V) (main_v3 : DevRef τ sig) = Cert.Sage.edgeEnd (V (main_arg1 : DevRef τ sig)) :=
    (written2_keeps (r := main_v3) _ (by decide)).trans ht1
  rw [ops_split, after_append, after_append, after_append, readout_value,
    layer3_value _ _ hs2 ht2, layer2_value _ _ hs1 ht1, layer1_value,
    layers_keep V (r := main_arg2) (by decide) (by decide) (by decide),
    layers_keep V (r := main_arg12) (by decide) (by decide) (by decide),
    layers_keep V (r := main_arg13) (by decide) (by decide) (by decide),
    written2_keeps (r := main_arg9) _ (by decide), written1_keeps (r := main_arg9) _ (by decide),
    written2_keeps (r := main_arg10) _ (by decide), written1_keeps (r := main_arg10) _ (by decide),
    written2_keeps (r := main_arg11) _ (by decide), written1_keeps (r := main_arg11) _ (by decide),
    written1_keeps (r := main_arg6) _ (by decide), written1_keeps (r := main_arg7) _ (by decide),
    written1_keeps (r := main_arg8) _ (by decide)]
  rfl

end Cert.ReferenceIdeal.Line

end
-- ==== Proof.RefKeeps.lean ====
/-
  The reference program writes none of its arguments: each of the line's operations writes its own result buffer, and no
  argument buffer is a result buffer, so the fold over the line leaves every argument at the contents it started from.
-/
import proofs.«137498_j26774826123929_1_alg».proof.Proof.RefRun

noncomputable section

open scoped BigOperators

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Every operation of the line writes exactly one buffer, and that buffer's number is 14 or more: the fourteen
    arguments are the buffers numbered 0 to 13, and each operation's result has a buffer of its own after them. -/
theorem writes_after_args : (ops : List (HloOp τ sig (Elt F))).Forall fun op =>
    ∃ y : Ref sig .tc, op.writes = {Proc.devRef (τ := τ) .tc y} ∧ 14 ≤ y.idx.val := by
  repeat' apply And.intro
  all_goals exact ⟨_, rfl, by decide⟩

/-- So a buffer numbered below 14 is written by no operation, and the fold over the line leaves it as it was. -/
theorem keeps_low {r : Ref sig .tc} (hr : r.idx.val < 14) (V : Valuation τ sig (Elt F)) :
    after ops V (Proc.devRef .tc r) = V (Proc.devRef .tc r) :=
  after_of_forall_not_mem ops V fun op hop hb => by
    obtain ⟨y, hw, hy⟩ := List.forall_iff_forall_mem.mp writes_after_args op hop
    rw [hw, Finset.mem_singleton] at hb
    obtain rfl := Proc.devRef_injective _ hb
    omega

theorem keeps_arg0 (V : Valuation τ sig (Elt F)) : after ops V (main_arg0 : DevRef τ sig) = V (main_arg0 : DevRef τ sig) := keeps_low (by decide) V
theorem keeps_arg1 (V : Valuation τ sig (Elt F)) : after ops V (main_arg1 : DevRef τ sig) = V (main_arg1 : DevRef τ sig) := keeps_low (by decide) V
theorem keeps_arg2 (V : Valuation τ sig (Elt F)) : after ops V (main_arg2 : DevRef τ sig) = V (main_arg2 : DevRef τ sig) := keeps_low (by decide) V
theorem keeps_arg3 (V : Valuation τ sig (Elt F)) : after ops V (main_arg3 : DevRef τ sig) = V (main_arg3 : DevRef τ sig) := keeps_low (by decide) V
theorem keeps_arg4 (V : Valuation τ sig (Elt F)) : after ops V (main_arg4 : DevRef τ sig) = V (main_arg4 : DevRef τ sig) := keeps_low (by decide) V
theorem keeps_arg5 (V : Valuation τ sig (Elt F)) : after ops V (main_arg5 : DevRef τ sig) = V (main_arg5 : DevRef τ sig) := keeps_low (by decide) V
theorem keeps_arg6 (V : Valuation τ sig (Elt F)) : after ops V (main_arg6 : DevRef τ sig) = V (main_arg6 : DevRef τ sig) := keeps_low (by decide) V
theorem keeps_arg7 (V : Valuation τ sig (Elt F)) : after ops V (main_arg7 : DevRef τ sig) = V (main_arg7 : DevRef τ sig) := keeps_low (by decide) V
theorem keeps_arg8 (V : Valuation τ sig (Elt F)) : after ops V (main_arg8 : DevRef τ sig) = V (main_arg8 : DevRef τ sig) := keeps_low (by decide) V
theorem keeps_arg9 (V : Valuation τ sig (Elt F)) : after ops V (main_arg9 : DevRef τ sig) = V (main_arg9 : DevRef τ sig) := keeps_low (by decide) V
theorem keeps_arg10 (V : Valuation τ sig (Elt F)) : after ops V (main_arg10 : DevRef τ sig) = V (main_arg10 : DevRef τ sig) := keeps_low (by decide) V
theorem keeps_arg11 (V : Valuation τ sig (Elt F)) : after ops V (main_arg11 : DevRef τ sig) = V (main_arg11 : DevRef τ sig) := keeps_low (by decide) V
theorem keeps_arg12 (V : Valuation τ sig (Elt F)) : after ops V (main_arg12 : DevRef τ sig) = V (main_arg12 : DevRef τ sig) := keeps_low (by decide) V
theorem keeps_arg13 (V : Valuation τ sig (Elt F)) : after ops V (main_arg13 : DevRef τ sig) = V (main_arg13 : DevRef τ sig) := keeps_low (by decide) V

end Cert.ReferenceIdeal.Line

end
-- ==== Proof.lean ====
/-
  The certificate: the kernel program (as printed and idealized) and the idealized reference both run, keep their
  arguments, and at the exact instance end with the same result.

  Both idealized programs compute three rounds of neighbourhood averaging on a graph, each followed by a dense
  layer, then a pooled read-out. The kernel program computes each dense layer in a kernel region over 25 row blocks
  and takes the neighbourhood mean as the sum times a reciprocal count; the reference computes whole-array matrix
  products and divides by the count. A blocked product is the whole product read block by block, and since the count
  is at least one the product with its reciprocal is the quotient, on every extended real. The precondition (finite
  inputs) is not used.
-/
import proofs.«137498_j26774826123929_1_alg».proof.Defs
import proofs.«137498_j26774826123929_1_alg».proof.Proof.Gen.Kernel.Frame
import proofs.«137498_j26774826123929_1_alg».proof.Proof.Gen.KernelIdeal.Frame
import proofs.«137498_j26774826123929_1_alg».proof.Proof.Gen.ReferenceIdeal
import proofs.«137498_j26774826123929_1_alg».proof.Proof.Gen.Pre_finite_inputs
import Idealize.ShloMosaic.Adequacy
import Idealize.ShloMosaic.Init
import proofs.«137498_j26774826123929_1_alg».proof.Proof.KernelRun
import proofs.«137498_j26774826123929_1_alg».proof.Proof.KernelValue
import proofs.«137498_j26774826123929_1_alg».proof.Proof.RefRun
import proofs.«137498_j26774826123929_1_alg».proof.Proof.RefValue
import proofs.«137498_j26774826123929_1_alg».proof.Proof.RefKeeps
import proofs.«137498_j26774826123929_1_alg».proof.Proof.LayerLaws

noncomputable section

open Idealize.ShloMosaic Idealize.ShloMosaic.TcCoe Idealize.SL.Sem

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the buffers other than the arguments forgotten. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Line.keeps_arg0 _),
     (h c Cert.ReferenceIdeal.main_arg1).trans (Cert.ReferenceIdeal.Line.keeps_arg1 _),
     (h c Cert.ReferenceIdeal.main_arg2).trans (Cert.ReferenceIdeal.Line.keeps_arg2 _),
     (h c Cert.ReferenceIdeal.main_arg3).trans (Cert.ReferenceIdeal.Line.keeps_arg3 _),
     (h c Cert.ReferenceIdeal.main_arg4).trans (Cert.ReferenceIdeal.Line.keeps_arg4 _),
     (h c Cert.ReferenceIdeal.main_arg5).trans (Cert.ReferenceIdeal.Line.keeps_arg5 _),
     (h c Cert.ReferenceIdeal.main_arg6).trans (Cert.ReferenceIdeal.Line.keeps_arg6 _),
     (h c Cert.ReferenceIdeal.main_arg7).trans (Cert.ReferenceIdeal.Line.keeps_arg7 _),
     (h c Cert.ReferenceIdeal.main_arg8).trans (Cert.ReferenceIdeal.Line.keeps_arg8 _),
     (h c Cert.ReferenceIdeal.main_arg9).trans (Cert.ReferenceIdeal.Line.keeps_arg9 _),
     (h c Cert.ReferenceIdeal.main_arg10).trans (Cert.ReferenceIdeal.Line.keeps_arg10 _),
     (h c Cert.ReferenceIdeal.main_arg11).trans (Cert.ReferenceIdeal.Line.keeps_arg11 _),
     (h c Cert.ReferenceIdeal.main_arg12).trans (Cert.ReferenceIdeal.Line.keeps_arg12 _),
     (h c Cert.ReferenceIdeal.main_arg13).trans (Cert.ReferenceIdeal.Line.keeps_arg13 _)⟩)
    (Cert.ReferenceIdeal.Line.run_main (F := Ideal) m ρ)

theorem preserves : Cert.preserves_Kernel_KernelIdeal := trivial

/-- Both runs end at one array: the kernel program's at the whole function with the mean as sum times reciprocal count,
    the reference's at the same with the mean as sum over count, of arguments that agree. -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v73),
    Cert.KernelIdeal.Result.run_result (F := Ideal) m ρ, ?_⟩
  refine (θ_run Cert.ReferenceIdeal.defs _ _).mono (fun r h c => ⟨?_,
     (h c Cert.ReferenceIdeal.main_arg0).trans (Cert.ReferenceIdeal.Line.keeps_arg0 _),
     (h c Cert.ReferenceIdeal.main_arg1).trans (Cert.ReferenceIdeal.Line.keeps_arg1 _),
     (h c Cert.ReferenceIdeal.main_arg2).trans (Cert.ReferenceIdeal.Line.keeps_arg2 _),
     (h c Cert.ReferenceIdeal.main_arg3).trans (Cert.ReferenceIdeal.Line.keeps_arg3 _),
     (h c Cert.ReferenceIdeal.main_arg4).trans (Cert.ReferenceIdeal.Line.keeps_arg4 _),
     (h c Cert.ReferenceIdeal.main_arg5).trans (Cert.ReferenceIdeal.Line.keeps_arg5 _),
     (h c Cert.ReferenceIdeal.main_arg6).trans (Cert.ReferenceIdeal.Line.keeps_arg6 _),
     (h c Cert.ReferenceIdeal.main_arg7).trans (Cert.ReferenceIdeal.Line.keeps_arg7 _),
     (h c Cert.ReferenceIdeal.main_arg8).trans (Cert.ReferenceIdeal.Line.keeps_arg8 _),
     (h c Cert.ReferenceIdeal.main_arg9).trans (Cert.ReferenceIdeal.Line.keeps_arg9 _),
     (h c Cert.ReferenceIdeal.main_arg10).trans (Cert.ReferenceIdeal.Line.keeps_arg10 _),
     (h c Cert.ReferenceIdeal.main_arg11).trans (Cert.ReferenceIdeal.Line.keeps_arg11 _),
     (h c Cert.ReferenceIdeal.main_arg12).trans (Cert.ReferenceIdeal.Line.keeps_arg12 _),
     (h c Cert.ReferenceIdeal.main_arg13).trans (Cert.ReferenceIdeal.Line.keeps_arg13 _)⟩)
    (Cert.ReferenceIdeal.Line.run_main (F := Ideal) m' ρ')
  refine (h c Cert.ReferenceIdeal.main_v97).trans ?_
  refine (Cert.ReferenceIdeal.Line.result_value _).trans ?_
  refine Eq.trans ?_ (Cert.KernelIdeal.Result.result_value m ρ c).symm
  refine Eq.trans ?_ (Cert.Sage.outByRecip_eq_outByDiv _ _ _ _ _ _ _ _ _ _ _ _ _ _).symm
  obtain ⟨e0, e1, e2, e3, e4, e5, e6, e7, e8, e9, e10, e11, e12, e13⟩ := hagree c
  rw [← e0, ← e1, ← e2, ← e3, ← e4, ← e5, ← e6, ← e7, ← e8, ← e9, ← e10, ← e11, ← e12, ← e13]
  all_goals rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
